-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S1024x256 : Shape := ⟨2, ![1024, 256]⟩
abbrev S4096x1024 : Shape := ⟨2, ![4096, 1024]⟩
abbrev S256x256 : Shape := ⟨2, ![256, 256]⟩
abbrev S256 : Shape := ⟨1, ![256]⟩
abbrev S_ : Shape := ⟨0, ![]⟩
abbrev S1024x4096 : Shape := ⟨2, ![1024, 4096]⟩
abbrev S1024x1024 : Shape := ⟨2, ![1024, 1024]⟩
abbrev S1024 : Shape := ⟨1, ![1024]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  transposes_S4096x1024_S1024x4096_1_0 : S4096x1024.Transposes [1, 0] S1024x4096
  reducesTo_S1024x1024_S1024_d0 : S1024x1024.ReducesTo [0] S1024
  bcast_S_S1024 : S_.BroadcastsInDim S1024 (![] : Fin 0 → Fin S1024.rank)
  reducesTo_S1024_S_d0 : S1024.ReducesTo [0] S_
  dot_S1024x4096_S4096x1024_S1024x1024_1_0_0_1_n_n_wf : DotDims.WF S1024x4096 S4096x1024 S1024x1024 [1] [0] [0] [1] [] []

variable [Facts]

def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf
def fn_part2 {F : FTy → Type} [FloatOps F] (main_arg2 : FVec F S4096x1024 .f32) (main_v33 : IVec S_ 1) : IVec S_ 1 :=
  let main_v34 : FVec F S1024x4096 .f32 := (transpose S1024x4096 [1, 0] · transposes_S4096x1024_S1024x4096_1_0) main_arg2
  let main_v35 : FVec F S1024x1024 .f32 := (fun l r => Host.dotGeneral dot_S1024x4096_S4096x1024_S1024x1024_1_0_0_1_n_n none l r) main_v34 main_arg2
  let main_v36 : FVec F S1024x1024 .f32 := Host.sqrt main_v35
  let main_cst_12 : FVec F S_ .f32 := constant S_ .f32 0x00000000#32
  let main_v37 : FVec F S1024 .f32 := (fun x v => Host.reduceAdd x v reducesTo_S1024x1024_S1024_d0 h_S_) main_v36 main_cst_12
  let main_cst_13 : FVec F S_ .f32 := constant S_ .f32 0x00000000#32
  let main_v38 : FVec F S1024 .f32 := broadcastInDim S1024 ![] bcast_S_S1024 main_cst_13
  let main_v39 : IVec S1024 1 := cmpf .une main_v37 main_v38
  let main_c_14 : IVec S_ 1 := constantI S_ 1 1#1
  let main_v40 : IVec S_ 1 := (fun x v => Host.reduce IntOp.andi x v reducesTo_S1024_S_d0 h_S_) main_v39 main_c_14
  let main_v41 : IVec S_ 1 := andi main_v33 main_v40
  main_v41

def fn_part1 {F : FTy → Type} [FloatOps F] (main_arg2 : FVec F S4096x1024 .f32) (main_arg4 : FVec F S256 .f32) (main_arg5 : FVec F S256x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg2 main_v33

def fn {F : FTy → Type} [FloatOps F] (main_arg0 : FVec F S10000x256 .f32) (main_arg1 : FVec F S1024x256 .f32) (main_arg2 : FVec F S4096x1024 .f32) (main_arg3 : FVec F S256x256 .f32) (main_arg4 : FVec F S256 .f32) (main_arg5 : FVec F S256x256 .f32) (main_arg6 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg2 main_arg4 main_arg5 main_arg6 main_v13 main_v16
-- ==== Kernel.lean ====
abbrev S10000x256 : Shape := ⟨2, ![10000, 256]⟩
abbrev S1024x256 : Shape := ⟨2, ![1024, 256]⟩
abbrev S4096x1024 : Shape := ⟨2, ![4096, 1024]⟩
abbrev S256x256 : Shape := ⟨2, ![256, 256]⟩
abbrev S256 : Shape := ⟨1, ![256]⟩
abbrev S1x256 : Shape := ⟨2, ![1, 256]⟩
abbrev S1024x1024 : Shape := ⟨2, ![1024, 1024]⟩
abbrev S2000x256 : Shape := ⟨2, ![2000, 256]⟩
abbrev S512x512 : Shape := ⟨2, ![512, 512]⟩
abbrev S1024x384 : Shape := ⟨2, ![1024, 384]⟩
abbrev S1024x512 : Shape := ⟨2, ![1024, 512]⟩
abbrev S512 : Shape := ⟨1, ![512]⟩
abbrev S512x256 : Shape := ⟨2, ![512, 256]⟩
abbrev S512x1 : Shape := ⟨2, ![512, 1]⟩
abbrev S1024x128 : Shape := ⟨2, ![1024, 128]⟩
abbrev S2000x1024 : Shape := ⟨2, ![2000, 1024]⟩
abbrev S2000x384 : Shape := ⟨2, ![2000, 384]⟩
abbrev S2000x1 : Shape := ⟨2, ![2000, 1]⟩

abbrev nBuf : Space → Nat
  | .hbm => 10
  | .vmem => 16
  | .smem => 0
  | _ => 0

abbrev bufTy : (tb : Table) → Fin (tcTables nBuf tb) → BufTy
  | .hbm, ⟨0, _⟩ => ⟨S10000x256, .f32⟩
  | .hbm, ⟨1, _⟩ => ⟨S1024x256, .f32⟩
  | .hbm, ⟨2, _⟩ => ⟨S4096x1024, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S1x256, .f32⟩
  | .hbm, ⟨8, _⟩ => ⟨S1x256, .f32⟩
  | .hbm, ⟨9, _⟩ => ⟨S10000x256, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S256x256, .f32⟩
  | .local _ .vmem, ⟨4, _⟩ => ⟨S1x256, .f32⟩
  | .local _ .vmem, ⟨5, _⟩ => ⟨S2000x256, .f32⟩
  | .local _ .vmem, ⟨6, _⟩ => ⟨S2000x256, .f32⟩
  | .local _ .vmem, ⟨7, _⟩ => ⟨S256x256, .f32⟩
  | .local _ .vmem, ⟨8, _⟩ => ⟨S1x256, .f32⟩
  | .local _ .vmem, ⟨9, _⟩ => ⟨S2000x256, .f32⟩
  | .local _ .vmem, ⟨10, _⟩ => ⟨S2000x256, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S1024x384, .bf16⟩
  | .local _ .vmem, ⟨15, _⟩ => ⟨S1024x256, .bf16⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![9], ![false]⟩

def k0_cond4 (i : grid0.Coords) : BitVec 1 :=
  let arg0 : BitVec 32 := BitVec.ofNat 32 (i 0).val
  let c4_i32_4 : BitVec 32 := 4#32
  let v11 : BitVec 1 := Scalar.cmpi .sge arg0 c4_i32_4
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S256_S1x256 : S256.ShapeCasts S1x256
  inb_S1024x1024_S1024x512_0_0 : ∀ a, (![0, 0] : Fin 2 → Nat) a + S1024x512.size a ≤ S1024x1024.size a
  h_S1024x512 : 0 < S1024x512.numel
  bitsLt_bf16_f32 : FTy.bits .bf16 < FTy.bits .f32
  inb_S1024x1024_S1024x512_0_512 : ∀ a, (![0, 512] : Fin 2 → Nat) a + S1024x512.size a ≤ S1024x1024.size a
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S512x512_S512 : S512x512.Reduces [0] S512
  reduces_S512x512_S512_2 : S512x512.Reduces [1] S512
  inb_S1024x256_S1024x256_0_0 : ∀ a, (![0, 0] : Fin 2 → Nat) a + S1024x256.size a ≤ S1024x256.size a
  h_S1024x256 : 0 < S1024x256.numel
  slices_S1024x256_o0_0_S512x256 : S1024x256.Slices ![0, 0] S512x256
  shapeCasts_S512_S512x1 : S512.ShapeCasts S512x1
  broadcasts_S512x1_S512x256 : S512x1.Broadcasts S512x256
  slices_S1024x256_o512_0_S512x256 : S1024x256.Slices ![512, 0] S512x256
  inb_S1024x384_S512x256_0_0 : ∀ a, (![0, 0] : Fin 2 → Nat) a + S512x256.size a ≤ S1024x384.size a
  h_S512x256 : 0 < S512x256.numel
  shapeCasts_S512x256_S512x256 : S512x256.ShapeCasts S512x256
  packedbf16_S1024x384_S512x256_0_0 : (Rect.unit (s := S1024x384) ![0, 0] S512x256.size inb_S1024x384_S512x256_0_0).PackedRows (EltTy.packing .bf16)
  inb_S1024x384_S512x256_512_0 : ∀ a, (![512, 0] : Fin 2 → Nat) a + S512x256.size a ≤ S1024x384.size a
  packedbf16_S1024x384_S512x256_512_0 : (Rect.unit (s := S1024x384) ![512, 0] S512x256.size inb_S1024x384_S512x256_512_0).PackedRows (EltTy.packing .bf16)
  inb_S1024x384_S1024x128_0_256 : ∀ a, (![0, 256] : Fin 2 → Nat) a + S1024x128.size a ≤ S1024x384.size a
  h_S1024x128 : 0 < S1024x128.numel
  shapeCasts_S1024x128_S1024x128 : S1024x128.ShapeCasts S1024x128
  packedbf16_S1024x384_S1024x128_0_256 : (Rect.unit (s := S1024x384) ![0, 256] S1024x128.size inb_S1024x384_S1024x128_0_256).PackedRows (EltTy.packing .bf16)
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  shapeCasts_S1024x256_S1024x256 : S1024x256.ShapeCasts S1024x256
  packedbf16_S1024x256_S1024x256_0_0 : (Rect.unit (s := S1024x256) ![0, 0] S1024x256.size inb_S1024x256_S1024x256_0_0).PackedRows (EltTy.packing .bf16)
  inb_S2000x256_S2000x256_0_0 : ∀ a, (![0, 0] : Fin 2 → Nat) a + S2000x256.size a ≤ S2000x256.size a
  h_S2000x256 : 0 < S2000x256.numel
  broadcasts_S1x256_S2000x256 : S1x256.Broadcasts S2000x256
  inb_S1024x384_S1024x384_0_0 : ∀ a, (![0, 0] : Fin 2 → Nat) a + S1024x384.size a ≤ S1024x384.size a
  h_S1024x384 : 0 < S1024x384.numel
  slices_S2000x384_o0_0_S2000x256 : S2000x384.Slices ![0, 0] S2000x256
  slices_S2000x384_o0_256_S2000x1 : S2000x384.Slices ![0, 256] S2000x1
  broadcasts_S2000x1_S2000x256 : S2000x1.Broadcasts S2000x256
  dot_S1024x512_S1024x512_S512x512_0_0_1_1_n_n_wf : DotDims.WF S1024x512 S1024x512 S512x512 [0] [0] [1] [1] [] []
  dot_S512x512_S512x256_S512x256_1_0_0_1_n_n_wf : DotDims.WF S512x512 S512x256 S512x256 [1] [0] [0] [1] [] []
  dot_S512x512_S512x256_S512x256_0_0_1_1_n_n_wf : DotDims.WF S512x512 S512x256 S512x256 [0] [0] [1] [1] [] []
  dot_S1024x256_S256x256_S1024x256_1_1_0_0_n_n_wf : DotDims.WF S1024x256 S256x256 S1024x256 [1] [1] [0] [0] [] []
  dot_S2000x256_S256x256_S2000x256_1_1_0_0_n_n_wf : DotDims.WF S2000x256 S256x256 S2000x256 [1] [1] [0] [0] [] []
  dot_S2000x256_S1024x256_S2000x1024_1_1_0_0_n_n_wf : DotDims.WF S2000x256 S1024x256 S2000x1024 [1] [1] [0] [0] [] []
  dot_S2000x1024_S1024x384_S2000x384_1_0_0_1_n_n_wf : DotDims.WF S2000x1024 S1024x384 S2000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S10000x256.size a
  hwx0_4 : ∀ i : grid0.Coords, EltTy.bits .f32 = 32 ∨ (Rect.block (s := S10000x256) S2000x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S10000x256.size a
  hwx0_7 : ∀ i : grid0.Coords, EltTy.bits .f32 = 32 ∨ (Rect.block (s := S10000x256) S2000x256.size (cc0_transform_7 i) (hinb0_7 i)).WholeWords (EltTy.packing .f32)

variable [Facts₀]

def dot_S1024x512_S1024x512_S512x512_0_0_1_1_n_n : DotDims S1024x512 S1024x512 S512x512 where
  lhsContracting := [0]
  rhsContracting := [0]
  lhsNonContracting := [1]
  rhsNonContracting := [1]
  lhsBatch := []
  rhsBatch := []
  wf := dot_S1024x512_S1024x512_S512x512_0_0_1_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x512_S512x256_S512x256_0_0_1_1_n_n : DotDims S512x512 S512x256 S512x256 where
  lhsContracting := [0]
  rhsContracting := [0]
  lhsNonContracting := [1]
  rhsNonContracting := [1]
  lhsBatch := []
  rhsBatch := []
  wf := dot_S512x512_S512x256_S512x256_0_0_1_1_n_n_wf
def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf
def dot_S2000x256_S256x256_S2000x256_1_1_0_0_n_n : DotDims S2000x256 S256x256 S2000x256 where
  lhsContracting := [1]
  rhsContracting := [1]
  lhsNonContracting := [0]
  rhsNonContracting := [0]
  lhsBatch := []
  rhsBatch := []
  wf := dot_S2000x256_S256x256_S2000x256_1_1_0_0_n_n_wf
def dot_S2000x256_S1024x256_S2000x1024_1_1_0_0_n_n : DotDims S2000x256 S1024x256 S2000x1024 where
  lhsContracting := [1]
  rhsContracting := [1]
  lhsNonContracting := [0]
  rhsNonContracting := [0]
  lhsBatch := []
  rhsBatch := []
  wf := dot_S2000x256_S1024x256_S2000x1024_1_1_0_0_n_n_wf
def dot_S2000x1024_S1024x384_S2000x384_1_0_0_1_n_n : DotDims S2000x1024 S1024x384 S2000x384 where
  lhsContracting := [1]
  rhsContracting := [0]
  lhsNonContracting := [0]
  rhsNonContracting := [1]
  lhsBatch := []
  rhsBatch := []
  wf := dot_S2000x1024_S1024x384_S2000x384_1_0_0_1_n_n_wf

abbrev win0_0 : Pipeline.Window sig grid0 :=
  Pipeline.Window.ofSpec (Memref.whole main_arg2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S2000x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S2000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond4 i == 1#1) | ⟨_ + 8, h⟩ => absurd h (Nat.not_lt.2 (Nat.le_add_left _ _))

class Facts : Prop extends Facts₀ where

variable [Facts]
-- ==== ReferenceIdeal.lean ====
abbrev S10000x256 : Shape := ⟨2, ![10000, 256]⟩
abbrev S1024x256 : Shape := ⟨2, ![1024, 256]⟩
abbrev S4096x1024 : Shape := ⟨2, ![4096, 1024]⟩
abbrev S256x256 : Shape := ⟨2, ![256, 256]⟩
abbrev S256 : Shape := ⟨1, ![256]⟩
abbrev S1x256 : Shape := ⟨2, ![1, 256]⟩
abbrev S256x1024 : Shape := ⟨2, ![256, 1024]⟩
abbrev S10000x1024 : Shape := ⟨2, ![10000, 1024]⟩
abbrev S_ : Shape := ⟨0, ![]⟩
abbrev S10000 : Shape := ⟨1, ![10000]⟩
abbrev S10000x1 : Shape := ⟨2, ![10000, 1]⟩
abbrev S1024x4096 : Shape := ⟨2, ![1024, 4096]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S1024x256, .f32⟩
  | .hbm, ⟨2, _⟩ => ⟨S4096x1024, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S10000x256, .f32⟩
  | .hbm, ⟨9, _⟩ => ⟨S1x256, .f32⟩
  | .hbm, ⟨10, _⟩ => ⟨S10000x256, .f32⟩
  | .hbm, ⟨11, _⟩ => ⟨S10000x256, .f32⟩
  | .hbm, ⟨12, _⟩ => ⟨S256x256, .f32⟩
  | .hbm, ⟨13, _⟩ => ⟨S1024x256, .f32⟩
  | .hbm, ⟨14, _⟩ => ⟨S1x256, .f32⟩
  | .hbm, ⟨15, _⟩ => ⟨S1024x256, .f32⟩
  | .hbm, ⟨16, _⟩ => ⟨S1024x256, .f32⟩
  | .hbm, ⟨17, _⟩ => ⟨S256x1024, .f32⟩
  | .hbm, ⟨18, _⟩ => ⟨S10000x1024, .f32⟩
  | .hbm, ⟨19, _⟩ => ⟨S_, .f32⟩
  | .hbm, ⟨20, _⟩ => ⟨S10000x1024, .f32⟩
  | .hbm, ⟨21, _⟩ => ⟨S10000x1024, .f32⟩
  | .hbm, ⟨22, _⟩ => ⟨S_, .f32⟩
  | .hbm, ⟨23, _⟩ => ⟨S10000, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S10000x1, .f32⟩
  | .hbm, ⟨28, _⟩ => ⟨S10000x1024, .f32⟩
  | .hbm, ⟨29, _⟩ => ⟨S10000x1024, .f32⟩
  | .hbm, ⟨30, _⟩ => ⟨S10000x1024, .f32⟩
  | .hbm, ⟨31, _⟩ => ⟨S_, .f32⟩
  | .hbm, ⟨32, _⟩ => ⟨S10000, .f32⟩
  | .hbm, ⟨33, _⟩ => ⟨S10000x1, .f32⟩
  | .hbm, ⟨34, _⟩ => ⟨S10000x1024, .f32⟩
  | .hbm, ⟨35, _⟩ => ⟨S10000x1024, .f32⟩
  | .hbm, ⟨36, _⟩ => ⟨S1024x4096, .f32⟩
  | .hbm, ⟨37, _⟩ => ⟨S1024x1024, .f32⟩
  | .hbm, ⟨38, _⟩ => ⟨S1024x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S1024x1024, .f32⟩
  | .hbm, ⟨43, _⟩ => ⟨S1024x1024, .f32⟩
  | .hbm, ⟨44, _⟩ => ⟨S1024x256, .f32⟩
  | .hbm, ⟨45, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S1x256_S1024x256_0_1 : S1x256.BroadcastsInDim S1024x256 (![0, 1] : Fin 2 → Fin S1024x256.rank)
  transposes_S1024x256_S256x1024_1_0 : S1024x256.Transposes [1, 0] S256x1024
  bcast_S_S10000x1024 : S_.BroadcastsInDim S10000x1024 (![] : Fin 0 → Fin S10000x1024.rank)
  reducesTo_S10000x1024_S10000_d1 : S10000x1024.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x1024_0_1 : S10000x1.BroadcastsInDim S10000x1024 (![0, 1] : Fin 2 → Fin S10000x1024.rank)
  transposes_S4096x1024_S1024x4096_1_0 : S4096x1024.Transposes [1, 0] S1024x4096
  reducesTo_S1024x1024_S1024_d0 : S1024x1024.ReducesTo [0] S1024
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  dot_S10000x256_S256x256_S10000x256_1_0_0_1_n_n_wf : DotDims.WF S10000x256 S256x256 S10000x256 [1] [0] [0] [1] [] []
  dot_S1024x256_S256x256_S1024x256_1_0_0_1_n_n_wf : DotDims.WF S1024x256 S256x256 S1024x256 [1] [0] [0] [1] [] []
  dot_S10000x256_S256x1024_S10000x1024_1_0_0_1_n_n_wf : DotDims.WF S10000x256 S256x1024 S10000x1024 [1] [0] [0] [1] [] []
  dot_S1024x4096_S4096x1024_S1024x1024_1_0_0_1_n_n_wf : DotDims.WF S1024x4096 S4096x1024 S1024x1024 [1] [0] [0] [1] [] []
  dot_S1024x1024_S1024x256_S1024x256_1_0_0_1_n_n_wf : DotDims.WF S1024x1024 S1024x256 S1024x256 [1] [0] [0] [1] [] []
  dot_S10000x1024_S1024x256_S10000x256_1_0_0_1_n_n_wf : DotDims.WF S10000x1024 S1024x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S10000x256_S256x1024_S10000x1024_1_0_0_1_n_n : DotDims S10000x256 S256x1024 S10000x1024 where
  lhsContracting := [1]
  rhsContracting := [0]
  lhsNonContracting := [0]
  rhsNonContracting := [1]
  lhsBatch := []
  rhsBatch := []
  wf := dot_S10000x256_S256x1024_S10000x1024_1_0_0_1_n_n_wf
def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S10000x1024_S1024x256_S10000x256_1_0_0_1_n_n : DotDims S10000x1024 S1024x256 S10000x256 where
  lhsContracting := [1]
  rhsContracting := [0]
  lhsNonContracting := [0]
  rhsNonContracting := [1]
  lhsBatch := []
  rhsBatch := []
  wf := dot_S10000x1024_S1024x256_S10000x256_1_0_0_1_n_n_wf

class Facts : Prop extends Facts₀ where

variable [Facts]
-- ==== Proof.K.Runs.lean ====
import proofs.«127533_g52209622450808_cont_9to1_m_767_25_alg».proof.Proof.Gen.Kernel.Frame
import proofs.«127533_g52209622450808_cont_9to1_m_767_25_alg».proof.Proof.Gen.Kernel.Skeleton
import Idealize.ShloMosaic.Lib.Pipeline.FrameBody
import Idealize.ShloMosaic.Lib.Ring
import Idealize.ShloMosaic.Lib.Tactic

/-!
  What the four runs of the kernel body share. The body branches on the grid coordinate `i` alone:
  at `i = 0` it stores the three Gram quadrants of the first chunk of `fix` (case A); at `0 < i < 4` it adds the
  next chunk's quadrants to them (case B at `i = 1, 2`); at `i = 3` it does that and then finishes the preamble:
  the mixed `other` and the scaled keys go to their scratch buffers (case C); at `i ≥ 4` it computes one block of
  attention rows from those two buffers (case D). Here: the four conditions as propositions with their closed
  forms over the nine points, where the output window is idle (every point before the fifth, none of which
  writes it back), the staging and scratch memrefs the body is called with, and the region invariant of the
  class spelled over the five scratch buffers.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- `i = 0`. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
/-- `0 < i < 4`. -/
abbrev cond0_1 (i : grid0.Coords) : Prop := (Scalar.cmpi .ne (Scalar.extui (Scalar.andi (Scalar.cmpi .sgt (BitVec.ofNat 32 (i 0).val) 0#32) (Scalar.cmpi .slt (BitVec.ofNat 32 (i 0).val) 4#32))) 0#32) = 1#1
theorem hcond0_1 : ∀ t : Fin cfg0.N, cond0_1 (grid0.coords t) ↔ (1 ≤ t.val ∧ t.val ≤ 3) :=
  (by decide +kernel : ∀ t : Fin grid0.N, cond0_1 (grid0.coords t) ↔ (1 ≤ t.val ∧ t.val ≤ 3))
/-- `i = 3`. -/
abbrev cond0_2 (i : grid0.Coords) : Prop := (Scalar.cmpi .ne (Scalar.extui (Scalar.cmpi .eq (BitVec.ofNat 32 (i 0).val) 3#32)) 0#32) = 1#1
theorem hcond0_2 : ∀ t : Fin cfg0.N, cond0_2 (grid0.coords t) ↔ t.val = 3 :=
  (by decide +kernel : ∀ t : Fin grid0.N, cond0_2 (grid0.coords t) ↔ t.val = 3)
/-- `i ≥ 4`. -/
abbrev cond0_3 (i : grid0.Coords) : Prop := k0_cond4 i = 1#1
theorem hcond0_3 : ∀ t : Fin cfg0.N, cond0_3 (grid0.coords t) ↔ 4 ≤ t.val :=
  (by decide +kernel : ∀ t : Fin grid0.N, cond0_3 (grid0.coords t) ↔ 4 ≤ t.val)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Before the fifth point the body stores nothing into the output window, and the pipeline does not write it back there. -/
theorem idleAt0_7 : ∀ t : Fin cfg0.N, ¬cond0_3 (grid0.coords t) → cfg0.idle 7 (grid0.coords t) = true := by decide +kernel
theorem noFlush0_7 : ∀ t : Fin cfg0.N, ¬cond0_3 (grid0.coords t) → (cfg0.win 7).flush t = false := by decide +kernel
/-- From the fifth point on the body stores the output window's whole block. -/
theorem liveAt0_7 : ∀ t : Fin cfg0.N, cond0_3 (grid0.coords t) → cfg0.idle 7 (grid0.coords t) = false := by decide +kernel

/-! ## The memrefs the body is called with -/

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2000x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2000x256 .f32 := win0_7.stage (cfg0.slots t 7)
abbrev hs0_7 (t : Fin cfg0.N) : (ms0_7 t).IsWhole := hstage0_7 ((cfg0.slots t 7).cast nbuf0_7)

/-- The five scratch operands: the three Gram quadrants, the mixed `other` beside a block of ones, the scaled keys. -/
abbrev scM0_0 : Memref sig .tc .vmem S512x512 .f32 := Memref.whole cc0_scratch0
abbrev scM0_1 : Memref sig .tc .vmem S512x512 .f32 := Memref.whole cc0_scratch1
abbrev scM0_2 : Memref sig .tc .vmem S512x512 .f32 := Memref.whole cc0_scratch2
abbrev scM0_3 : Memref sig .tc .vmem S1024x384 .bf16 := Memref.whole cc0_scratch3
abbrev scM0_4 : Memref sig .tc .vmem S1024x256 .bf16 := Memref.whole cc0_scratch4

/-- The views through which the carried contents are stated. -/
abbrev VO0_7 : View sig .tc .vmem S2000x256 .f32 := (Memref.whole cc0_stg7_0 : Memref sig .tc .vmem S2000x256 .f32).view
abbrev VS0_0 : View sig .tc .vmem S512x512 .f32 := scM0_0.view
abbrev VS0_1 : View sig .tc .vmem S512x512 .f32 := scM0_1.view
abbrev VS0_2 : View sig .tc .vmem S512x512 .f32 := scM0_2.view
abbrev VS0_3 : View sig .tc .vmem S1024x384 .bf16 := scM0_3.view
abbrev VS0_4 : View sig .tc .vmem S1024x256 .bf16 := scM0_4.view

/-- The class's region invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)
          ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Hand

end
-- ==== Proof.K.RunA.lean ====
import proofs.«127533_g52209622450808_cont_9to1_m_767_25_alg».proof.Proof.K.Runs

/-!
  The kernel body at the first grid point (`i = 0`): it loads the two column halves of the current chunk of `fix`
  and stores the three Gram quadrants of that chunk over whatever the three quadrant buffers held. The pieces each
  quadrant buffer ends with are found by running the body.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A (`i = 0`): from the `fix` block at contents `x0` and the three quadrant buffers at anything, the body runs
    to the continuation holding the block unchanged and each quadrant buffer with its pieces written. -/
noncomputable def kernelRun0_A (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole)
    (hc0 : cond0_0 i) (hc1 : ¬cond0_1 i) (hc2 : ¬cond0_2 i) (hc3 : ¬cond0_3 i)
    (x0 : Vec F S1024x1024 .f32) :
    Σ' (LS0 : List (View.Piece (Elt F) S512x512 .f32)) (LS1 : List (View.Piece (Elt F) S512x512 .f32)), { LS2 : List (View.Piece (Elt F) S512x512 .f32) //
      ∀ (E : Set ℕ) (K : PUnit → sProp 𝕄),
        iprop(owns (c : Thread nD τ) arg1 fullShare x0 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0__fused_kernel_eq_skeleton]; unfold cc0__fused_kernel_skel
    unfold owns
    iintro ⟨⟨%f0, %hf0, H0⟩, ⟨%ds0, %fs0, -, HS0⟩, ⟨%ds1, %fs1, -, HS1⟩, ⟨%ds2, %fs2, -, HS2⟩, Hk⟩
    obtain rfl := harg1.eq_unread hf0
    sl_exec (disch := first | exact hc0 | exact hc1 | exact hc2 | exact hc3)
    sl_step
    iapply Hk
    isplitl [H0]
    · iexists _; isplitr; · ipureintro; exact harg1.read_unread _
      iexact H0
    isplitl [HS0]; · iexists _; iexact HS0
    isplitl [HS1]; · iexists _; iexact HS1
    iexists _; iexact HS2

end Cert.Kernel.Hand

end
-- ==== Proof.K.RunB.lean ====
import proofs.«127533_g52209622450808_cont_9to1_m_767_25_alg».proof.Proof.K.Runs

/-!
  The kernel body at the second and third grid points (`0 < i < 3`): it loads the two column halves of the current
  chunk of `fix` and adds that chunk's three Gram quadrants to what the quadrant buffers hold.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B (`i = 1, 2`): from the `fix` block at `x0` and the three quadrant buffers at `xs0`, `xs1`, `xs2`, the body runs
    to the continuation holding the block unchanged and each quadrant buffer with its pieces written. -/
noncomputable def kernelRun0_B (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole)
    (hc0 : ¬cond0_0 i) (hc1 : cond0_1 i) (hc2 : ¬cond0_2 i) (hc3 : ¬cond0_3 i)
    (x0 : Vec F S1024x1024 .f32) (xs0 : Vec F S512x512 .f32) (xs1 : Vec F S512x512 .f32) (xs2 : Vec F S512x512 .f32) :
    Σ' (LS0 : List (View.Piece (Elt F) S512x512 .f32)) (LS1 : List (View.Piece (Elt F) S512x512 .f32)), { LS2 : List (View.Piece (Elt F) S512x512 .f32) //
      ∀ (E : Set ℕ) (K : PUnit → sProp 𝕄),
        iprop(owns (c : Thread nD τ) arg1 fullShare x0 ∗ owns (c : Thread nD τ) arg9 fullShare xs0 ∗ owns (c : Thread nD τ) arg10 fullShare xs1 ∗ owns (c : Thread nD τ) arg11 fullShare xs2
            ∗ (iprop(owns (c : Thread nD τ) arg1 fullShare x0 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0__fused_kernel_eq_skeleton]; unfold cc0__fused_kernel_skel
    unfold owns
    iintro ⟨⟨%f0, %hf0, H0⟩, ⟨%fs0, %hfs0, HS0⟩, ⟨%fs1, %hfs1, HS1⟩, ⟨%fs2, %hfs2, HS2⟩, Hk⟩
    obtain rfl := harg1.eq_unread hf0; obtain rfl := harg9.eq_unread hfs0; obtain rfl := harg10.eq_unread hfs1; obtain rfl := harg11.eq_unread hfs2
    sl_exec (disch := first | exact hc0 | exact hc1 | exact hc2 | exact hc3)
    sl_step
    iapply Hk
    isplitl [H0]
    · iexists _; isplitr; · ipureintro; exact harg1.read_unread _
      iexact H0
    isplitl [HS0]; · iexists _; iexact HS0
    isplitl [HS1]; · iexists _; iexact HS1
    iexists _; iexact HS2

end Cert.Kernel.Hand

end
-- ==== Proof.K.RunC.lean ====
import proofs.«127533_g52209622450808_cont_9to1_m_767_25_alg».proof.Proof.K.Runs

/-!
  The kernel body at the fourth grid point (`i = 3`): it adds the last chunk's Gram quadrants, then finishes the
  preamble: square roots of the quadrants, the column sums, `other` divided row by row and mixed by the roots into the
  first 256 columns of the mixing buffer, ones into its last 128 columns, and the scaled keys into their buffer.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C (`i = 3`): from the `fix` block at `x0`, `other` at `x1`, `Wk` at `x2`, `bk` at `x3`, the three quadrant buffers at
    `xs0`, `xs1`, `xs2` and the two late buffers at anything, the body runs to the continuation holding the inputs unchanged and
    each of the five scratch buffers with its pieces written. -/
noncomputable def kernelRun0_C (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole)
    (hc0 : ¬cond0_0 i) (hc1 : cond0_1 i) (hc2 : cond0_2 i) (hc3 : ¬cond0_3 i)
    (x0 : Vec F S1024x1024 .f32) (x1 : Vec F S1024x256 .f32) (x2 : Vec F S256x256 .f32) (x3 : Vec F S1x256 .f32) (xs0 : Vec F S512x512 .f32) (xs1 : Vec F S512x512 .f32) (xs2 : Vec F S512x512 .f32) :
    Σ' (LS0 : List (View.Piece (Elt F) S512x512 .f32)) (LS1 : List (View.Piece (Elt F) S512x512 .f32)) (LS2 : List (View.Piece (Elt F) S512x512 .f32)) (LS3 : List (View.Piece (Elt F) S1024x384 .bf16)), { LS4 : List (View.Piece (Elt F) S1024x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg9 fullShare xs0 ∗ owns (c : Thread nD τ) arg10 fullShare xs1 ∗ owns (c : Thread nD τ) arg11 fullShare xs2 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg9.eq_unread hfs0; obtain rfl := harg10.eq_unread hfs1; obtain rfl := harg11.eq_unread hfs2
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    isplitl [HS1]; · iexists _; iexact HS1
    isplitl [HS2]; · iexists _; iexact HS2
    isplitl [HS3]; · iexists _; iexact HS3
    iexists _; iexact HS4

end Cert.Kernel.Hand

end
-- ==== Proof.K.RunD.lean ====
import proofs.«127533_g52209622450808_cont_9to1_m_767_25_alg».proof.Proof.K.Runs

/-!
  The kernel body from the fifth grid point on (`i ≥ 4`): one block of 2000 query rows. It projects the rows, takes the
  logits against the scaled keys, exponentiates, multiplies by the mixing buffer (whose last columns are ones, so that one
  product gives the weighted sums and the exponentials' sum), and stores the weighted sums times the reciprocal of that sum.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case D (`i ≥ 4`): from the `main` block at `x4`, `Wq` at `x5`, `bq` at `x6`, the mixing buffer at `xs3`, the key buffer at
    `xs4` and the output buffer at anything, the body runs to the continuation holding all of those unchanged and the output
    buffer with its pieces written. -/
noncomputable def kernelRun0_D (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole)
    (hc0 : ¬cond0_0 i) (hc1 : ¬cond0_1 i) (hc2 : ¬cond0_2 i) (hc3 : cond0_3 i)
    (x4 : Vec F S2000x256 .f32) (x5 : Vec F S256x256 .f32) (x6 : Vec F S1x256 .f32) (xs3 : Vec F S1024x384 .bf16) (xs4 : Vec F S1024x256 .bf16) :
    { L7 : List (View.Piece (Elt F) S2000x256 .f32) //
      ∀ (E : Set ℕ) (K : PUnit → sProp 𝕄),
        iprop(owns (c : Thread nD τ) arg5 fullShare x4 ∗ owns (c : Thread nD τ) arg6 fullShare x5 ∗ owns (c : Thread nD τ) arg7 fullShare x6 ∗ owns (c : Thread nD τ) arg12 fullShare xs3 ∗ owns (c : Thread nD τ) arg13 fullShare xs4 ∗ (∃ d, owns (c : Thread nD τ) arg8 fullShare d)
            ∗ (iprop(owns (c : Thread nD τ) arg5 fullShare x4 ∗ owns (c : Thread nD τ) arg6 fullShare x5 ∗ owns (c : Thread nD τ) arg7 fullShare x6 ∗ owns (c : Thread nD τ) arg12 fullShare xs3 ∗ owns (c : Thread nD τ) arg13 fullShare xs4 ∗ (∃ f, arg8.view.loc (c : Thread nD τ) ↦[arg8.view.set]{fullShare} arg8.view.writes (Elt F) f L7)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__fused_kernel_eq_skeleton]; unfold cc0__fused_kernel_skel
    unfold owns
    iintro ⟨⟨%f4, %hf4, H4⟩, ⟨%f5, %hf5, H5⟩, ⟨%f6, %hf6, H6⟩, ⟨%fs3, %hfs3, HS3⟩, ⟨%fs4, %hfs4, HS4⟩, ⟨%d7, %f7, -, H7⟩, Hk⟩
    obtain rfl := harg5.eq_unread hf4; obtain rfl := harg6.eq_unread hf5; obtain rfl := harg7.eq_unread hf6; obtain rfl := harg12.eq_unread hfs3; obtain rfl := harg13.eq_unread hfs4
    sl_exec (disch := first | exact hc0 | exact hc1 | exact hc2 | exact hc3)
    sl_step
    iapply Hk
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS3]
    · iexists _; isplitr; · ipureintro; exact harg12.read_unread _
      iexact HS3
    isplitl [HS4]
    · iexists _; isplitr; · ipureintro; exact harg13.read_unread _
      iexact HS4
    iexists _; iexact H7

end Cert.Kernel.Hand

end
-- ==== Proof.K.Carried.lean ====
import proofs.«127533_g52209622450808_cont_9to1_m_767_25_alg».proof.Proof.K.RunA
import proofs.«127533_g52209622450808_cont_9to1_m_767_25_alg».proof.Proof.K.RunB
import proofs.«127533_g52209622450808_cont_9to1_m_767_25_alg».proof.Proof.K.RunC
import proofs.«127533_g52209622450808_cont_9to1_m_767_25_alg».proof.Proof.K.RunD

/-!
  The pipeline's proof data for the fused kernel, and its frame run.

  Five scratch buffers are carried between grid points: the three Gram quadrants (reset at point 0, accumulated at
  points 1 to 3, read at point 3), the mixing buffer and the key buffer (written at point 3, read from point 4 on).
  `carriedAt n` is what those buffers and the output window's staging buffer hold after point `n`, by recursion on
  the point: the case of the body that the point is in, run on the point's input blocks and on what the point before
  left. The region invariant before point `n + 1` owns the three quadrant buffers at those contents and the two late
  buffers at some contents, which are the carried ones once point 3 has run. The output window is idle before
  point 4 (the body hands its buffer back as found, and the pipeline does not write it back there).
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case a point is in -/

theorem caseA (t : Fin cfg0.N) (h : t.val = 0) :
    cond0_0 (grid0.coords t) ∧ ¬cond0_1 (grid0.coords t) ∧ ¬cond0_2 (grid0.coords t) ∧ ¬cond0_3 (grid0.coords t) :=
  ⟨(hcond0_0 t).mpr h, fun k => by have := (hcond0_1 t).mp k; omega, fun k => by have := (hcond0_2 t).mp k; omega,
    fun k => by have := (hcond0_3 t).mp k; omega⟩
theorem caseB (t : Fin cfg0.N) (h : 1 ≤ t.val ∧ t.val ≤ 2) :
    ¬cond0_0 (grid0.coords t) ∧ cond0_1 (grid0.coords t) ∧ ¬cond0_2 (grid0.coords t) ∧ ¬cond0_3 (grid0.coords t) :=
  ⟨fun k => by have := (hcond0_0 t).mp k; omega, (hcond0_1 t).mpr ⟨h.1, by omega⟩, fun k => by have := (hcond0_2 t).mp k; omega,
    fun k => by have := (hcond0_3 t).mp k; omega⟩
theorem caseC (t : Fin cfg0.N) (h : t.val = 3) :
    ¬cond0_0 (grid0.coords t) ∧ cond0_1 (grid0.coords t) ∧ cond0_2 (grid0.coords t) ∧ ¬cond0_3 (grid0.coords t) :=
  ⟨fun k => by have := (hcond0_0 t).mp k; omega, (hcond0_1 t).mpr ⟨by omega, by omega⟩, (hcond0_2 t).mpr h,
    fun k => by have := (hcond0_3 t).mp k; omega⟩
theorem caseD (t : Fin cfg0.N) (h : 4 ≤ t.val) :
    ¬cond0_0 (grid0.coords t) ∧ ¬cond0_1 (grid0.coords t) ∧ ¬cond0_2 (grid0.coords t) ∧ cond0_3 (grid0.coords t) :=
  ⟨fun k => by have := (hcond0_0 t).mp k; omega, fun k => by have := (hcond0_1 t).mp k; omega, fun k => by have := (hcond0_2 t).mp k; omega,
    (hcond0_3 t).mpr h⟩

/-! ## The runs at a point's memrefs -/

abbrev runA (c : Dev nD) (t : Fin cfg0.N) (h : t.val = 0) (x0 : Vec F S1024x1024 .f32) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (caseA t h).1 (caseA t h).2.1 (caseA t h).2.2.1 (caseA t h).2.2.2 x0
abbrev runB (c : Dev nD) (t : Fin cfg0.N) (h : 1 ≤ t.val ∧ t.val ≤ 2) (x0 : Vec F S1024x1024 .f32) (xs0 xs1 xs2 : Vec F S512x512 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (caseB t h).1 (caseB t h).2.1 (caseB t h).2.2.1 (caseB t h).2.2.2 x0 xs0 xs1 xs2
abbrev runC (c : Dev nD) (t : Fin cfg0.N) (h : t.val = 3) (x0 : Vec F S1024x1024 .f32) (x1 : Vec F S1024x256 .f32) (x2 : Vec F S256x256 .f32) (x3 : Vec F S1x256 .f32) (xs0 xs1 xs2 : Vec F S512x512 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (caseC t h).1 (caseC t h).2.1 (caseC t h).2.2.1 (caseC t h).2.2.2 x0 x1 x2 x3 xs0 xs1 xs2
abbrev runD (c : Dev nD) (t : Fin cfg0.N) (h : 4 ≤ t.val) (x4 : Vec F S2000x256 .f32) (x5 : Vec F S256x256 .f32) (x6 : Vec F S1x256 .f32) (xs3 : Vec F S1024x384 .bf16) (xs4 : Vec F S1024x256 .bf16) :=
  kernelRun0_D (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (caseD t h).1 (caseD t h).2.1 (caseD t h).2.2.1 (caseD t h).2.2.2 x4 x5 x6 xs3 xs4

/-! ## What each case leaves, and that its pieces cover the buffer -/

def gA0 (c : Dev nD) (t : Fin cfg0.N) (h : t.val = 0) (x0 : Vec F S1024x1024 .f32) : Vec F S512x512 .f32 :=
  VS0_0.read (Elt F) (VS0_0.writes (Elt F) VS0_0.junk (runA c t h x0).1)
def gA1 (c : Dev nD) (t : Fin cfg0.N) (h : t.val = 0) (x0 : Vec F S1024x1024 .f32) : Vec F S512x512 .f32 :=
  VS0_1.read (Elt F) (VS0_1.writes (Elt F) VS0_1.junk (runA c t h x0).2.1)
def gA2 (c : Dev nD) (t : Fin cfg0.N) (h : t.val = 0) (x0 : Vec F S1024x1024 .f32) : Vec F S512x512 .f32 :=
  VS0_2.read (Elt F) (VS0_2.writes (Elt F) VS0_2.junk (runA c t h x0).2.2.1)
theorem coverA0 (c : Dev nD) (t : Fin cfg0.N) (h : t.val = 0) (x0 : Vec F S1024x1024 .f32) (y : S512x512.Idx) : ∃ pc ∈ (runA c t h x0).1, y ∈ pc.1.set :=
  View.cover_of_tiledL (runA c t h x0).1 S512x512.size (by sl_kernel_rfl) y
theorem coverA1 (c : Dev nD) (t : Fin cfg0.N) (h : t.val = 0) (x0 : Vec F S1024x1024 .f32) (y : S512x512.Idx) : ∃ pc ∈ (runA c t h x0).2.1, y ∈ pc.1.set :=
  View.cover_of_tiledL (runA c t h x0).2.1 S512x512.size (by sl_kernel_rfl) y
theorem coverA2 (c : Dev nD) (t : Fin cfg0.N) (h : t.val = 0) (x0 : Vec F S1024x1024 .f32) (y : S512x512.Idx) : ∃ pc ∈ (runA c t h x0).2.2.1, y ∈ pc.1.set :=
  View.cover_of_tiledL (runA c t h x0).2.2.1 S512x512.size (by sl_kernel_rfl) y

def gB0 (c : Dev nD) (t : Fin cfg0.N) (h : 1 ≤ t.val ∧ t.val ≤ 2) (x0 : Vec F S1024x1024 .f32) (xs0 xs1 xs2 : Vec F S512x512 .f32) : Vec F S512x512 .f32 :=
  VS0_0.read (Elt F) (VS0_0.writes (Elt F) VS0_0.junk (runB c t h x0 xs0 xs1 xs2).1)
def gB1 (c : Dev nD) (t : Fin cfg0.N) (h : 1 ≤ t.val ∧ t.val ≤ 2) (x0 : Vec F S1024x1024 .f32) (xs0 xs1 xs2 : Vec F S512x512 .f32) : Vec F S512x512 .f32 :=
  VS0_1.read (Elt F) (VS0_1.writes (Elt F) VS0_1.junk (runB c t h x0 xs0 xs1 xs2).2.1)
def gB2 (c : Dev nD) (t : Fin cfg0.N) (h : 1 ≤ t.val ∧ t.val ≤ 2) (x0 : Vec F S1024x1024 .f32) (xs0 xs1 xs2 : Vec F S512x512 .f32) : Vec F S512x512 .f32 :=
  VS0_2.read (Elt F) (VS0_2.writes (Elt F) VS0_2.junk (runB c t h x0 xs0 xs1 xs2).2.2.1)
theorem coverB0 (c : Dev nD) (t : Fin cfg0.N) (h : 1 ≤ t.val ∧ t.val ≤ 2) (x0 : Vec F S1024x1024 .f32) (xs0 xs1 xs2 : Vec F S512x512 .f32) (y : S512x512.Idx) : ∃ pc ∈ (runB c t h x0 xs0 xs1 xs2).1, y ∈ pc.1.set :=
  View.cover_of_tiledL (runB c t h x0 xs0 xs1 xs2).1 S512x512.size (by sl_kernel_rfl) y
theorem coverB1 (c : Dev nD) (t : Fin cfg0.N) (h : 1 ≤ t.val ∧ t.val ≤ 2) (x0 : Vec F S1024x1024 .f32) (xs0 xs1 xs2 : Vec F S512x512 .f32) (y : S512x512.Idx) : ∃ pc ∈ (runB c t h x0 xs0 xs1 xs2).2.1, y ∈ pc.1.set :=
  View.cover_of_tiledL (runB c t h x0 xs0 xs1 xs2).2.1 S512x512.size (by sl_kernel_rfl) y
theorem coverB2 (c : Dev nD) (t : Fin cfg0.N) (h : 1 ≤ t.val ∧ t.val ≤ 2) (x0 : Vec F S1024x1024 .f32) (xs0 xs1 xs2 : Vec F S512x512 .f32) (y : S512x512.Idx) : ∃ pc ∈ (runB c t h x0 xs0 xs1 xs2).2.2.1, y ∈ pc.1.set :=
  View.cover_of_tiledL (runB c t h x0 xs0 xs1 xs2).2.2.1 S512x512.size (by sl_kernel_rfl) y

section CaseC
variable (c : Dev nD) (t : Fin cfg0.N) (h : t.val = 3) (x0 : Vec F S1024x1024 .f32) (x1 : Vec F S1024x256 .f32) (x2 : Vec F S256x256 .f32) (x3 : Vec F S1x256 .f32) (xs0 xs1 xs2 : Vec F S512x512 .f32)
def gC0 : Vec F S512x512 .f32 := VS0_0.read (Elt F) (VS0_0.writes (Elt F) VS0_0.junk (runC c t h x0 x1 x2 x3 xs0 xs1 xs2).1)
def gC1 : Vec F S512x512 .f32 := VS0_1.read (Elt F) (VS0_1.writes (Elt F) VS0_1.junk (runC c t h x0 x1 x2 x3 xs0 xs1 xs2).2.1)
def gC2 : Vec F S512x512 .f32 := VS0_2.read (Elt F) (VS0_2.writes (Elt F) VS0_2.junk (runC c t h x0 x1 x2 x3 xs0 xs1 xs2).2.2.1)
def omC : Vec F S1024x384 .bf16 := VS0_3.read (Elt F) (VS0_3.writes (Elt F) VS0_3.junk (runC c t h x0 x1 x2 x3 xs0 xs1 xs2).2.2.2.1)
def kkC : Vec F S1024x256 .bf16 := VS0_4.read (Elt F) (VS0_4.writes (Elt F) VS0_4.junk (runC c t h x0 x1 x2 x3 xs0 xs1 xs2).2.2.2.2.1)
theorem coverC0 (y : S512x512.Idx) : ∃ pc ∈ (runC c t h x0 x1 x2 x3 xs0 xs1 xs2).1, y ∈ pc.1.set :=
  View.cover_of_tiledL (runC c t h x0 x1 x2 x3 xs0 xs1 xs2).1 S512x512.size (by sl_kernel_rfl) y
theorem coverC1 (y : S512x512.Idx) : ∃ pc ∈ (runC c t h x0 x1 x2 x3 xs0 xs1 xs2).2.1, y ∈ pc.1.set :=
  View.cover_of_tiledL (runC c t h x0 x1 x2 x3 xs0 xs1 xs2).2.1 S512x512.size (by sl_kernel_rfl) y
theorem coverC2 (y : S512x512.Idx) : ∃ pc ∈ (runC c t h x0 x1 x2 x3 xs0 xs1 xs2).2.2.1, y ∈ pc.1.set :=
  View.cover_of_tiledL (runC c t h x0 x1 x2 x3 xs0 xs1 xs2).2.2.1 S512x512.size (by sl_kernel_rfl) y
theorem coverC3 (y : S1024x384.Idx) : ∃ pc ∈ (runC c t h x0 x1 x2 x3 xs0 xs1 xs2).2.2.2.1, y ∈ pc.1.set :=
  View.cover_of_tiledBy (runC c t h x0 x1 x2 x3 xs0 xs1 xs2).2.2.2.1 ![512, 128] (by sl_kernel_rfl) y
theorem coverC4 (y : S1024x256.Idx) : ∃ pc ∈ (runC c t h x0 x1 x2 x3 xs0 xs1 xs2).2.2.2.2.1, y ∈ pc.1.set :=
  View.cover_of_tiledL (runC c t h x0 x1 x2 x3 xs0 xs1 xs2).2.2.2.2.1 S1024x256.size (by sl_kernel_rfl) y
end CaseC

section CaseD
variable (c : Dev nD) (t : Fin cfg0.N) (h : 4 ≤ t.val) (x4 : Vec F S2000x256 .f32) (x5 : Vec F S256x256 .f32) (x6 : Vec F S1x256 .f32) (xs3 : Vec F S1024x384 .bf16) (xs4 : Vec F S1024x256 .bf16)
def outD : Vec F S2000x256 .f32 := VO0_7.read (Elt F) (VO0_7.writes (Elt F) VO0_7.junk (runD c t h x4 x5 x6 xs3 xs4).1)
theorem coverD7 (y : S2000x256.Idx) : ∃ pc ∈ (runD c t h x4 x5 x6 xs3 xs4).1, y ∈ pc.1.set :=
  View.cover_of_tiledL (runD c t h x4 x5 x6 xs3 xs4).1 S2000x256.size (by sl_kernel_rfl) y
end CaseD

/-! ## What the carried buffers hold after each point -/

/-- The output window's staging buffer and the five scratch buffers after a point. Before point 4 `out`, and before
    point 3 `om` and `kk`, are placeholders that nothing consults. -/
structure Carried (F : FTy → Type) [FloatOps F] where
  out : Vec F S2000x256 .f32
  g0 : Vec F S512x512 .f32
  g1 : Vec F S512x512 .f32
  g2 : Vec F S512x512 .f32
  om : Vec F S1024x384 .bf16
  kk : Vec F S1024x256 .bf16

def carriedAt (c : Dev nD) : (n : ℕ) → n < cfg0.N → Carried F
  | 0, hn =>
    { out := VO0_7.read (Elt F) VO0_7.junk
      g0 := gA0 c ⟨0, hn⟩ rfl (iblk m c 0 ⟨0, hn⟩)
      g1 := gA1 c ⟨0, hn⟩ rfl (iblk m c 0 ⟨0, hn⟩)
      g2 := gA2 c ⟨0, hn⟩ rfl (iblk m c 0 ⟨0, hn⟩)
      om := VS0_3.read (Elt F) VS0_3.junk
      kk := VS0_4.read (Elt F) VS0_4.junk }
  | n + 1, hn =>
    let p := carriedAt c n (Nat.lt_of_succ_lt hn)
    if hB : n + 1 ≤ 2 then
      { p with
        g0 := gB0 c ⟨n + 1, hn⟩ ⟨Nat.succ_le_succ (Nat.zero_le n), hB⟩ (iblk m c 0 ⟨n + 1, hn⟩) p.g0 p.g1 p.g2
        g1 := gB1 c ⟨n + 1, hn⟩ ⟨Nat.succ_le_succ (Nat.zero_le n), hB⟩ (iblk m c 0 ⟨n + 1, hn⟩) p.g0 p.g1 p.g2
        g2 := gB2 c ⟨n + 1, hn⟩ ⟨Nat.succ_le_succ (Nat.zero_le n), hB⟩ (iblk m c 0 ⟨n + 1, hn⟩) p.g0 p.g1 p.g2 }
    else if hC : n + 1 = 3 then
      { p with
        g0 := gC0 c ⟨n + 1, hn⟩ hC (iblk m c 0 ⟨n + 1, hn⟩) (iblk m c 1 ⟨n + 1, hn⟩) (iblk m c 2 ⟨n + 1, hn⟩) (iblk m c 3 ⟨n + 1, hn⟩) p.g0 p.g1 p.g2
        g1 := gC1 c ⟨n + 1, hn⟩ hC (iblk m c 0 ⟨n + 1, hn⟩) (iblk m c 1 ⟨n + 1, hn⟩) (iblk m c 2 ⟨n + 1, hn⟩) (iblk m c 3 ⟨n + 1, hn⟩) p.g0 p.g1 p.g2
        g2 := gC2 c ⟨n + 1, hn⟩ hC (iblk m c 0 ⟨n + 1, hn⟩) (iblk m c 1 ⟨n + 1, hn⟩) (iblk m c 2 ⟨n + 1, hn⟩) (iblk m c 3 ⟨n + 1, hn⟩) p.g0 p.g1 p.g2
        om := omC c ⟨n + 1, hn⟩ hC (iblk m c 0 ⟨n + 1, hn⟩) (iblk m c 1 ⟨n + 1, hn⟩) (iblk m c 2 ⟨n + 1, hn⟩) (iblk m c 3 ⟨n + 1, hn⟩) p.g0 p.g1 p.g2
        kk := kkC c ⟨n + 1, hn⟩ hC (iblk m c 0 ⟨n + 1, hn⟩) (iblk m c 1 ⟨n + 1, hn⟩) (iblk m c 2 ⟨n + 1, hn⟩) (iblk m c 3 ⟨n + 1, hn⟩) p.g0 p.g1 p.g2 }
    else
      { p with
        out := outD c ⟨n + 1, hn⟩ (show 4 ≤ n + 1 by omega) (iblk m c 4 ⟨n + 1, hn⟩) (iblk m c 5 ⟨n + 1, hn⟩) (iblk m c 6 ⟨n + 1, hn⟩) p.om p.kk }

end Cert.Kernel.Hand

end
-- ==== Proof.K.Data.lean ====
import proofs.«127533_g52209622450808_cont_9to1_m_767_25_alg».proof.Proof.K.Carried

/-!
  The proof data of the fused kernel's pipeline, its body obligation at every grid point, and the frame run.
  The invariant before a point owns the three Gram quadrant buffers at what the point before left and the two late
  buffers at some contents, which from the fifth point on are what the fourth point left; the generator register is
  never touched. Each case of the body takes from the invariant the buffers it touches and leaves the rest in place.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The carried contents, case by case -/

theorem carriedAt_A (c : Dev nD) (t : Fin cfg0.N) (h : t.val = 0) :
    carriedAt m c t.val t.isLt =
      { out := VO0_7.read (Elt F) VO0_7.junk, g0 := gA0 c t h (iblk m c 0 t), g1 := gA1 c t h (iblk m c 0 t), g2 := gA2 c t h (iblk m c 0 t),
        om := VS0_3.read (Elt F) VS0_3.junk, kk := VS0_4.read (Elt F) VS0_4.junk } := by
  obtain ⟨n, hn⟩ := t
  cases n with
  | zero => rfl
  | succ n => exact absurd h (Nat.succ_ne_zero n)

theorem carriedAt_B (c : Dev nD) (t : Fin cfg0.N) (h : 1 ≤ t.val ∧ t.val ≤ 2) :
    carriedAt m c t.val t.isLt =
      { carriedAt m c (t.val - 1) (Nat.lt_of_le_of_lt (Nat.sub_le _ _) t.isLt) with
        g0 := gB0 c t h (iblk m c 0 t) (carriedAt m c (t.val - 1) (Nat.lt_of_le_of_lt (Nat.sub_le _ _) t.isLt)).g0 (carriedAt m c (t.val - 1) (Nat.lt_of_le_of_lt (Nat.sub_le _ _) t.isLt)).g1 (carriedAt m c (t.val - 1) (Nat.lt_of_le_of_lt (Nat.sub_le _ _) t.isLt)).g2
        g1 := gB1 c t h (iblk m c 0 t) (carriedAt m c (t.val - 1) (Nat.lt_of_le_of_lt (Nat.sub_le _ _) t.isLt)).g0 (carriedAt m c (t.val - 1) (Nat.lt_of_le_of_lt (Nat.sub_le _ _) t.isLt)).g1 (carriedAt m c (t.val - 1) (Nat.lt_of_le_of_lt (Nat.sub_le _ _) t.isLt)).g2
        g2 := gB2 c t h (iblk m c 0 t) (carriedAt m c (t.val - 1) (Nat.lt_of_le_of_lt (Nat.sub_le _ _) t.isLt)).g0 (carriedAt m c (t.val - 1) (Nat.lt_of_le_of_lt (Nat.sub_le _ _) t.isLt)).g1 (carriedAt m c (t.val - 1) (Nat.lt_of_le_of_lt (Nat.sub_le _ _) t.isLt)).g2 } := by
  obtain ⟨n, hn⟩ := t
  cases n with
  | zero => exact absurd h.1 (show ¬ 1 ≤ (0 : ℕ) by decide)
  | succ n => exact (dif_pos h.2).trans rfl

theorem carriedAt_C (c : Dev nD) (t : Fin cfg0.N) (h : t.val = 3) :
    carriedAt m c t.val t.isLt =
      { carriedAt m c (t.val - 1) (Nat.lt_of_le_of_lt (Nat.sub_le _ _) t.isLt) with
        g0 := gC0 c t h (iblk m c 0 t) (iblk m c 1 t) (iblk m c 2 t) (iblk m c 3 t) (carriedAt m c (t.val - 1) (Nat.lt_of_le_of_lt (Nat.sub_le _ _) t.isLt)).g0 (carriedAt m c (t.val - 1) (Nat.lt_of_le_of_lt (Nat.sub_le _ _) t.isLt)).g1 (carriedAt m c (t.val - 1) (Nat.lt_of_le_of_lt (Nat.sub_le _ _) t.isLt)).g2
        g1 := gC1 c t h (iblk m c 0 t) (iblk m c 1 t) (iblk m c 2 t) (iblk m c 3 t) (carriedAt m c (t.val - 1) (Nat.lt_of_le_of_lt (Nat.sub_le _ _) t.isLt)).g0 (carriedAt m c (t.val - 1) (Nat.lt_of_le_of_lt (Nat.sub_le _ _) t.isLt)).g1 (carriedAt m c (t.val - 1) (Nat.lt_of_le_of_lt (Nat.sub_le _ _) t.isLt)).g2
        g2 := gC2 c t h (iblk m c 0 t) (iblk m c 1 t) (iblk m c 2 t) (iblk m c 3 t) (carriedAt m c (t.val - 1) (Nat.lt_of_le_of_lt (Nat.sub_le _ _) t.isLt)).g0 (carriedAt m c (t.val - 1) (Nat.lt_of_le_of_lt (Nat.sub_le _ _) t.isLt)).g1 (carriedAt m c (t.val - 1) (Nat.lt_of_le_of_lt (Nat.sub_le _ _) t.isLt)).g2
        om := omC c t h (iblk m c 0 t) (iblk m c 1 t) (iblk m c 2 t) (iblk m c 3 t) (carriedAt m c (t.val - 1) (Nat.lt_of_le_of_lt (Nat.sub_le _ _) t.isLt)).g0 (carriedAt m c (t.val - 1) (Nat.lt_of_le_of_lt (Nat.sub_le _ _) t.isLt)).g1 (carriedAt m c (t.val - 1) (Nat.lt_of_le_of_lt (Nat.sub_le _ _) t.isLt)).g2
        kk := kkC c t h (iblk m c 0 t) (iblk m c 1 t) (iblk m c 2 t) (iblk m c 3 t) (carriedAt m c (t.val - 1) (Nat.lt_of_le_of_lt (Nat.sub_le _ _) t.isLt)).g0 (carriedAt m c (t.val - 1) (Nat.lt_of_le_of_lt (Nat.sub_le _ _) t.isLt)).g1 (carriedAt m c (t.val - 1) (Nat.lt_of_le_of_lt (Nat.sub_le _ _) t.isLt)).g2 } := by
  obtain ⟨n, hn⟩ := t
  cases n with
  | zero => exact absurd h (show ¬ (0 : ℕ) = 3 by decide)
  | succ n => exact (dif_neg (by dsimp only at h; omega)).trans ((dif_pos h).trans rfl)

theorem carriedAt_D (c : Dev nD) (t : Fin cfg0.N) (h : 4 ≤ t.val) :
    carriedAt m c t.val t.isLt =
      { carriedAt m c (t.val - 1) (Nat.lt_of_le_of_lt (Nat.sub_le _ _) t.isLt) with
        out := outD c t h (iblk m c 4 t) (iblk m c 5 t) (iblk m c 6 t) (carriedAt m c (t.val - 1) (Nat.lt_of_le_of_lt (Nat.sub_le _ _) t.isLt)).om (carriedAt m c (t.val - 1) (Nat.lt_of_le_of_lt (Nat.sub_le _ _) t.isLt)).kk } := by
  obtain ⟨n, hn⟩ := t
  cases n with
  | zero => exact absurd h (show ¬ 4 ≤ (0 : ℕ) by decide)
  | succ n => exact (dif_neg (by dsimp only at h; omega)).trans ((dif_neg (by dsimp only at h; omega)).trans rfl)

/-! ## The invariant -/

/-- Before position `n`: at the first point the class's invariant (every scratch buffer at anything); afterwards the three
    quadrant buffers at what point `n - 1` left, the two late buffers at some contents — what point `n - 1` left in them
    once the fourth point has run — and the generator register at some state. -/
def PhiS (c : Dev nD) : (n : ℕ) → n ≤ cfg0.N → sProp 𝕄
  | 0, _ => Pipeline.ΦA spec0 c
  | n + 1, hn => iprop(iprop(owns (c : Thread nD τ) scM0_0 fullShare (carriedAt m c n hn).g0 ∗ owns (c : Thread nD τ) scM0_1 fullShare (carriedAt m c n hn).g1
        ∗ owns (c : Thread nD τ) scM0_2 fullShare (carriedAt m c n hn).g2
        ∗ (∃ om, ⌜3 ≤ n → om = (carriedAt m c n hn).om⌝ ∗ owns (c : Thread nD τ) scM0_3 fullShare om)
        ∗ (∃ kk, ⌜3 ≤ n → kk = (carriedAt m c n hn).kk⌝ ∗ owns (c : Thread nD τ) scM0_4 fullShare kk)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (carriedAt m c n hn).g0 ∗ owns (c : Thread nD τ) scM0_1 fullShare (carriedAt m c n hn).g1
        ∗ owns (c : Thread nD τ) scM0_2 fullShare (carriedAt m c n hn).g2
        ∗ (∃ om, ⌜3 ≤ n → om = (carriedAt m c n hn).om⌝ ∗ owns (c : Thread nD τ) scM0_3 fullShare om)
        ∗ (∃ kk, ⌜3 ≤ n → kk = (carriedAt m c n hn).kk⌝ ∗ owns (c : Thread nD τ) scM0_4 fullShare kk)) ∗ (∃ r, prngReg c r)) := rfl

theorem PhiS_pos (c : Dev nD) (n : ℕ) (h : n ≤ cfg0.N) (hz : n ≠ 0) :
    PhiS m c n h = iprop(iprop(owns (c : Thread nD τ) scM0_0 fullShare (carriedAt m c (n - 1) (by omega)).g0 ∗ owns (c : Thread nD τ) scM0_1 fullShare (carriedAt m c (n - 1) (by omega)).g1
        ∗ owns (c : Thread nD τ) scM0_2 fullShare (carriedAt m c (n - 1) (by omega)).g2
        ∗ (∃ om, ⌜3 ≤ n - 1 → om = (carriedAt m c (n - 1) (by omega)).om⌝ ∗ owns (c : Thread nD τ) scM0_3 fullShare om)
        ∗ (∃ kk, ⌜3 ≤ n - 1 → kk = (carriedAt m c (n - 1) (by omega)).kk⌝ ∗ owns (c : Thread nD τ) scM0_4 fullShare kk)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (carriedAt m c t.val t.isLt).out
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (carriedAt m c t.val t.isLt).out := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d

/-- An input window's buffer after the body holds its block: the inputs are never idle. -/
theorem leavesIn0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leavesIn1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leavesIn2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leavesIn3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]
theorem leavesIn4 (c : Dev nD) (t : Fin cfg0.N) : (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [liveAt0_4 t], after0_4]
theorem leavesIn5 (c : Dev nD) (t : Fin cfg0.N) : (dats m 0 c).leavesExact 5 t = owns (c : Thread nD τ) (ms0_5 t) fullShare (iblk m c 5 t) := by
  rw [show (dats m 0 c).leavesExact 5 t = owns (c : Thread nD τ) (ms0_5 t) fullShare ((dats m 0 c).after 5 t) from by
    unfold Dat.leavesExact; rw [liveAt0_5 t], after0_5]
theorem leavesIn6 (c : Dev nD) (t : Fin cfg0.N) : (dats m 0 c).leavesExact 6 t = owns (c : Thread nD τ) (ms0_6 t) fullShare (iblk m c 6 t) := by
  rw [show (dats m 0 c).leavesExact 6 t = owns (c : Thread nD τ) (ms0_6 t) fullShare ((dats m 0 c).after 6 t) from by
    unfold Dat.leavesExact; rw [liveAt0_6 t], after0_6]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

end Cert.Kernel.Hand

end
-- ==== Proof.K.Body.lean ====
import proofs.«127533_g52209622450808_cont_9to1_m_767_25_alg».proof.Proof.K.Data

/-!
  The body obligation of the fused kernel at every grid point, and the frame run of the program.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at any point. The point's value says which case it is in; the inputs' memrefs hold their blocks; the output
    window is handed back untouched before the fifth point and stored whole from then on; the invariant yields the
    scratch buffers the case touches at what the point before left (at anything at the first point, and the two late
    buffers at anything at the fourth) and takes them back at this point's contents, the others staying in place. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leavesIn0, leavesIn1, leavesIn2, leavesIn3, leavesIn4, leavesIn5, leavesIn6]
  have hN : t.val < 9 := lt_of_lt_of_eq t.isLt (show cfg0.N = 9 from N_0)
  by_cases hA : t.val = 0
  · -- the first point: reset the three quadrants
    rw [Dat.leavesExact_idle (dats m 0 c) 7 t (idleAt0_7 t (caseA t hA).2.2.2) (noFlush0_7 t (caseA t hA).2.2.2)]
    rw [carriedAt_A m c t hA]; dsimp only
    rw [PhiS_castSucc m c t, PhiS_zero m c _ _ hA, PhiA0_eq]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA c t hA (iblk m c 0 t)).2.2.2 Set.univ _)
    isplitl [H0]; · iexact H0
    isplitl [HS0]; · iexact HS0
    isplitl [HS1]; · iexact HS1
    isplitl [HS2]; · iexact HS2
    iintro ⟨H0, ⟨%e0, HS0⟩, ⟨%e1, HS1⟩, ⟨%e2, HS2⟩⟩
    isplitl [HS0 HS1 HS2 HS3 HS4 Hg]
    · isplitl [HS0 HS1 HS2 HS3 HS4]
      · isplitl [HS0]
        · unfold owns; iexists _; isplitr
          swap; · iexact HS0
          ipureintro; exact View.read_writes_of_cover _ _ _ _ _ (coverA0 c t hA _)
        isplitl [HS1]
        · unfold owns; iexists _; isplitr
          swap; · iexact HS1
          ipureintro; exact View.read_writes_of_cover _ _ _ _ _ (coverA1 c t hA _)
        isplitl [HS2]
        · unfold owns; iexists _; isplitr
          swap; · iexact HS2
          ipureintro; exact View.read_writes_of_cover _ _ _ _ _ (coverA2 c t hA _)
        isplitl [HS3]
        · icases HS3 with ⟨%om, HS3⟩
          iexists om; isplitr
          · ipureintro; intro hh; omega
          iexact HS3
        · icases HS4 with ⟨%kk, HS4⟩
          iexists kk; isplitr
          · ipureintro; intro hh; omega
          iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases hB : t.val ≤ 2
    · -- the second and third points: accumulate the quadrants
      have hB' : 1 ≤ t.val ∧ t.val ≤ 2 := ⟨by omega, hB⟩
      rw [Dat.leavesExact_idle (dats m 0 c) 7 t (idleAt0_7 t (caseB t hB').2.2.2) (noFlush0_7 t (caseB t hB').2.2.2)]
      rw [carriedAt_B m c t hB']; dsimp only
      rw [PhiS_castSucc m c t, PhiS_pos m c _ _ hA]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB c t hB' (iblk m c 0 t) _ _ _).2.2.2 Set.univ _)
      isplitl [H0]; · iexact H0
      isplitl [HS0]; · iexact HS0
      isplitl [HS1]; · iexact HS1
      isplitl [HS2]; · iexact HS2
      iintro ⟨H0, ⟨%e0, HS0⟩, ⟨%e1, HS1⟩, ⟨%e2, HS2⟩⟩
      isplitl [HS0 HS1 HS2 HS3 HS4 Hg]
      · isplitl [HS0 HS1 HS2 HS3 HS4]
        · isplitl [HS0]
          · unfold owns; iexists _; isplitr
            swap; · iexact HS0
            ipureintro; exact View.read_writes_of_cover _ _ _ _ _ (coverB0 c t hB' _ _ _ _)
          isplitl [HS1]
          · unfold owns; iexists _; isplitr
            swap; · iexact HS1
            ipureintro; exact View.read_writes_of_cover _ _ _ _ _ (coverB1 c t hB' _ _ _ _)
          isplitl [HS2]
          · unfold owns; iexists _; isplitr
            swap; · iexact HS2
            ipureintro; exact View.read_writes_of_cover _ _ _ _ _ (coverB2 c t hB' _ _ _ _)
          isplitl [HS3]
          · icases HS3 with ⟨%om, %hom, HS3⟩
            iexists om; isplitr
            · ipureintro; intro hh; omega
            iexact HS3
          · icases HS4 with ⟨%kk, %hkk, HS4⟩
            iexists kk; isplitr
            · ipureintro; intro hh; omega
            iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · by_cases hC : t.val = 3
      · -- the fourth point: the last accumulation and the preamble's end
        rw [Dat.leavesExact_idle (dats m 0 c) 7 t (idleAt0_7 t (caseC t hC).2.2.2) (noFlush0_7 t (caseC t hC).2.2.2)]
        rw [carriedAt_C m c t hC]; dsimp only
        rw [PhiS_castSucc m c t, PhiS_pos m c _ _ hA]
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        icases HS3 with ⟨%om0, %hom0, HS3⟩
        icases HS4 with ⟨%kk0, %hkk0, HS4⟩
        iapply ((runC c t hC (iblk m c 0 t) (iblk m c 1 t) (iblk m c 2 t) (iblk m c 3 t) _ _ _).2.2.2.2.2 Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        isplitl [HS3]; · iexists _; iexact HS3
        isplitl [HS4]; · iexists _; iexact HS4
        iintro ⟨H0, H1, H2, H3, ⟨%e0, HS0⟩, ⟨%e1, HS1⟩, ⟨%e2, HS2⟩, ⟨%e3, HS3⟩, ⟨%e4, HS4⟩⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (coverC0 c t hC _ _ _ _ _ _ _)
            isplitl [HS1]
            · unfold owns; iexists _; isplitr
              swap; · iexact HS1
              ipureintro; exact View.read_writes_of_cover _ _ _ _ _ (coverC1 c t hC _ _ _ _ _ _ _)
            isplitl [HS2]
            · unfold owns; iexists _; isplitr
              swap; · iexact HS2
              ipureintro; exact View.read_writes_of_cover _ _ _ _ _ (coverC2 c t hC _ _ _ _ _ _ _)
            isplitl [HS3]
            · iexists _; isplitr
              · ipureintro; intro _; rfl
              unfold owns; iexists _; isplitr
              swap; · iexact HS3
              ipureintro; exact View.read_writes_of_cover _ _ _ _ _ (coverC3 c t hC _ _ _ _ _ _ _)
            · iexists _; isplitr
              · ipureintro; intro _; rfl
              unfold owns; iexists _; isplitr
              swap; · iexact HS4
              ipureintro; exact View.read_writes_of_cover _ _ _ _ _ (coverC4 c t hC _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · -- from the fifth point on: one block of attention rows
        have hD : 4 ≤ t.val := by omega
        rw [show (dats m 0 c).leavesExact 7 t = owns (c : Thread nD τ) (ms0_7 t) fullShare ((dats m 0 c).after 7 t) from by
          unfold Dat.leavesExact; rw [liveAt0_7 t (caseD t hD).2.2.2], after0_7]
        rw [carriedAt_D m c t hD]; dsimp only
        rw [PhiS_castSucc m c t, PhiS_pos m c _ _ hA]
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        icases HS3 with ⟨%om0, %hom0, HS3⟩
        icases HS4 with ⟨%kk0, %hkk0, HS4⟩
        obtain rfl := hom0 (by omega)
        obtain rfl := hkk0 (by omega)
        iapply ((runD c t hD (iblk m c 4 t) (iblk m c 5 t) (iblk m c 6 t) _ _).2 Set.univ _)
        isplitl [H4]; · iexact H4
        isplitl [H5]; · iexact H5
        isplitl [H6]; · iexact H6
        isplitl [HS3]; · iexact HS3
        isplitl [HS4]; · iexact HS4
        isplitl [H7]; · iexists _; iexact H7
        iintro ⟨H4, H5, H6, HS3, HS4, ⟨%e7, H7⟩⟩
        isplitl [HS0 HS1 HS2 HS3 HS4 Hg]
        · isplitl [HS0 HS1 HS2 HS3 HS4]
          · isplitl [HS0]; · iexact HS0
            isplitl [HS1]; · iexact HS1
            isplitl [HS2]; · iexact HS2
            isplitl [HS3]
            · iexists _; isplitr
              · ipureintro; intro _; rfl
              iexact HS3
            · iexists _; isplitr
              · ipureintro; intro _; rfl
              iexact HS4
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns outD; iexists _; isplitr
        swap; · iexact H7
        ipureintro; exact View.read_writes_of_cover _ _ _ _ _ (coverD7 c t hD _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the carried contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, ⟨%om, %hom, HS3⟩, ⟨%kk, %hkk, HS4⟩⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

theorem hout (c : Dev nD) : (dats m 0 c).Φ (Fin.last cfg0.N) ⊢ Pipeline.ΦA spec0 c :=
  Phi_out m c _ (by rw [Fin.val_last]; have : cfg0.N = 9 := N_0; omega)

set_option backward.isDefEq.respectTransparency.types false in
/-- From any memory with zero counters every weakly fair execution of @main terminates, and every final state has
    every array of the pipeline at what the proof data computes and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its seven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Hand

end
-- ==== Proof.Spec.lean ====
import Idealize.ShloMosaic.Lib.ValueIdx
import Idealize.ShloMosaic.PureOps.Ideal.Laws

/-!
  The two programs as functions of the argument arrays, coordinate by coordinate, on the extended reals.

  Both compute, for a query row `r` and an output column `d`,
  `O r d = Σ_j softmax_j(q_r · k_j / 16) · om j d`, where `q = main Wqᵀ + bq`, `k = other Wkᵀ + bk`,
  `om = normalize(√(fixᵀ fix)) other` and `normalize` divides every column of `ff = √(fixᵀ fix)` by its sum.

  The reference divides `ff` by the column sums, subtracts a row shift `M r` (the row maximum) inside the
  exponentials and divides each exponential by their sum. The kernel divides the rows of `other` by the column
  sums instead, scales `k` by `1/16` before the logits, takes plain exponentials, and multiplies the weighted
  sum by the reciprocal of the exponentials' sum. The two agree when every entry of the arguments is a real and
  no column sum of `ff` is zero.
-/

noncomputable section

open scoped BigOperators
open Idealize.ShloMosaic

namespace Cert.Hand.Spec

/-- The divisor `16 = √256` of the reference's logits, and the kernel's factor `1/16`, as their f32 words. -/
def sixteen : EReal := Ideal.ofBits .f32 0x41800000#32
def sixteenth : EReal := Ideal.ofBits .f32 0x3D800000#32

section
variable (mn : Fin 10000 → Fin 256 → EReal) (ot : Fin 1024 → Fin 256 → EReal) (fx : Fin 4096 → Fin 1024 → EReal)
  (wq : Fin 256 → Fin 256 → EReal) (bq : Fin 256 → EReal) (wk : Fin 256 → Fin 256 → EReal) (bk : Fin 256 → EReal)

/-- The Gram matrix `fixᵀ fix`. -/
def gram (i j : Fin 1024) : EReal := ∑ k : Fin 4096, fx k i * fx k j
/-- Its entrywise square root. -/
def ff (i j : Fin 1024) : EReal := Ideal.sqrt (gram fx i j)
/-- The sum of column `j` of `ff`: the reference's divisor. -/
def colsum (j : Fin 1024) : EReal := ∑ i : Fin 1024, ff fx i j
/-- `other` mixed by the column-normalized `ff`, the reference's way: `ff` divided first. -/
def omRef (i : Fin 1024) (d : Fin 256) : EReal := ∑ j : Fin 1024, Ideal.div (ff fx i j) (colsum fx j) * ot j d
/-- The same, the kernel's way: the rows of `other` divided first. -/
def omKer (i : Fin 1024) (d : Fin 256) : EReal := ∑ j : Fin 1024, ff fx i j * Ideal.div (ot j d) (colsum fx j)
/-- The query and key projections. -/
def qv (r : Fin 10000) (e : Fin 256) : EReal := (∑ k : Fin 256, mn r k * wq e k) + bq e
def kv (j : Fin 1024) (e : Fin 256) : EReal := (∑ k : Fin 256, ot j k * wk e k) + bk e
/-- The logits, the reference's way (the product divided by 16) and the kernel's (the keys scaled by 1/16 first). -/
def logitRef (r : Fin 10000) (j : Fin 1024) : EReal := Ideal.div (∑ e : Fin 256, qv mn wq bq r e * kv ot wk bk j e) sixteen
def logitKer (r : Fin 10000) (j : Fin 1024) : EReal := ∑ e : Fin 256, qv mn wq bq r e * (kv ot wk bk j e * sixteenth)
/-- The reference's result with row shift `M`: the shifted exponentials, each divided by their sum, weighting `omRef`. -/
def outRef (M : Fin 10000 → EReal) (r : Fin 10000) (d : Fin 256) : EReal :=
  ∑ j : Fin 1024, Ideal.div (Ideal.exp (logitRef mn ot wq bq wk bk r j - M r))
      (∑ j' : Fin 1024, Ideal.exp (logitRef mn ot wq bq wk bk r j' - M r)) * omRef ot fx j d
/-- The kernel's result: the plain exponentials weighting `omKer`, times the reciprocal of the exponentials' sum
    (which the kernel takes as a product with a column of ones). -/
def outKer (r : Fin 10000) (d : Fin 256) : EReal :=
  (∑ j : Fin 1024, Ideal.exp (logitKer mn ot wq bq wk bk r j) * omKer ot fx j d)
    * Ideal.div 1 (∑ j : Fin 1024, Ideal.exp (logitKer mn ot wq bq wk bk r j) * 1)

end

/-! ## The argument arrays by coordinates, and the two results as whole arrays -/

open Idealize.ShloMosaic.ValueIdx

/-- A rank-2 array by its two coordinates, a rank-1 array by its one. -/
def c2 {a b : Nat} (A : (⟨2, ![a, b]⟩ : Shape).Idx → EReal) : Fin a → Fin b → EReal := fun i j => A (ix2 i j)
def c1 {a : Nat} (A : (⟨1, ![a]⟩ : Shape).Idx → EReal) : Fin a → EReal := fun i => A (ix1 i)

section
variable (A0 : (⟨2, ![10000, 256]⟩ : Shape).Idx → EReal) (A1 : (⟨2, ![1024, 256]⟩ : Shape).Idx → EReal)
  (A2 : (⟨2, ![4096, 1024]⟩ : Shape).Idx → EReal) (A3 : (⟨2, ![256, 256]⟩ : Shape).Idx → EReal)
  (A4 : (⟨1, ![256]⟩ : Shape).Idx → EReal) (A5 : (⟨2, ![256, 256]⟩ : Shape).Idx → EReal) (A6 : (⟨1, ![256]⟩ : Shape).Idx → EReal)

/-- The reference's result array of the seven argument arrays (main, other, fix, Wq, bq, Wk, bk), with row shift `M`. -/
def refArr (M : Fin 10000 → EReal) : (⟨2, ![10000, 256]⟩ : Shape).Idx → EReal :=
  fun i => outRef (c2 A0) (c2 A1) (c2 A2) (c2 A3) (c1 A4) (c2 A5) (c1 A6) M (i 0) (i 1)
/-- The kernel's result array of the same arguments. -/
def kerArr : (⟨2, ![10000, 256]⟩ : Shape).Idx → EReal :=
  fun i => outKer (c2 A0) (c2 A1) (c2 A2) (c2 A3) (c1 A4) (c2 A5) (c1 A6) (i 0) (i 1)
end

end Cert.Hand.Spec

end
-- ==== Proof.Algebra.lean ====
import proofs.«127533_g52209622450808_cont_9to1_m_767_25_alg».proof.Proof.Spec

/-!
  The law that joins the two programs: for real arguments and nonzero column sums the kernel's arrangement of
  the attention output equals the reference's, whatever real shift the reference's softmax subtracts.
-/

noncomputable section

open scoped BigOperators
open Idealize.ShloMosaic

namespace Cert.Hand.Spec

/-! ## Small laws of the extended reals -/

/-- Off a zero divisor, the division is the product with the inverse. -/
theorem div_of_ne_zero (x c : EReal) (hc : c ≠ 0) : Ideal.div x c = x * c⁻¹ := by
  rw [Ideal.div, if_neg hc]

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor distributes over a finite sum of arbitrary extended reals. -/
theorem sum_mul_coe_nonneg {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-! ## The two constants -/

theorem sixteen_eq : sixteen = ((16 : ℝ) : EReal) := by
  simp [sixteen, Ideal.ofBits, Ideal.ieee, -EReal.coe_mul]; norm_num

theorem sixteenth_eq : sixteenth = ((1 / 16 : ℝ) : EReal) := by
  simp [sixteenth, Ideal.ofBits, Ideal.ieee, -EReal.coe_mul]; norm_num

/-! ## The mixing of the other array: the divisor may sit on either factor -/

section
variable (ot : Fin 1024 → Fin 256 → EReal) (fx : Fin 4096 → Fin 1024 → EReal)

/-- Term by term, (a · c⁻¹) · o = a · (o · c⁻¹): no finiteness is needed, so the junk value of a negative
    Gram entry's square root needs no case analysis. -/
theorem omKer_eq_omRef (hcs : ∀ j, colsum fx j ≠ 0) (i : Fin 1024) (d : Fin 256) :
    omKer ot fx i d = omRef ot fx i d := by
  unfold omKer omRef
  refine Finset.sum_congr rfl (fun j _ => ?_)
  rw [div_of_ne_zero _ _ (hcs j), div_of_ne_zero _ _ (hcs j), mul_assoc, mul_comm (colsum fx j)⁻¹]

end

/-! ## Projections and logits of real arguments are reals -/

/-- A row of reals against a row of reals, plus a real bias, is a real. -/
theorem proj_real {ι : Type*} [Fintype ι] (x w : ι → ℝ) (b : ℝ) :
    (∑ k, (x k : EReal) * (w k : EReal)) + (b : EReal) = (((∑ k, x k * w k) + b : ℝ) : EReal) := by
  rw [EReal.coe_add, coe_sum]
  simp only [EReal.coe_mul]

/-- The reference's logit: the real inner product divided by 16. -/
theorem logitRef_real {ι : Type*} [Fintype ι] (q k : ι → ℝ) :
    Ideal.div (∑ e, (q e : EReal) * (k e : EReal)) sixteen
      = (((∑ e, q e * k e) * (1 / 16) : ℝ) : EReal) := by
  rw [sixteen_eq, Ideal.div_coe (by norm_num), EReal.coe_mul, coe_sum]
  simp only [EReal.coe_mul]

/-- The kernel's logit: the keys scaled by 1/16 first; the same real. -/
theorem logitKer_real {ι : Type*} [Fintype ι] (q k : ι → ℝ) :
    (∑ e, (q e : EReal) * ((k e : EReal) * sixteenth))
      = (((∑ e, q e * k e) * (1 / 16) : ℝ) : EReal) := by
  rw [sixteenth_eq, Finset.sum_mul, coe_sum]
  refine Finset.sum_congr rfl (fun e _ => ?_)
  rw [EReal.coe_mul, EReal.coe_mul, mul_assoc]

/-! ## The softmax: a shifted, termwise-normalized weighting equals the plain weighting times the reciprocal sum -/

theorem softmax_join {ι : Type*} [Fintype ι] [Nonempty ι] (a : ι → ℝ) (μ : ℝ) (om : ι → EReal) :
    (∑ j, Ideal.exp (a j : EReal) * om j) * Ideal.div 1 (∑ j, Ideal.exp (a j : EReal) * 1)
      = ∑ j, Ideal.div (Ideal.exp ((a j : EReal) - (μ : EReal)))
          (∑ j', Ideal.exp ((a j' : EReal) - (μ : EReal))) * om j := by
  have hS : 0 < ∑ j, Real.exp (a j) := Finset.sum_pos (fun j _ => Real.exp_pos _) Finset.univ_nonempty
  have hS' : 0 < ∑ j, Real.exp (a j - μ) := Finset.sum_pos (fun j _ => Real.exp_pos _) Finset.univ_nonempty
  have h1 : (∑ j, Ideal.exp (a j : EReal) * 1) = ((∑ j, Real.exp (a j) : ℝ) : EReal) := by
    rw [coe_sum]; exact Finset.sum_congr rfl (fun j _ => by rw [mul_one, Ideal.exp_coe])
  have h2 : (∑ j', Ideal.exp ((a j' : EReal) - (μ : EReal))) = ((∑ j, Real.exp (a j - μ) : ℝ) : EReal) := by
    rw [coe_sum]; exact Finset.sum_congr rfl (fun j _ => by rw [← EReal.coe_sub, Ideal.exp_coe])
  have hsum : ∑ j, Real.exp (a j - μ) = (∑ j, Real.exp (a j)) * Real.exp (-μ) := by
    rw [Finset.sum_mul]; exact Finset.sum_congr rfl (fun j _ => by rw [sub_eq_add_neg, Real.exp_add])
  have hinv : 0 ≤ 1 / ∑ j, Real.exp (a j) := by positivity
  rw [h1, h2, Ideal.div_coe hS.ne', one_mul, sum_mul_coe_nonneg _ _ _ hinv]
  refine Finset.sum_congr rfl (fun j _ => ?_)
  rw [Ideal.div_coe hS'.ne', ← EReal.coe_sub, Ideal.exp_coe, Ideal.exp_coe, ← EReal.coe_mul, mul_right_comm,
    ← EReal.coe_mul]
  congr 2
  rw [hsum, sub_eq_add_neg, Real.exp_add]
  have he : Real.exp (-μ) ≠ 0 := (Real.exp_pos _).ne'
  field_simp

/-! ## The theorem -/

variable (mn : Fin 10000 → Fin 256 → EReal) (ot : Fin 1024 → Fin 256 → EReal) (fx : Fin 4096 → Fin 1024 → EReal)
  (wq : Fin 256 → Fin 256 → EReal) (bq : Fin 256 → EReal) (wk : Fin 256 → Fin 256 → EReal) (bk : Fin 256 → EReal)

/-- Both logits of real arguments are one and the same real. -/
theorem logits_real
    (hmn : ∀ r k, ∃ x : ℝ, mn r k = x) (hot : ∀ j k, ∃ x : ℝ, ot j k = x)
    (hwq : ∀ e k, ∃ x : ℝ, wq e k = x) (hbq : ∀ e, ∃ x : ℝ, bq e = x)
    (hwk : ∀ e k, ∃ x : ℝ, wk e k = x) (hbk : ∀ e, ∃ x : ℝ, bk e = x) (r : Fin 10000) :
    ∃ L : Fin 1024 → ℝ, (∀ j, logitKer mn ot wq bq wk bk r j = (L j : EReal))
      ∧ (∀ j, logitRef mn ot wq bq wk bk r j = (L j : EReal)) := by
  choose mnR hmnR using hmn
  choose otR hotR using hot
  choose wqR hwqR using hwq
  choose bqR hbqR using hbq
  choose wkR hwkR using hwk
  choose bkR hbkR using hbk
  have hq : ∀ e, qv mn wq bq r e = (((∑ k, mnR r k * wqR e k) + bqR e : ℝ) : EReal) := by
    intro e
    unfold qv
    simp only [hmnR, hwqR, hbqR]
    exact proj_real _ _ _
  have hk : ∀ j e, kv ot wk bk j e = (((∑ k, otR j k * wkR e k) + bkR e : ℝ) : EReal) := by
    intro j e
    unfold kv
    simp only [hotR, hwkR, hbkR]
    exact proj_real _ _ _
  refine ⟨fun j => (∑ e, ((∑ k, mnR r k * wqR e k) + bqR e) * ((∑ k, otR j k * wkR e k) + bkR e)) * (1 / 16),
    fun j => ?_, fun j => ?_⟩
  · unfold logitKer
    simp only [hq, hk]
    exact logitKer_real _ _
  · unfold logitRef
    simp only [hq, hk]
    exact logitRef_real _ _

theorem outKer_eq_outRef
    (hmn : ∀ r k, ∃ x : ℝ, mn r k = x) (hot : ∀ j k, ∃ x : ℝ, ot j k = x)
    (hwq : ∀ e k, ∃ x : ℝ, wq e k = x) (hbq : ∀ e, ∃ x : ℝ, bq e = x)
    (hwk : ∀ e k, ∃ x : ℝ, wk e k = x) (hbk : ∀ e, ∃ x : ℝ, bk e = x)
    (hcs : ∀ j, colsum fx j ≠ 0)
    (M : Fin 10000 → EReal) (hM : ∀ r, ∃ x : ℝ, M r = x) (r : Fin 10000) (d : Fin 256) :
    outKer mn ot fx wq bq wk bk r d = outRef mn ot fx wq bq wk bk M r d := by
  obtain ⟨L, hK, hR⟩ := logits_real mn ot wq bq wk bk hmn hot hwq hbq hwk hbk r
  obtain ⟨μ, hμ⟩ := hM r
  unfold outKer outRef
  simp only [hK, hR, hμ, omKer_eq_omRef ot fx hcs]
  exact softmax_join L μ (fun j => omRef ot fx j d)

end Cert.Hand.Spec

end
-- ==== Proof.PreDecode.lean ====
import proofs.«127533_g52209622450808_cont_9to1_m_767_25_alg».proof.Pre_finite_inputs
import proofs.«127533_g52209622450808_cont_9to1_m_767_25_alg».proof.Proof.Gen.Pre_finite_inputs
import proofs.«127533_g52209622450808_cont_9to1_m_767_25_alg».proof.Proof.Spec
import Idealize.ShloMosaic.Lib.ReduceAll
import Idealize.ShloMosaic.Lib.StableHlo.Predicate
import Idealize.ShloMosaic.Lib.Pipeline.Value

/-!
  What the precondition says of the argument arrays at the extended reals: every entry of every array is a real,
  and no column sum of the entrywise square root of `fixᵀ fix` is zero (the reference's own divisor).
-/

noncomputable section

open scoped BigOperators
open Idealize.ShloMosaic Idealize.ShloMosaic.ValueIdx

namespace Cert.Hand.PreDecode

open Cert.Pre_finite_inputs

/-- The scalar shape has one index. -/
instance : Subsingleton S_.Idx := ⟨fun a b => funext fun d => d.elim0⟩

/-! ## The element facts -/

/-- The f32 word of +∞ is the top of the extended reals. -/
theorem ofBits_inf : Ideal.ofBits .f32 0x7F800000#32 = (⊤ : EReal) := by simp [Ideal.ofBits, Ideal.ieee]

/-- A one-bit word made from a decision is 1 exactly when the decision holds. -/
theorem ofBool_decide_eq_one (p : Prop) [Decidable p] : BitVec.ofBool (decide p) = 1#1 ↔ p := by
  by_cases hp : p <;> simp [hp]

/-- An extended real whose absolute value `max x (-x)` is below +∞ is a real. -/
theorem real_of_abs_lt (x : EReal) (h : Ideal.cmp .olt (max x (-x)) (Ideal.ofBits .f32 0x7F800000#32) = 1#1) :
    ∃ r : ℝ, x = r := by
  rw [ofBits_inf] at h
  have h' : max x (-x) < ⊤ := (ofBool_decide_eq_one _).1 h
  induction x using EReal.rec with
  | bot => exact absurd h' (by simp)
  | coe r => exact ⟨r, rfl⟩
  | top => exact absurd h' (by simp)

/-- "Not equal to the zero word" at the extended reals is "not zero". -/
theorem ne_zero_of_cmp_une (x : EReal) (h : Ideal.cmp .une x (Ideal.ofBits .f32 0x00000000#32) = 1#1) : x ≠ 0 := by
  rw [Ideal.ofBits_zero_f32] at h
  exact (ofBool_decide_eq_one _).1 h

/-! ## One finiteness conjunct: `all (|x| < +∞)` over an array of any shape -/

theorem all_real {s : Shape} {axes : List (Fin s.rank)} (x : FVec Ideal s .f32)
    (b : S_.BroadcastsInDim s (![] : Fin 0 → Fin s.rank)) (hr : s.ReducesTo axes S_) (hu : 0 < S_.numel)
    (e : Host.reduce IntOp.andi (cmpf .olt (Host.absf x) (broadcastInDim s ![] b (constant (F := Ideal) S_ .f32 0x7F800000#32)))
      (constantI S_ 1 1#1) hr hu ix0 = 1#1) (i : s.Idx) : ∃ r : ℝ, (x i : EReal) = r :=
  real_of_abs_lt (x i) (Host.reduce_andi_all _ _ hr hu ix0 e i)

/-- A conjunction of one-bit arrays at an index is the conjunction of the bits. -/
theorem andi_apply {s : Shape} {w : Nat} (x y : IVec s w) (i : s.Idx) : andi x y i = IntOp.andi (x i) (y i) := rfl

/-! ## The eighth conjunct: the reference's divisor read at a column

  The printed term is the host sum over dimension 0 of the entrywise square root of the Gram matrix
  `fixᵀ fix` (a `dot_general` of the transpose with the array itself). Read at column `j` it is
  `Σ_i √(Σ_k fix k i · fix k j)`. -/

/-- The transpose read at (i, k) is the array at (k, i). -/
theorem transpose_read (x2 : FVec Ideal S4096x1024 .f32) (tr : S4096x1024.Transposes [1, 0] S1024x4096)
    (i : Fin 1024) (k : Fin 4096) : transpose S1024x4096 [1, 0] x2 tr (ix2 i k) = x2 (ix2 k i) :=
  transpose_apply [1, 0] x2 tr (ix2 i k) (ix2 k i) (fun b => match b with
    | ⟨0, _⟩ => rfl
    | ⟨1, _⟩ => rfl)

theorem lhs_axis0 (i : S1024x1024.Idx) (q : dot_S1024x4096_S4096x1024_S1024x1024_1_0_0_1_n_n.contr.Idx) :
    (dot_S1024x4096_S4096x1024_S1024x1024_1_0_0_1_n_n.lhsIdx i q 0).val = (i 0).val := by
  unfold DotDims.lhsIdx
  rw [dif_neg (show ¬(0 : Fin S1024x4096.rank) ∈ dot_S1024x4096_S4096x1024_S1024x1024_1_0_0_1_n_n.lhsBatch by decide),
    dif_pos (show (0 : Fin S1024x4096.rank) ∈ dot_S1024x4096_S4096x1024_S1024x1024_1_0_0_1_n_n.lhsNonContracting by decide)]
  rfl
theorem lhs_axis1 (i : S1024x1024.Idx) (q : dot_S1024x4096_S4096x1024_S1024x1024_1_0_0_1_n_n.contr.Idx) :
    (dot_S1024x4096_S4096x1024_S1024x1024_1_0_0_1_n_n.lhsIdx i q 1).val = (q ⟨0, by decide⟩).val :=
  dot_S1024x4096_S4096x1024_S1024x1024_1_0_0_1_n_n.lhsIdx_val_of_single rfl i q
theorem rhs_axis0 (i : S1024x1024.Idx) (q : dot_S1024x4096_S4096x1024_S1024x1024_1_0_0_1_n_n.contr.Idx) :
    (dot_S1024x4096_S4096x1024_S1024x1024_1_0_0_1_n_n.rhsIdx i q 0).val = (q ⟨0, by decide⟩).val :=
  dot_S1024x4096_S4096x1024_S1024x1024_1_0_0_1_n_n.rhsIdx_val_of_single rfl i q
theorem rhs_axis1 (i : S1024x1024.Idx) (q : dot_S1024x4096_S4096x1024_S1024x1024_1_0_0_1_n_n.contr.Idx) :
    (dot_S1024x4096_S4096x1024_S1024x1024_1_0_0_1_n_n.rhsIdx i q 1).val = (i 1).val := by
  unfold DotDims.rhsIdx
  rw [dif_neg (show ¬(1 : Fin S4096x1024.rank) ∈ dot_S1024x4096_S4096x1024_S1024x1024_1_0_0_1_n_n.rhsBatch by decide),
    dif_pos (show (1 : Fin S4096x1024.rank) ∈ dot_S1024x4096_S4096x1024_S1024x1024_1_0_0_1_n_n.rhsNonContracting by decide)]
  rfl

/-- The host's `dot_general` of a [1024, 4096] array with a [4096, 1024] one, read at (r, c): the sum over the
    contracted axis of the products of row `r` with column `c`. -/
theorem dot_read (y : FVec Ideal S1024x4096 .f32) (x2 : FVec Ideal S4096x1024 .f32) (r c : Fin 1024) :
    Host.dotGeneral dot_S1024x4096_S4096x1024_S1024x1024_1_0_0_1_n_n none y x2 (ix2 r c)
      = ∑ k : Fin 4096, y (ix2 r k) * x2 (ix2 k c) := by
  simp only [Host.dotGeneral]
  rw [Ideal.dotGeneral_apply, ← Equiv.sum_comp (ValueIdx.contrEquiv1 dot_S1024x4096_S4096x1024_S1024x1024_1_0_0_1_n_n 4096 rfl rfl).symm]
  refine Finset.sum_congr rfl fun k _ => ?_
  have hk := ValueIdx.contrEquiv1_symm_val dot_S1024x4096_S4096x1024_S1024x1024_1_0_0_1_n_n 4096 rfl rfl k
  have el : dot_S1024x4096_S4096x1024_S1024x1024_1_0_0_1_n_n.lhsIdx (ix2 r c)
      ((ValueIdx.contrEquiv1 dot_S1024x4096_S4096x1024_S1024x1024_1_0_0_1_n_n 4096 rfl rfl).symm k) = ix2 r k :=
    funext fun a => Fin.ext (by
      match a with
      | ⟨0, _⟩ => exact lhs_axis0 _ _
      | ⟨1, _⟩ => exact (lhs_axis1 _ _).trans hk)
  have er : dot_S1024x4096_S4096x1024_S1024x1024_1_0_0_1_n_n.rhsIdx (ix2 r c)
      ((ValueIdx.contrEquiv1 dot_S1024x4096_S4096x1024_S1024x1024_1_0_0_1_n_n 4096 rfl rfl).symm k) = ix2 k c :=
    funext fun a => Fin.ext (by
      match a with
      | ⟨0, _⟩ => exact (rhs_axis0 _ _).trans hk
      | ⟨1, _⟩ => exact rhs_axis1 _ _)
  rw [el, er]

/-- The host sum over dimension 0 of a [1024, 1024] array from the zero word, read at column `j`: the sum of the column. -/
theorem colsum_read (y : FVec Ideal S1024x1024 .f32) (hr : S1024x1024.ReducesTo [0] S1024) (hu : 0 < S_.numel) (j : Fin 1024) :
    Host.reduceAdd (F := Ideal) y (constant (F := Ideal) S_ .f32 0x00000000#32) hr hu (ix1 j) = ∑ i : Fin 1024, y (ix2 i j) := by
  simp only [Host.reduceAdd, Ideal.hostReduceAdd_def]
  refine (Ideal.hostReduceAdd_single hr (by decide) y _ (ix1 j)).trans ?_
  rw [constant_apply, Ideal.ofBits_zero_f32, zero_add]
  refine Finset.sum_congr rfl fun k _ => ?_
  exact congrArg y (funext fun a => Fin.ext (by match a with | ⟨0, _⟩ => rfl | ⟨1, _⟩ => rfl))

/-- The printed divisor at column `j` is the specification's column sum. -/
theorem divisor_read (x2 : FVec Ideal S4096x1024 .f32) (tr : S4096x1024.Transposes [1, 0] S1024x4096)
    (hr : S1024x1024.ReducesTo [0] S1024) (hu : 0 < S_.numel) (j : Fin 1024) :
    Host.reduceAdd (F := Ideal)
        (Host.sqrt (Host.dotGeneral dot_S1024x4096_S4096x1024_S1024x1024_1_0_0_1_n_n none (transpose S1024x4096 [1, 0] x2 tr) x2))
        (constant (F := Ideal) S_ .f32 0x00000000#32) hr hu (ix1 j)
      = Cert.Hand.Spec.colsum (Cert.Hand.Spec.c2 x2) j := by
  rw [colsum_read]
  unfold Cert.Hand.Spec.colsum Cert.Hand.Spec.ff Cert.Hand.Spec.gram Cert.Hand.Spec.c2
  refine Finset.sum_congr rfl fun i _ => ?_
  show Ideal.sqrt (Host.dotGeneral dot_S1024x4096_S4096x1024_S1024x1024_1_0_0_1_n_n none (transpose S1024x4096 [1, 0] x2 tr) x2 (ix2 i j)) = _
  rw [dot_read]
  refine congrArg Ideal.sqrt (Finset.sum_congr rfl fun k _ => ?_)
  rw [transpose_read]

/-- The eighth conjunct decoded: no column sum is zero. -/
theorem colsum_ne_zero (x2 : FVec Ideal S4096x1024 .f32) (tr : S4096x1024.Transposes [1, 0] S1024x4096)
    (hr : S1024x1024.ReducesTo [0] S1024) (hu : 0 < S_.numel) (b : S_.BroadcastsInDim S1024 (![] : Fin 0 → Fin S1024.rank))
    (hr1 : S1024.ReducesTo [0] S_)
    (e : Host.reduce IntOp.andi
        (cmpf .une
          (Host.reduceAdd (F := Ideal)
            (Host.sqrt (Host.dotGeneral dot_S1024x4096_S4096x1024_S1024x1024_1_0_0_1_n_n none (transpose S1024x4096 [1, 0] x2 tr) x2))
            (constant (F := Ideal) S_ .f32 0x00000000#32) hr hu)
          (broadcastInDim S1024 ![] b (constant (F := Ideal) S_ .f32 0x00000000#32)))
        (constantI S_ 1 1#1) hr1 hu ix0 = 1#1) (j : Fin 1024) :
    Cert.Hand.Spec.colsum (Cert.Hand.Spec.c2 x2) j ≠ 0 := by
  have e1 := Host.reduce_andi_all _ _ hr1 hu ix0 e (ix1 j)
  rw [← divisor_read x2 tr hr hu j]
  exact ne_zero_of_cmp_une _ e1

/-! ## The precondition decoded -/

theorem decode (a0 : FVec Ideal S10000x256 .f32) (a1 : FVec Ideal S1024x256 .f32) (a2 : FVec Ideal S4096x1024 .f32)
    (a3 : FVec Ideal S256x256 .f32) (a4 : FVec Ideal S256 .f32) (a5 : FVec Ideal S256x256 .f32) (a6 : FVec Ideal S256 .f32)
    (h : Cert.Pre_finite_inputs.fn (F := Ideal) a0 a1 a2 a3 a4 a5 a6 = (fun _ => 1#1)) :
    (∀ i, ∃ x : ℝ, (a0 i : EReal) = x) ∧ (∀ i, ∃ x : ℝ, (a1 i : EReal) = x) ∧ (∀ i, ∃ x : ℝ, (a2 i : EReal) = x)
      ∧ (∀ i, ∃ x : ℝ, (a3 i : EReal) = x) ∧ (∀ i, ∃ x : ℝ, (a4 i : EReal) = x) ∧ (∀ i, ∃ x : ℝ, (a5 i : EReal) = x)
      ∧ (∀ i, ∃ x : ℝ, (a6 i : EReal) = x)
      ∧ ∀ j : Fin 1024, Cert.Hand.Spec.colsum (Cert.Hand.Spec.c2 a2) j ≠ 0 := by
  have e := congrFun h ix0
  dsimp only [fn, fn_part1, fn_part2] at e
  simp only [andi_apply, IntOp.andi_eq_one] at e
  obtain ⟨⟨⟨⟨⟨⟨⟨h0, h1⟩, h2⟩, h3⟩, h4⟩, h5⟩, h6⟩, h7⟩ := e
  exact ⟨all_real a0 _ _ _ h0, all_real a1 _ _ _ h1, all_real a2 _ _ _ h2, all_real a3 _ _ _ h3, all_real a4 _ _ _ h4,
    all_real a5 _ _ _ h5, all_real a6 _ _ _ h6, colsum_ne_zero a2 _ _ _ _ _ h7⟩

end Cert.Hand.PreDecode

end
-- ==== Proof.RefValue.lean ====
import proofs.«127533_g52209622450808_cont_9to1_m_767_25_alg».proof.Defs
import proofs.«127533_g52209622450808_cont_9to1_m_767_25_alg».proof.Proof.Gen.ReferenceIdeal.Run
import proofs.«127533_g52209622450808_cont_9to1_m_767_25_alg».proof.Proof.Gen.ReferenceIdeal.Read
import proofs.«127533_g52209622450808_cont_9to1_m_767_25_alg».proof.Proof.Spec
import proofs.«127533_g52209622450808_cont_9to1_m_767_25_alg».proof.Proof.Algebra

/-!
  The reference program's result, read coordinate by coordinate, is the specification's `refArr` with the row
  maximum of the logits as its row shift.

  Each stage of the reference is read at an index built from explicit coordinates: the two projections `q` and `k`,
  the logits `q · k / 16`, the row maximum, the shifted exponentials and their row sum, the Gram matrix of `fix`, its
  entrywise square root, the column sums, the normalized matrix times `other`, and last the product of the softmax
  weights with that matrix.
-/

noncomputable section

open scoped BigOperators

namespace Cert.Hand.RefValue

open Idealize.ShloMosaic Idealize.ShloMosaic.ValueIdx
open Cert.ReferenceIdeal Cert.ReferenceIdeal.Gen Cert.ReferenceIdeal.Read
open Cert.Hand.Spec

/-! ## Indices by coordinates -/

/-- A rank-2 index is determined by the values of its two coordinates. -/
theorem ix2_of_val {n0 n1 : Nat} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

/-- A rank-1 index is determined by the value of its coordinate. -/
theorem ix1_of_val {n : Nat} (j : (⟨1, ![n]⟩ : Shape).Idx) (a : Fin n) (h0 : (j 0).val = a.val) : j = ix1 a :=
  funext fun d => Fin.ext (by match d with | ⟨0, _⟩ => exact h0)

section
variable (A0 : (⟨2, ![10000, 256]⟩ : Shape).Idx → EReal) (A1 : (⟨2, ![1024, 256]⟩ : Shape).Idx → EReal)
  (A2 : (⟨2, ![4096, 1024]⟩ : Shape).Idx → EReal) (A3 : (⟨2, ![256, 256]⟩ : Shape).Idx → EReal)
  (A4 : (⟨1, ![256]⟩ : Shape).Idx → EReal) (A5 : (⟨2, ![256, 256]⟩ : Shape).Idx → EReal) (A6 : (⟨1, ![256]⟩ : Shape).Idx → EReal)

/-! ## The projections and the logits -/

/-- The query projection `main · Wqᵀ + bq` at row `r`, feature `e`. -/
theorem q_at (r : Fin 10000) (e : Fin 256) :
    val_main_v4 (F := Ideal) A0 A3 A4 (ix2 r e) = qv (c2 A0) (c2 A3) (c1 A4) r e := by
  rw [val_main_v4_apply, val_main_v1_apply, val_main_v3_apply, val_main_v2_apply]
  refine congrArg₂ (fun x y : EReal => x + y) (Finset.sum_congr rfl fun k _ => ?_) ?_
  · rw [val_main_v0_apply]
    exact congrArg₂ (fun x y : EReal => x * y) (congrArg A0 (ix2_of_val _ r k rfl rfl)) (congrArg A3 (ix2_of_val _ e k rfl rfl))
  · exact congrArg A4 (ix1_of_val _ e rfl)

/-- The key projection `other · Wkᵀ + bk` at row `j`, feature `e`. -/
theorem k_at (j : Fin 1024) (e : Fin 256) :
    val_main_v9 (F := Ideal) A1 A5 A6 (ix2 j e) = kv (c2 A1) (c2 A5) (c1 A6) j e := by
  rw [val_main_v9_apply, val_main_v6_apply, val_main_v8_apply, val_main_v7_apply]
  refine congrArg₂ (fun x y : EReal => x + y) (Finset.sum_congr rfl fun k _ => ?_) ?_
  · rw [val_main_v5_apply]
    exact congrArg₂ (fun x y : EReal => x * y) (congrArg A1 (ix2_of_val _ j k rfl rfl)) (congrArg A5 (ix2_of_val _ e k rfl rfl))
  · exact congrArg A6 (ix1_of_val _ e rfl)

/-- The logit of query row `r` against key row `j`: the product of the projections divided by sixteen. -/
theorem logit_at (r : Fin 10000) (j : Fin 1024) :
    val_main_v13 (F := Ideal) A0 A1 A3 A4 A5 A6 (ix2 r j)
      = logitRef (c2 A0) (c2 A1) (c2 A3) (c1 A4) (c2 A5) (c1 A6) r j := by
  rw [val_main_v13_apply, val_main_v11_apply, val_main_v12_apply, val_main_cst_apply]
  refine congrArg₂ (fun x y : EReal => Ideal.div x y) (Finset.sum_congr rfl fun e _ => ?_) rfl
  rw [val_main_v10_apply]
  refine congrArg₂ (fun x y : EReal => x * y) ?_ ?_
  · exact (congrArg (val_main_v4 (F := Ideal) A0 A3 A4) (ix2_of_val _ r e rfl rfl)).trans (q_at A0 A3 A4 r e)
  · exact (congrArg (val_main_v9 (F := Ideal) A1 A5 A6) (ix2_of_val _ j e rfl rfl)).trans (k_at A1 A5 A6 j e)

/-! ## The row maximum -/

/-- The f32 word of −∞ denotes the bottom of the extended reals. -/
theorem negInf_word : Ideal.ofBits .f32 0xFF800000#32 = (⊥ : EReal) := by
  simp [Ideal.ofBits, Ideal.ieee]

/-- The reference's row shift: the maximum of row `r`'s 1024 logits taken from −∞, then once more against −∞. -/
def rowMax (r : Fin 10000) : EReal :=
  max ⊥ ((Finset.univ : Finset (Fin 1024)).fold max ⊥
    fun j => logitRef (c2 A0) (c2 A1) (c2 A3) (c1 A4) (c2 A5) (c1 A6) r j)

/-- The host's maximum-reduce over the second axis of a 10000 × 1024 array from the −∞ word, at row `r`, is the
    fold of `max` from `⊥` over that row's 1024 entries. -/
theorem reduce_max_row (x : (⟨2, ![10000, 1024]⟩ : Shape).Idx → EReal) (r : Fin 10000) :
    Host.reduce (FloatOps.maximumf (F := Ideal) (φ := .f32)) x (val_main_cst_0 (F := Ideal))
        reducesTo_S10000x1024_S10000_d1 h_S_ (ix1 r)
      = (Finset.univ : Finset (Fin 1024)).fold max ⊥ (fun j => x (ix2 r j)) := by
  refine (Host.reduce_eq_fold_single (FloatOps.maximumf (F := Ideal) (φ := .f32)) x _
    reducesTo_S10000x1024_S10000_d1 (by decide) h_S_ (ix1 r)).trans ?_
  have e0 : val_main_cst_0 (F := Ideal) (Shape.Idx.first h_S_) = (⊥ : EReal) := negInf_word
  rw [e0]
  exact congrArg (fun f : Fin 1024 → EReal => Finset.fold max ⊥ f (Finset.univ : Finset (Fin 1024)))
    (funext fun k => congrArg x (ix2_of_val _ r k rfl rfl))

/-- Stages %14–%16 at row `r`: the row shift is `rowMax`. -/
theorem rowMax_at (r : Fin 10000) :
    val_main_v16 (F := Ideal) A0 A1 A3 A4 A5 A6 (ix1 r) = rowMax A0 A1 A3 A4 A5 A6 r := by
  rw [val_main_v16_apply, val_main_v15_apply, val_main_cst_1_apply]
  unfold val_main_v14 rowMax
  refine congrArg₂ (fun x y : EReal => max x y) negInf_word ((reduce_max_row _ r).trans ?_)
  exact congrArg (fun f : Fin 1024 → EReal => Finset.fold max ⊥ f (Finset.univ : Finset (Fin 1024)))
    (funext fun j => logit_at A0 A1 A3 A4 A5 A6 r j)

/-- The maximum of a real with a value that is `⊥` or a real is a real. -/
theorem max_real_step (a : ℝ) (y : EReal) (hy : y = ⊥ ∨ ∃ x : ℝ, y = x) : ∃ x : ℝ, max (a : EReal) y = x := by
  rcases hy with rfl | ⟨b, rfl⟩
  · exact ⟨a, max_bot_right _⟩
  · rcases le_total (a : EReal) (b : EReal) with h | h
    · exact ⟨b, max_eq_right h⟩
    · exact ⟨a, max_eq_left h⟩

/-- The maximum from `⊥` of finitely many reals is `⊥` (of none) or a real. -/
theorem fold_max_bot_or_real {ι : Type*} (s : Finset ι) (f : ι → EReal) (hf : ∀ i, ∃ x : ℝ, f i = x) :
    s.fold max ⊥ f = ⊥ ∨ ∃ x : ℝ, s.fold max ⊥ f = x := by
  classical
  induction s using Finset.induction_on with
  | empty => exact Or.inl Finset.fold_empty
  | insert a s ha ih =>
    obtain ⟨xa, hxa⟩ := hf a
    rw [Finset.fold_insert ha, hxa]
    exact Or.inr (max_real_step xa _ ih)

/-- The maximum from `⊥` of 1024 reals is a real. -/
theorem fold_max_univ_real (f : Fin 1024 → EReal) (hf : ∀ j, ∃ x : ℝ, f j = x) :
    ∃ x : ℝ, (Finset.univ : Finset (Fin 1024)).fold max ⊥ f = x := by
  classical
  rw [← Finset.insert_erase (Finset.mem_univ (0 : Fin 1024)), Finset.fold_insert (Finset.notMem_erase _ _)]
  obtain ⟨a, ha⟩ := hf 0
  rw [ha]
  exact max_real_step a _ (fold_max_bot_or_real _ f hf)

/-- For real arguments the row shift is a real: the maximum of 1024 real logits. -/
theorem rowMax_real
    (h0 : ∀ i, ∃ x : ℝ, A0 i = x) (h1 : ∀ i, ∃ x : ℝ, A1 i = x) (h3 : ∀ i, ∃ x : ℝ, A3 i = x)
    (h4 : ∀ i, ∃ x : ℝ, A4 i = x) (h5 : ∀ i, ∃ x : ℝ, A5 i = x) (h6 : ∀ i, ∃ x : ℝ, A6 i = x) :
    ∀ r, ∃ x : ℝ, rowMax A0 A1 A3 A4 A5 A6 r = x := by
  intro r
  obtain ⟨L, -, hL⟩ := logits_real (c2 A0) (c2 A1) (c2 A3) (c1 A4) (c2 A5) (c1 A6)
    (fun a k => h0 (ix2 a k)) (fun a k => h1 (ix2 a k)) (fun a k => h3 (ix2 a k)) (fun e => h4 (ix1 e))
    (fun a k => h5 (ix2 a k)) (fun e => h6 (ix1 e)) r
  obtain ⟨x, hx⟩ := fold_max_univ_real
    (fun j => logitRef (c2 A0) (c2 A1) (c2 A3) (c1 A4) (c2 A5) (c1 A6) r j) (fun j => ⟨L j, hL j⟩)
  exact ⟨x, by unfold rowMax; rw [hx, max_bot_left]⟩

/-! ## The softmax weights -/

/-- The shifted exponential of the logit at (`r`, `j`). -/
theorem exp_at (r : Fin 10000) (j : Fin 1024) :
    val_main_v20 (F := Ideal) A0 A1 A3 A4 A5 A6 (ix2 r j)
      = Ideal.exp (logitRef (c2 A0) (c2 A1) (c2 A3) (c1 A4) (c2 A5) (c1 A6) r j - rowMax A0 A1 A3 A4 A5 A6 r) := by
  rw [val_main_v20_apply, val_main_v19_apply, val_main_v18_apply, val_main_v17_apply, logit_at]
  refine congrArg (fun y : EReal => Ideal.exp (logitRef (c2 A0) (c2 A1) (c2 A3) (c1 A4) (c2 A5) (c1 A6) r j - y)) ?_
  exact (congrArg (val_main_v16 (F := Ideal) A0 A1 A3 A4 A5 A6) (ix1_of_val _ r rfl)).trans
    (rowMax_at A0 A1 A3 A4 A5 A6 r)

/-- The sum of row `r`'s shifted exponentials. -/
theorem den_at (r : Fin 10000) :
    val_main_v21 (F := Ideal) A0 A1 A3 A4 A5 A6 (ix1 r)
      = ∑ j' : Fin 1024, Ideal.exp (logitRef (c2 A0) (c2 A1) (c2 A3) (c1 A4) (c2 A5) (c1 A6) r j'
          - rowMax A0 A1 A3 A4 A5 A6 r) := by
  rw [val_main_v21_apply, val_main_cst_2_apply, Ideal.ofBits_def, Ideal.ofBits_zero_f32, zero_add]
  refine Finset.sum_congr rfl fun k _ => ?_
  exact (congrArg (val_main_v20 (F := Ideal) A0 A1 A3 A4 A5 A6) (ix2_of_val _ r k rfl rfl)).trans
    (exp_at A0 A1 A3 A4 A5 A6 r k)

/-- The softmax weight at (`r`, `j`): the shifted exponential divided by the row's sum of them. -/
theorem weight_at (r : Fin 10000) (j : Fin 1024) :
    val_main_v24 (F := Ideal) A0 A1 A3 A4 A5 A6 (ix2 r j)
      = Ideal.div (Ideal.exp (logitRef (c2 A0) (c2 A1) (c2 A3) (c1 A4) (c2 A5) (c1 A6) r j - rowMax A0 A1 A3 A4 A5 A6 r))
          (∑ j' : Fin 1024, Ideal.exp (logitRef (c2 A0) (c2 A1) (c2 A3) (c1 A4) (c2 A5) (c1 A6) r j'
            - rowMax A0 A1 A3 A4 A5 A6 r)) := by
  rw [val_main_v24_apply, val_main_v23_apply, val_main_v22_apply, exp_at]
  refine congrArg (fun y : EReal => Ideal.div (Ideal.exp
    (logitRef (c2 A0) (c2 A1) (c2 A3) (c1 A4) (c2 A5) (c1 A6) r j - rowMax A0 A1 A3 A4 A5 A6 r)) y) ?_
  exact (congrArg (val_main_v21 (F := Ideal) A0 A1 A3 A4 A5 A6) (ix1_of_val _ r rfl)).trans
    (den_at A0 A1 A3 A4 A5 A6 r)

/-! ## The mixing matrix: the column-normalized square root of the Gram matrix of `fix`, times `other` -/

/-- The Gram matrix `fixᵀ · fix` at (`i`, `j`). -/
theorem gram_at (i j : Fin 1024) :
    val_main_v26 (F := Ideal) A2 (ix2 i j) = gram (c2 A2) i j := by
  rw [val_main_v26_apply]
  unfold gram
  refine Finset.sum_congr rfl fun k _ => ?_
  rw [val_main_v25_apply]
  exact congrArg₂ (fun x y : EReal => x * y) (congrArg A2 (ix2_of_val _ k i rfl rfl))
    (congrArg A2 (ix2_of_val _ k j rfl rfl))

/-- Its entrywise square root. -/
theorem ff_at (i j : Fin 1024) :
    val_main_v27 (F := Ideal) A2 (ix2 i j) = ff (c2 A2) i j := by
  rw [val_main_v27_apply, gram_at]
  rfl

/-- The sum of column `j` of the square roots (the reduce runs over the first axis). -/
theorem colsum_at (j : Fin 1024) :
    val_main_v28 (F := Ideal) A2 (ix1 j) = colsum (c2 A2) j := by
  rw [val_main_v28_apply, val_main_cst_3_apply, Ideal.ofBits_def, Ideal.ofBits_zero_f32, zero_add]
  unfold colsum
  refine Finset.sum_congr rfl fun k _ => ?_
  exact (congrArg (val_main_v27 (F := Ideal) A2) (ix2_of_val _ k j rfl rfl)).trans (ff_at A2 k j)

/-- The square root at (`i`, `j`) divided by column `j`'s sum. -/
theorem norm_at (i j : Fin 1024) :
    val_main_v31 (F := Ideal) A2 (ix2 i j) = Ideal.div (ff (c2 A2) i j) (colsum (c2 A2) j) := by
  rw [val_main_v31_apply, val_main_v30_apply, val_main_v29_apply, ff_at]
  refine congrArg (fun y : EReal => Ideal.div (ff (c2 A2) i j) y) ?_
  exact (congrArg (val_main_v28 (F := Ideal) A2) (ix1_of_val _ j rfl)).trans (colsum_at A2 j)

/-- The normalized matrix times `other`, at (`i`, `d`). -/
theorem om_at (i : Fin 1024) (d : Fin 256) :
    val_main_v32 (F := Ideal) A1 A2 (ix2 i d) = omRef (c2 A1) (c2 A2) i d := by
  rw [val_main_v32_apply]
  unfold omRef
  refine Finset.sum_congr rfl fun k _ => ?_
  refine congrArg₂ (fun x y : EReal => x * y) ?_ (congrArg A1 (ix2_of_val _ k d rfl rfl))
  exact (congrArg (val_main_v31 (F := Ideal) A2) (ix2_of_val _ i k rfl rfl)).trans (norm_at A2 i k)

/-! ## The result -/

/-- The reference's result, as a function of the seven argument arrays (main, other, fix, Wq, bq, Wk, bk), is the
    specification's array with the row maximum as its row shift. -/
theorem ref_result :
    val_main_v33 (F := Ideal) A0 A1 A2 A3 A4 A5 A6
      = refArr A0 A1 A2 A3 A4 A5 A6 (rowMax A0 A1 A3 A4 A5 A6) := by
  funext i
  obtain ⟨r, d, rfl⟩ : ∃ (r : Fin 10000) (d : Fin 256), i = ix2 r d := ⟨i 0, i 1, eq_ix2 i⟩
  rw [val_main_v33_apply]
  show _ = outRef (c2 A0) (c2 A1) (c2 A2) (c2 A3) (c1 A4) (c2 A5) (c1 A6) (rowMax A0 A1 A3 A4 A5 A6) r d
  unfold outRef
  refine Finset.sum_congr rfl fun k _ => ?_
  refine congrArg₂ (fun x y : EReal => x * y) ?_ ?_
  · exact (congrArg (val_main_v24 (F := Ideal) A0 A1 A3 A4 A5 A6) (ix2_of_val _ r k rfl rfl)).trans
      (weight_at A0 A1 A3 A4 A5 A6 r k)
  · exact (congrArg (val_main_v32 (F := Ideal) A1 A2) (ix2_of_val _ k d rfl rfl)).trans (om_at A1 A2 k d)

end

end Cert.Hand.RefValue

end
-- ==== Proof.KI.Runs.lean ====
import proofs.«127533_g52209622450808_cont_9to1_m_767_25_alg».proof.Proof.Gen.KernelIdeal.Frame
import proofs.«127533_g52209622450808_cont_9to1_m_767_25_alg».proof.Proof.Gen.KernelIdeal.Skeleton
import Idealize.ShloMosaic.Lib.Pipeline.FrameBody
import Idealize.ShloMosaic.Lib.Ring
import Idealize.ShloMosaic.Lib.Tactic

/-!
  What the four runs of the kernel body share. The body branches on the grid coordinate `i` alone:
  at `i = 0` it stores the three Gram quadrants of the first chunk of `fix` (case A); at `0 < i < 4` it adds the
  next chunk's quadrants to them (case B at `i = 1, 2`); at `i = 3` it does that and then finishes the preamble:
  the mixed `other` and the scaled keys go to their scratch buffers (case C); at `i ≥ 4` it computes one block of
  attention rows from those two buffers (case D). Here: the four conditions as propositions with their closed
  forms over the nine points, where the output window is idle (every point before the fifth, none of which
  writes it back), the staging and scratch memrefs the body is called with, and the region invariant of the
  class spelled over the five scratch buffers.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- `i = 0`. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
/-- `0 < i < 4`. -/
abbrev cond0_1 (i : grid0.Coords) : Prop := (Scalar.cmpi .ne (Scalar.extui (Scalar.andi (Scalar.cmpi .sgt (BitVec.ofNat 32 (i 0).val) 0#32) (Scalar.cmpi .slt (BitVec.ofNat 32 (i 0).val) 4#32))) 0#32) = 1#1
theorem hcond0_1 : ∀ t : Fin cfg0.N, cond0_1 (grid0.coords t) ↔ (1 ≤ t.val ∧ t.val ≤ 3) :=
  (by decide +kernel : ∀ t : Fin grid0.N, cond0_1 (grid0.coords t) ↔ (1 ≤ t.val ∧ t.val ≤ 3))
/-- `i = 3`. -/
abbrev cond0_2 (i : grid0.Coords) : Prop := (Scalar.cmpi .ne (Scalar.extui (Scalar.cmpi .eq (BitVec.ofNat 32 (i 0).val) 3#32)) 0#32) = 1#1
theorem hcond0_2 : ∀ t : Fin cfg0.N, cond0_2 (grid0.coords t) ↔ t.val = 3 :=
  (by decide +kernel : ∀ t : Fin grid0.N, cond0_2 (grid0.coords t) ↔ t.val = 3)
/-- `i ≥ 4`. -/
abbrev cond0_3 (i : grid0.Coords) : Prop := k0_cond4 i = 1#1
theorem hcond0_3 : ∀ t : Fin cfg0.N, cond0_3 (grid0.coords t) ↔ 4 ≤ t.val :=
  (by decide +kernel : ∀ t : Fin grid0.N, cond0_3 (grid0.coords t) ↔ 4 ≤ t.val)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Before the fifth point the body stores nothing into the output window, and the pipeline does not write it back there. -/
theorem idleAt0_7 : ∀ t : Fin cfg0.N, ¬cond0_3 (grid0.coords t) → cfg0.idle 7 (grid0.coords t) = true := by decide +kernel
theorem noFlush0_7 : ∀ t : Fin cfg0.N, ¬cond0_3 (grid0.coords t) → (cfg0.win 7).flush t = false := by decide +kernel
/-- From the fifth point on the body stores the output window's whole block. -/
theorem liveAt0_7 : ∀ t : Fin cfg0.N, cond0_3 (grid0.coords t) → cfg0.idle 7 (grid0.coords t) = false := by decide +kernel

/-! ## The memrefs the body is called with -/

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2000x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2000x256 .f32 := win0_7.stage (cfg0.slots t 7)
abbrev hs0_7 (t : Fin cfg0.N) : (ms0_7 t).IsWhole := hstage0_7 ((cfg0.slots t 7).cast nbuf0_7)

/-- The five scratch operands: the three Gram quadrants, the mixed `other` beside a block of ones, the scaled keys. -/
abbrev scM0_0 : Memref sig .tc .vmem S512x512 .f32 := Memref.whole cc0_scratch0
abbrev scM0_1 : Memref sig .tc .vmem S512x512 .f32 := Memref.whole cc0_scratch1
abbrev scM0_2 : Memref sig .tc .vmem S512x512 .f32 := Memref.whole cc0_scratch2
abbrev scM0_3 : Memref sig .tc .vmem S1024x384 .bf16 := Memref.whole cc0_scratch3
abbrev scM0_4 : Memref sig .tc .vmem S1024x256 .bf16 := Memref.whole cc0_scratch4

/-- The views through which the carried contents are stated. -/
abbrev VO0_7 : View sig .tc .vmem S2000x256 .f32 := (Memref.whole cc0_stg7_0 : Memref sig .tc .vmem S2000x256 .f32).view
abbrev VS0_0 : View sig .tc .vmem S512x512 .f32 := scM0_0.view
abbrev VS0_1 : View sig .tc .vmem S512x512 .f32 := scM0_1.view
abbrev VS0_2 : View sig .tc .vmem S512x512 .f32 := scM0_2.view
abbrev VS0_3 : View sig .tc .vmem S1024x384 .bf16 := scM0_3.view
abbrev VS0_4 : View sig .tc .vmem S1024x256 .bf16 := scM0_4.view

/-- The class's region invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)
          ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Hand

end
-- ==== Proof.KI.RunA.lean ====
import proofs.«127533_g52209622450808_cont_9to1_m_767_25_alg».proof.Proof.KI.Runs

/-!
  The kernel body at the first grid point (`i = 0`): it loads the two column halves of the current chunk of `fix`
  and stores the three Gram quadrants of that chunk over whatever the three quadrant buffers held. The pieces each
  quadrant buffer ends with are found by running the body.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A (`i = 0`): from the `fix` block at contents `x0` and the three quadrant buffers at anything, the body runs
    to the continuation holding the block unchanged and each quadrant buffer with its pieces written. -/
noncomputable def kernelRun0_A (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole)
    (hc0 : cond0_0 i) (hc1 : ¬cond0_1 i) (hc2 : ¬cond0_2 i) (hc3 : ¬cond0_3 i)
    (x0 : Vec F S1024x1024 .f32) :
    Σ' (LS0 : List (View.Piece (Elt F) S512x512 .f32)) (LS1 : List (View.Piece (Elt F) S512x512 .f32)), { LS2 : List (View.Piece (Elt F) S512x512 .f32) //
      ∀ (E : Set ℕ) (K : PUnit → sProp 𝕄),
        iprop(owns (c : Thread nD τ) arg1 fullShare x0 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0__fused_kernel_eq_skeleton]; unfold cc0__fused_kernel_skel
    unfold owns
    iintro ⟨⟨%f0, %hf0, H0⟩, ⟨%ds0, %fs0, -, HS0⟩, ⟨%ds1, %fs1, -, HS1⟩, ⟨%ds2, %fs2, -, HS2⟩, Hk⟩
    obtain rfl := harg1.eq_unread hf0
    sl_exec (disch := first | exact hc0 | exact hc1 | exact hc2 | exact hc3)
    sl_step
    iapply Hk
    isplitl [H0]
    · iexists _; isplitr; · ipureintro; exact harg1.read_unread _
      iexact H0
    isplitl [HS0]; · iexists _; iexact HS0
    isplitl [HS1]; · iexists _; iexact HS1
    iexists _; iexact HS2

end Cert.KernelIdeal.Hand

end
-- ==== Proof.KI.RunB.lean ====
import proofs.«127533_g52209622450808_cont_9to1_m_767_25_alg».proof.Proof.KI.Runs

/-!
  The kernel body at the second and third grid points (`0 < i < 3`): it loads the two column halves of the current
  chunk of `fix` and adds that chunk's three Gram quadrants to what the quadrant buffers hold.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B (`i = 1, 2`): from the `fix` block at `x0` and the three quadrant buffers at `xs0`, `xs1`, `xs2`, the body runs
    to the continuation holding the block unchanged and each quadrant buffer with its pieces written. -/
noncomputable def kernelRun0_B (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole)
    (hc0 : ¬cond0_0 i) (hc1 : cond0_1 i) (hc2 : ¬cond0_2 i) (hc3 : ¬cond0_3 i)
    (x0 : Vec F S1024x1024 .f32) (xs0 : Vec F S512x512 .f32) (xs1 : Vec F S512x512 .f32) (xs2 : Vec F S512x512 .f32) :
    Σ' (LS0 : List (View.Piece (Elt F) S512x512 .f32)) (LS1 : List (View.Piece (Elt F) S512x512 .f32)), { LS2 : List (View.Piece (Elt F) S512x512 .f32) //
      ∀ (E : Set ℕ) (K : PUnit → sProp 𝕄),
        iprop(owns (c : Thread nD τ) arg1 fullShare x0 ∗ owns (c : Thread nD τ) arg9 fullShare xs0 ∗ owns (c : Thread nD τ) arg10 fullShare xs1 ∗ owns (c : Thread nD τ) arg11 fullShare xs2
            ∗ (iprop(owns (c : Thread nD τ) arg1 fullShare x0 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0__fused_kernel_eq_skeleton]; unfold cc0__fused_kernel_skel
    unfold owns
    iintro ⟨⟨%f0, %hf0, H0⟩, ⟨%fs0, %hfs0, HS0⟩, ⟨%fs1, %hfs1, HS1⟩, ⟨%fs2, %hfs2, HS2⟩, Hk⟩
    obtain rfl := harg1.eq_unread hf0; obtain rfl := harg9.eq_unread hfs0; obtain rfl := harg10.eq_unread hfs1; obtain rfl := harg11.eq_unread hfs2
    sl_exec (disch := first | exact hc0 | exact hc1 | exact hc2 | exact hc3)
    sl_step
    iapply Hk
    isplitl [H0]
    · iexists _; isplitr; · ipureintro; exact harg1.read_unread _
      iexact H0
    isplitl [HS0]; · iexists _; iexact HS0
    isplitl [HS1]; · iexists _; iexact HS1
    iexists _; iexact HS2

end Cert.KernelIdeal.Hand

end
-- ==== Proof.KI.RunC.lean ====
import proofs.«127533_g52209622450808_cont_9to1_m_767_25_alg».proof.Proof.KI.Runs

/-!
  The kernel body at the fourth grid point (`i = 3`): it adds the last chunk's Gram quadrants, then finishes the
  preamble: square roots of the quadrants, the column sums, `other` divided row by row and mixed by the roots into the
  first 256 columns of the mixing buffer, ones into its last 128 columns, and the scaled keys into their buffer.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C (`i = 3`): from the `fix` block at `x0`, `other` at `x1`, `Wk` at `x2`, `bk` at `x3`, the three quadrant buffers at
    `xs0`, `xs1`, `xs2` and the two late buffers at anything, the body runs to the continuation holding the inputs unchanged and
    each of the five scratch buffers with its pieces written. -/
noncomputable def kernelRun0_C (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole)
    (hc0 : ¬cond0_0 i) (hc1 : cond0_1 i) (hc2 : cond0_2 i) (hc3 : ¬cond0_3 i)
    (x0 : Vec F S1024x1024 .f32) (x1 : Vec F S1024x256 .f32) (x2 : Vec F S256x256 .f32) (x3 : Vec F S1x256 .f32) (xs0 : Vec F S512x512 .f32) (xs1 : Vec F S512x512 .f32) (xs2 : Vec F S512x512 .f32) :
    Σ' (LS0 : List (View.Piece (Elt F) S512x512 .f32)) (LS1 : List (View.Piece (Elt F) S512x512 .f32)) (LS2 : List (View.Piece (Elt F) S512x512 .f32)) (LS3 : List (View.Piece (Elt F) S1024x384 .bf16)), { LS4 : List (View.Piece (Elt F) S1024x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg9 fullShare xs0 ∗ owns (c : Thread nD τ) arg10 fullShare xs1 ∗ owns (c : Thread nD τ) arg11 fullShare xs2 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg9.eq_unread hfs0; obtain rfl := harg10.eq_unread hfs1; obtain rfl := harg11.eq_unread hfs2
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    isplitl [HS1]; · iexists _; iexact HS1
    isplitl [HS2]; · iexists _; iexact HS2
    isplitl [HS3]; · iexists _; iexact HS3
    iexists _; iexact HS4

end Cert.KernelIdeal.Hand

end
-- ==== Proof.KI.RunD.lean ====
import proofs.«127533_g52209622450808_cont_9to1_m_767_25_alg».proof.Proof.KI.Runs

/-!
  The kernel body from the fifth grid point on (`i ≥ 4`): one block of 2000 query rows. It projects the rows, takes the
  logits against the scaled keys, exponentiates, multiplies by the mixing buffer (whose last columns are ones, so that one
  product gives the weighted sums and the exponentials' sum), and stores the weighted sums times the reciprocal of that sum.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case D (`i ≥ 4`): from the `main` block at `x4`, `Wq` at `x5`, `bq` at `x6`, the mixing buffer at `xs3`, the key buffer at
    `xs4` and the output buffer at anything, the body runs to the continuation holding all of those unchanged and the output
    buffer with its pieces written. -/
noncomputable def kernelRun0_D (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole)
    (hc0 : ¬cond0_0 i) (hc1 : ¬cond0_1 i) (hc2 : ¬cond0_2 i) (hc3 : cond0_3 i)
    (x4 : Vec F S2000x256 .f32) (x5 : Vec F S256x256 .f32) (x6 : Vec F S1x256 .f32) (xs3 : Vec F S1024x384 .bf16) (xs4 : Vec F S1024x256 .bf16) :
    { L7 : List (View.Piece (Elt F) S2000x256 .f32) //
      ∀ (E : Set ℕ) (K : PUnit → sProp 𝕄),
        iprop(owns (c : Thread nD τ) arg5 fullShare x4 ∗ owns (c : Thread nD τ) arg6 fullShare x5 ∗ owns (c : Thread nD τ) arg7 fullShare x6 ∗ owns (c : Thread nD τ) arg12 fullShare xs3 ∗ owns (c : Thread nD τ) arg13 fullShare xs4 ∗ (∃ d, owns (c : Thread nD τ) arg8 fullShare d)
            ∗ (iprop(owns (c : Thread nD τ) arg5 fullShare x4 ∗ owns (c : Thread nD τ) arg6 fullShare x5 ∗ owns (c : Thread nD τ) arg7 fullShare x6 ∗ owns (c : Thread nD τ) arg12 fullShare xs3 ∗ owns (c : Thread nD τ) arg13 fullShare xs4 ∗ (∃ f, arg8.view.loc (c : Thread nD τ) ↦[arg8.view.set]{fullShare} arg8.view.writes (Elt F) f L7)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__fused_kernel_eq_skeleton]; unfold cc0__fused_kernel_skel
    unfold owns
    iintro ⟨⟨%f4, %hf4, H4⟩, ⟨%f5, %hf5, H5⟩, ⟨%f6, %hf6, H6⟩, ⟨%fs3, %hfs3, HS3⟩, ⟨%fs4, %hfs4, HS4⟩, ⟨%d7, %f7, -, H7⟩, Hk⟩
    obtain rfl := harg5.eq_unread hf4; obtain rfl := harg6.eq_unread hf5; obtain rfl := harg7.eq_unread hf6; obtain rfl := harg12.eq_unread hfs3; obtain rfl := harg13.eq_unread hfs4
    sl_exec (disch := first | exact hc0 | exact hc1 | exact hc2 | exact hc3)
    sl_step
    iapply Hk
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS3]
    · iexists _; isplitr; · ipureintro; exact harg12.read_unread _
      iexact HS3
    isplitl [HS4]
    · iexists _; isplitr; · ipureintro; exact harg13.read_unread _
      iexact HS4
    iexists _; iexact H7

end Cert.KernelIdeal.Hand

end
-- ==== Proof.KI.Carried.lean ====
import proofs.«127533_g52209622450808_cont_9to1_m_767_25_alg».proof.Proof.KI.RunA
import proofs.«127533_g52209622450808_cont_9to1_m_767_25_alg».proof.Proof.KI.RunB
import proofs.«127533_g52209622450808_cont_9to1_m_767_25_alg».proof.Proof.KI.RunC
import proofs.«127533_g52209622450808_cont_9to1_m_767_25_alg».proof.Proof.KI.RunD

/-!
  The pipeline's proof data for the fused kernel, and its frame run.

  Five scratch buffers are carried between grid points: the three Gram quadrants (reset at point 0, accumulated at
  points 1 to 3, read at point 3), the mixing buffer and the key buffer (written at point 3, read from point 4 on).
  `carriedAt n` is what those buffers and the output window's staging buffer hold after point `n`, by recursion on
  the point: the case of the body that the point is in, run on the point's input blocks and on what the point before
  left. The region invariant before point `n + 1` owns the three quadrant buffers at those contents and the two late
  buffers at some contents, which are the carried ones once point 3 has run. The output window is idle before
  point 4 (the body hands its buffer back as found, and the pipeline does not write it back there).
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case a point is in -/

theorem caseA (t : Fin cfg0.N) (h : t.val = 0) :
    cond0_0 (grid0.coords t) ∧ ¬cond0_1 (grid0.coords t) ∧ ¬cond0_2 (grid0.coords t) ∧ ¬cond0_3 (grid0.coords t) :=
  ⟨(hcond0_0 t).mpr h, fun k => by have := (hcond0_1 t).mp k; omega, fun k => by have := (hcond0_2 t).mp k; omega,
    fun k => by have := (hcond0_3 t).mp k; omega⟩
theorem caseB (t : Fin cfg0.N) (h : 1 ≤ t.val ∧ t.val ≤ 2) :
    ¬cond0_0 (grid0.coords t) ∧ cond0_1 (grid0.coords t) ∧ ¬cond0_2 (grid0.coords t) ∧ ¬cond0_3 (grid0.coords t) :=
  ⟨fun k => by have := (hcond0_0 t).mp k; omega, (hcond0_1 t).mpr ⟨h.1, by omega⟩, fun k => by have := (hcond0_2 t).mp k; omega,
    fun k => by have := (hcond0_3 t).mp k; omega⟩
theorem caseC (t : Fin cfg0.N) (h : t.val = 3) :
    ¬cond0_0 (grid0.coords t) ∧ cond0_1 (grid0.coords t) ∧ cond0_2 (grid0.coords t) ∧ ¬cond0_3 (grid0.coords t) :=
  ⟨fun k => by have := (hcond0_0 t).mp k; omega, (hcond0_1 t).mpr ⟨by omega, by omega⟩, (hcond0_2 t).mpr h,
    fun k => by have := (hcond0_3 t).mp k; omega⟩
theorem caseD (t : Fin cfg0.N) (h : 4 ≤ t.val) :
    ¬cond0_0 (grid0.coords t) ∧ ¬cond0_1 (grid0.coords t) ∧ ¬cond0_2 (grid0.coords t) ∧ cond0_3 (grid0.coords t) :=
  ⟨fun k => by have := (hcond0_0 t).mp k; omega, fun k => by have := (hcond0_1 t).mp k; omega, fun k => by have := (hcond0_2 t).mp k; omega,
    (hcond0_3 t).mpr h⟩

/-! ## The runs at a point's memrefs -/

abbrev runA (c : Dev nD) (t : Fin cfg0.N) (h : t.val = 0) (x0 : Vec F S1024x1024 .f32) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (caseA t h).1 (caseA t h).2.1 (caseA t h).2.2.1 (caseA t h).2.2.2 x0
abbrev runB (c : Dev nD) (t : Fin cfg0.N) (h : 1 ≤ t.val ∧ t.val ≤ 2) (x0 : Vec F S1024x1024 .f32) (xs0 xs1 xs2 : Vec F S512x512 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (caseB t h).1 (caseB t h).2.1 (caseB t h).2.2.1 (caseB t h).2.2.2 x0 xs0 xs1 xs2
abbrev runC (c : Dev nD) (t : Fin cfg0.N) (h : t.val = 3) (x0 : Vec F S1024x1024 .f32) (x1 : Vec F S1024x256 .f32) (x2 : Vec F S256x256 .f32) (x3 : Vec F S1x256 .f32) (xs0 xs1 xs2 : Vec F S512x512 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (caseC t h).1 (caseC t h).2.1 (caseC t h).2.2.1 (caseC t h).2.2.2 x0 x1 x2 x3 xs0 xs1 xs2
abbrev runD (c : Dev nD) (t : Fin cfg0.N) (h : 4 ≤ t.val) (x4 : Vec F S2000x256 .f32) (x5 : Vec F S256x256 .f32) (x6 : Vec F S1x256 .f32) (xs3 : Vec F S1024x384 .bf16) (xs4 : Vec F S1024x256 .bf16) :=
  kernelRun0_D (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (caseD t h).1 (caseD t h).2.1 (caseD t h).2.2.1 (caseD t h).2.2.2 x4 x5 x6 xs3 xs4

/-! ## What each case leaves, and that its pieces cover the buffer -/

def gA0 (c : Dev nD) (t : Fin cfg0.N) (h : t.val = 0) (x0 : Vec F S1024x1024 .f32) : Vec F S512x512 .f32 :=
  VS0_0.read (Elt F) (VS0_0.writes (Elt F) VS0_0.junk (runA c t h x0).1)
def gA1 (c : Dev nD) (t : Fin cfg0.N) (h : t.val = 0) (x0 : Vec F S1024x1024 .f32) : Vec F S512x512 .f32 :=
  VS0_1.read (Elt F) (VS0_1.writes (Elt F) VS0_1.junk (runA c t h x0).2.1)
def gA2 (c : Dev nD) (t : Fin cfg0.N) (h : t.val = 0) (x0 : Vec F S1024x1024 .f32) : Vec F S512x512 .f32 :=
  VS0_2.read (Elt F) (VS0_2.writes (Elt F) VS0_2.junk (runA c t h x0).2.2.1)
theorem coverA0 (c : Dev nD) (t : Fin cfg0.N) (h : t.val = 0) (x0 : Vec F S1024x1024 .f32) (y : S512x512.Idx) : ∃ pc ∈ (runA c t h x0).1, y ∈ pc.1.set :=
  View.cover_of_tiledL (runA c t h x0).1 S512x512.size (by sl_kernel_rfl) y
theorem coverA1 (c : Dev nD) (t : Fin cfg0.N) (h : t.val = 0) (x0 : Vec F S1024x1024 .f32) (y : S512x512.Idx) : ∃ pc ∈ (runA c t h x0).2.1, y ∈ pc.1.set :=
  View.cover_of_tiledL (runA c t h x0).2.1 S512x512.size (by sl_kernel_rfl) y
theorem coverA2 (c : Dev nD) (t : Fin cfg0.N) (h : t.val = 0) (x0 : Vec F S1024x1024 .f32) (y : S512x512.Idx) : ∃ pc ∈ (runA c t h x0).2.2.1, y ∈ pc.1.set :=
  View.cover_of_tiledL (runA c t h x0).2.2.1 S512x512.size (by sl_kernel_rfl) y

def gB0 (c : Dev nD) (t : Fin cfg0.N) (h : 1 ≤ t.val ∧ t.val ≤ 2) (x0 : Vec F S1024x1024 .f32) (xs0 xs1 xs2 : Vec F S512x512 .f32) : Vec F S512x512 .f32 :=
  VS0_0.read (Elt F) (VS0_0.writes (Elt F) VS0_0.junk (runB c t h x0 xs0 xs1 xs2).1)
def gB1 (c : Dev nD) (t : Fin cfg0.N) (h : 1 ≤ t.val ∧ t.val ≤ 2) (x0 : Vec F S1024x1024 .f32) (xs0 xs1 xs2 : Vec F S512x512 .f32) : Vec F S512x512 .f32 :=
  VS0_1.read (Elt F) (VS0_1.writes (Elt F) VS0_1.junk (runB c t h x0 xs0 xs1 xs2).2.1)
def gB2 (c : Dev nD) (t : Fin cfg0.N) (h : 1 ≤ t.val ∧ t.val ≤ 2) (x0 : Vec F S1024x1024 .f32) (xs0 xs1 xs2 : Vec F S512x512 .f32) : Vec F S512x512 .f32 :=
  VS0_2.read (Elt F) (VS0_2.writes (Elt F) VS0_2.junk (runB c t h x0 xs0 xs1 xs2).2.2.1)
theorem coverB0 (c : Dev nD) (t : Fin cfg0.N) (h : 1 ≤ t.val ∧ t.val ≤ 2) (x0 : Vec F S1024x1024 .f32) (xs0 xs1 xs2 : Vec F S512x512 .f32) (y : S512x512.Idx) : ∃ pc ∈ (runB c t h x0 xs0 xs1 xs2).1, y ∈ pc.1.set :=
  View.cover_of_tiledL (runB c t h x0 xs0 xs1 xs2).1 S512x512.size (by sl_kernel_rfl) y
theorem coverB1 (c : Dev nD) (t : Fin cfg0.N) (h : 1 ≤ t.val ∧ t.val ≤ 2) (x0 : Vec F S1024x1024 .f32) (xs0 xs1 xs2 : Vec F S512x512 .f32) (y : S512x512.Idx) : ∃ pc ∈ (runB c t h x0 xs0 xs1 xs2).2.1, y ∈ pc.1.set :=
  View.cover_of_tiledL (runB c t h x0 xs0 xs1 xs2).2.1 S512x512.size (by sl_kernel_rfl) y
theorem coverB2 (c : Dev nD) (t : Fin cfg0.N) (h : 1 ≤ t.val ∧ t.val ≤ 2) (x0 : Vec F S1024x1024 .f32) (xs0 xs1 xs2 : Vec F S512x512 .f32) (y : S512x512.Idx) : ∃ pc ∈ (runB c t h x0 xs0 xs1 xs2).2.2.1, y ∈ pc.1.set :=
  View.cover_of_tiledL (runB c t h x0 xs0 xs1 xs2).2.2.1 S512x512.size (by sl_kernel_rfl) y

section CaseC
variable (c : Dev nD) (t : Fin cfg0.N) (h : t.val = 3) (x0 : Vec F S1024x1024 .f32) (x1 : Vec F S1024x256 .f32) (x2 : Vec F S256x256 .f32) (x3 : Vec F S1x256 .f32) (xs0 xs1 xs2 : Vec F S512x512 .f32)
def gC0 : Vec F S512x512 .f32 := VS0_0.read (Elt F) (VS0_0.writes (Elt F) VS0_0.junk (runC c t h x0 x1 x2 x3 xs0 xs1 xs2).1)
def gC1 : Vec F S512x512 .f32 := VS0_1.read (Elt F) (VS0_1.writes (Elt F) VS0_1.junk (runC c t h x0 x1 x2 x3 xs0 xs1 xs2).2.1)
def gC2 : Vec F S512x512 .f32 := VS0_2.read (Elt F) (VS0_2.writes (Elt F) VS0_2.junk (runC c t h x0 x1 x2 x3 xs0 xs1 xs2).2.2.1)
def omC : Vec F S1024x384 .bf16 := VS0_3.read (Elt F) (VS0_3.writes (Elt F) VS0_3.junk (runC c t h x0 x1 x2 x3 xs0 xs1 xs2).2.2.2.1)
def kkC : Vec F S1024x256 .bf16 := VS0_4.read (Elt F) (VS0_4.writes (Elt F) VS0_4.junk (runC c t h x0 x1 x2 x3 xs0 xs1 xs2).2.2.2.2.1)
theorem coverC0 (y : S512x512.Idx) : ∃ pc ∈ (runC c t h x0 x1 x2 x3 xs0 xs1 xs2).1, y ∈ pc.1.set :=
  View.cover_of_tiledL (runC c t h x0 x1 x2 x3 xs0 xs1 xs2).1 S512x512.size (by sl_kernel_rfl) y
theorem coverC1 (y : S512x512.Idx) : ∃ pc ∈ (runC c t h x0 x1 x2 x3 xs0 xs1 xs2).2.1, y ∈ pc.1.set :=
  View.cover_of_tiledL (runC c t h x0 x1 x2 x3 xs0 xs1 xs2).2.1 S512x512.size (by sl_kernel_rfl) y
theorem coverC2 (y : S512x512.Idx) : ∃ pc ∈ (runC c t h x0 x1 x2 x3 xs0 xs1 xs2).2.2.1, y ∈ pc.1.set :=
  View.cover_of_tiledL (runC c t h x0 x1 x2 x3 xs0 xs1 xs2).2.2.1 S512x512.size (by sl_kernel_rfl) y
theorem coverC3 (y : S1024x384.Idx) : ∃ pc ∈ (runC c t h x0 x1 x2 x3 xs0 xs1 xs2).2.2.2.1, y ∈ pc.1.set :=
  View.cover_of_tiledBy (runC c t h x0 x1 x2 x3 xs0 xs1 xs2).2.2.2.1 ![512, 128] (by sl_kernel_rfl) y
theorem coverC4 (y : S1024x256.Idx) : ∃ pc ∈ (runC c t h x0 x1 x2 x3 xs0 xs1 xs2).2.2.2.2.1, y ∈ pc.1.set :=
  View.cover_of_tiledL (runC c t h x0 x1 x2 x3 xs0 xs1 xs2).2.2.2.2.1 S1024x256.size (by sl_kernel_rfl) y
end CaseC

section CaseD
variable (c : Dev nD) (t : Fin cfg0.N) (h : 4 ≤ t.val) (x4 : Vec F S2000x256 .f32) (x5 : Vec F S256x256 .f32) (x6 : Vec F S1x256 .f32) (xs3 : Vec F S1024x384 .bf16) (xs4 : Vec F S1024x256 .bf16)
def outD : Vec F S2000x256 .f32 := VO0_7.read (Elt F) (VO0_7.writes (Elt F) VO0_7.junk (runD c t h x4 x5 x6 xs3 xs4).1)
theorem coverD7 (y : S2000x256.Idx) : ∃ pc ∈ (runD c t h x4 x5 x6 xs3 xs4).1, y ∈ pc.1.set :=
  View.cover_of_tiledL (runD c t h x4 x5 x6 xs3 xs4).1 S2000x256.size (by sl_kernel_rfl) y
end CaseD

/-! ## What the carried buffers hold after each point -/

/-- The output window's staging buffer and the five scratch buffers after a point. Before point 4 `out`, and before
    point 3 `om` and `kk`, are placeholders that nothing consults. -/
structure Carried (F : FTy → Type) [FloatOps F] where
  out : Vec F S2000x256 .f32
  g0 : Vec F S512x512 .f32
  g1 : Vec F S512x512 .f32
  g2 : Vec F S512x512 .f32
  om : Vec F S1024x384 .bf16
  kk : Vec F S1024x256 .bf16

def carriedAt (c : Dev nD) : (n : ℕ) → n < cfg0.N → Carried F
  | 0, hn =>
    { out := VO0_7.read (Elt F) VO0_7.junk
      g0 := gA0 c ⟨0, hn⟩ rfl (iblk m c 0 ⟨0, hn⟩)
      g1 := gA1 c ⟨0, hn⟩ rfl (iblk m c 0 ⟨0, hn⟩)
      g2 := gA2 c ⟨0, hn⟩ rfl (iblk m c 0 ⟨0, hn⟩)
      om := VS0_3.read (Elt F) VS0_3.junk
      kk := VS0_4.read (Elt F) VS0_4.junk }
  | n + 1, hn =>
    let p := carriedAt c n (Nat.lt_of_succ_lt hn)
    if hB : n + 1 ≤ 2 then
      { p with
        g0 := gB0 c ⟨n + 1, hn⟩ ⟨Nat.succ_le_succ (Nat.zero_le n), hB⟩ (iblk m c 0 ⟨n + 1, hn⟩) p.g0 p.g1 p.g2
        g1 := gB1 c ⟨n + 1, hn⟩ ⟨Nat.succ_le_succ (Nat.zero_le n), hB⟩ (iblk m c 0 ⟨n + 1, hn⟩) p.g0 p.g1 p.g2
        g2 := gB2 c ⟨n + 1, hn⟩ ⟨Nat.succ_le_succ (Nat.zero_le n), hB⟩ (iblk m c 0 ⟨n + 1, hn⟩) p.g0 p.g1 p.g2 }
    else if hC : n + 1 = 3 then
      { p with
        g0 := gC0 c ⟨n + 1, hn⟩ hC (iblk m c 0 ⟨n + 1, hn⟩) (iblk m c 1 ⟨n + 1, hn⟩) (iblk m c 2 ⟨n + 1, hn⟩) (iblk m c 3 ⟨n + 1, hn⟩) p.g0 p.g1 p.g2
        g1 := gC1 c ⟨n + 1, hn⟩ hC (iblk m c 0 ⟨n + 1, hn⟩) (iblk m c 1 ⟨n + 1, hn⟩) (iblk m c 2 ⟨n + 1, hn⟩) (iblk m c 3 ⟨n + 1, hn⟩) p.g0 p.g1 p.g2
        g2 := gC2 c ⟨n + 1, hn⟩ hC (iblk m c 0 ⟨n + 1, hn⟩) (iblk m c 1 ⟨n + 1, hn⟩) (iblk m c 2 ⟨n + 1, hn⟩) (iblk m c 3 ⟨n + 1, hn⟩) p.g0 p.g1 p.g2
        om := omC c ⟨n + 1, hn⟩ hC (iblk m c 0 ⟨n + 1, hn⟩) (iblk m c 1 ⟨n + 1, hn⟩) (iblk m c 2 ⟨n + 1, hn⟩) (iblk m c 3 ⟨n + 1, hn⟩) p.g0 p.g1 p.g2
        kk := kkC c ⟨n + 1, hn⟩ hC (iblk m c 0 ⟨n + 1, hn⟩) (iblk m c 1 ⟨n + 1, hn⟩) (iblk m c 2 ⟨n + 1, hn⟩) (iblk m c 3 ⟨n + 1, hn⟩) p.g0 p.g1 p.g2 }
    else
      { p with
        out := outD c ⟨n + 1, hn⟩ (show 4 ≤ n + 1 by omega) (iblk m c 4 ⟨n + 1, hn⟩) (iblk m c 5 ⟨n + 1, hn⟩) (iblk m c 6 ⟨n + 1, hn⟩) p.om p.kk }

end Cert.KernelIdeal.Hand

end
-- ==== Proof.KI.Data.lean ====
import proofs.«127533_g52209622450808_cont_9to1_m_767_25_alg».proof.Proof.KI.Carried

/-!
  The proof data of the fused kernel's pipeline, its body obligation at every grid point, and the frame run.
  The invariant before a point owns the three Gram quadrant buffers at what the point before left and the two late
  buffers at some contents, which from the fifth point on are what the fourth point left; the generator register is
  never touched. Each case of the body takes from the invariant the buffers it touches and leaves the rest in place.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The carried contents, case by case -/

theorem carriedAt_A (c : Dev nD) (t : Fin cfg0.N) (h : t.val = 0) :
    carriedAt m c t.val t.isLt =
      { out := VO0_7.read (Elt F) VO0_7.junk, g0 := gA0 c t h (iblk m c 0 t), g1 := gA1 c t h (iblk m c 0 t), g2 := gA2 c t h (iblk m c 0 t),
        om := VS0_3.read (Elt F) VS0_3.junk, kk := VS0_4.read (Elt F) VS0_4.junk } := by
  obtain ⟨n, hn⟩ := t
  cases n with
  | zero => rfl
  | succ n => exact absurd h (Nat.succ_ne_zero n)

theorem carriedAt_B (c : Dev nD) (t : Fin cfg0.N) (h : 1 ≤ t.val ∧ t.val ≤ 2) :
    carriedAt m c t.val t.isLt =
      { carriedAt m c (t.val - 1) (Nat.lt_of_le_of_lt (Nat.sub_le _ _) t.isLt) with
        g0 := gB0 c t h (iblk m c 0 t) (carriedAt m c (t.val - 1) (Nat.lt_of_le_of_lt (Nat.sub_le _ _) t.isLt)).g0 (carriedAt m c (t.val - 1) (Nat.lt_of_le_of_lt (Nat.sub_le _ _) t.isLt)).g1 (carriedAt m c (t.val - 1) (Nat.lt_of_le_of_lt (Nat.sub_le _ _) t.isLt)).g2
        g1 := gB1 c t h (iblk m c 0 t) (carriedAt m c (t.val - 1) (Nat.lt_of_le_of_lt (Nat.sub_le _ _) t.isLt)).g0 (carriedAt m c (t.val - 1) (Nat.lt_of_le_of_lt (Nat.sub_le _ _) t.isLt)).g1 (carriedAt m c (t.val - 1) (Nat.lt_of_le_of_lt (Nat.sub_le _ _) t.isLt)).g2
        g2 := gB2 c t h (iblk m c 0 t) (carriedAt m c (t.val - 1) (Nat.lt_of_le_of_lt (Nat.sub_le _ _) t.isLt)).g0 (carriedAt m c (t.val - 1) (Nat.lt_of_le_of_lt (Nat.sub_le _ _) t.isLt)).g1 (carriedAt m c (t.val - 1) (Nat.lt_of_le_of_lt (Nat.sub_le _ _) t.isLt)).g2 } := by
  obtain ⟨n, hn⟩ := t
  cases n with
  | zero => exact absurd h.1 (show ¬ 1 ≤ (0 : ℕ) by decide)
  | succ n => exact (dif_pos h.2).trans rfl

theorem carriedAt_C (c : Dev nD) (t : Fin cfg0.N) (h : t.val = 3) :
    carriedAt m c t.val t.isLt =
      { carriedAt m c (t.val - 1) (Nat.lt_of_le_of_lt (Nat.sub_le _ _) t.isLt) with
        g0 := gC0 c t h (iblk m c 0 t) (iblk m c 1 t) (iblk m c 2 t) (iblk m c 3 t) (carriedAt m c (t.val - 1) (Nat.lt_of_le_of_lt (Nat.sub_le _ _) t.isLt)).g0 (carriedAt m c (t.val - 1) (Nat.lt_of_le_of_lt (Nat.sub_le _ _) t.isLt)).g1 (carriedAt m c (t.val - 1) (Nat.lt_of_le_of_lt (Nat.sub_le _ _) t.isLt)).g2
        g1 := gC1 c t h (iblk m c 0 t) (iblk m c 1 t) (iblk m c 2 t) (iblk m c 3 t) (carriedAt m c (t.val - 1) (Nat.lt_of_le_of_lt (Nat.sub_le _ _) t.isLt)).g0 (carriedAt m c (t.val - 1) (Nat.lt_of_le_of_lt (Nat.sub_le _ _) t.isLt)).g1 (carriedAt m c (t.val - 1) (Nat.lt_of_le_of_lt (Nat.sub_le _ _) t.isLt)).g2
        g2 := gC2 c t h (iblk m c 0 t) (iblk m c 1 t) (iblk m c 2 t) (iblk m c 3 t) (carriedAt m c (t.val - 1) (Nat.lt_of_le_of_lt (Nat.sub_le _ _) t.isLt)).g0 (carriedAt m c (t.val - 1) (Nat.lt_of_le_of_lt (Nat.sub_le _ _) t.isLt)).g1 (carriedAt m c (t.val - 1) (Nat.lt_of_le_of_lt (Nat.sub_le _ _) t.isLt)).g2
        om := omC c t h (iblk m c 0 t) (iblk m c 1 t) (iblk m c 2 t) (iblk m c 3 t) (carriedAt m c (t.val - 1) (Nat.lt_of_le_of_lt (Nat.sub_le _ _) t.isLt)).g0 (carriedAt m c (t.val - 1) (Nat.lt_of_le_of_lt (Nat.sub_le _ _) t.isLt)).g1 (carriedAt m c (t.val - 1) (Nat.lt_of_le_of_lt (Nat.sub_le _ _) t.isLt)).g2
        kk := kkC c t h (iblk m c 0 t) (iblk m c 1 t) (iblk m c 2 t) (iblk m c 3 t) (carriedAt m c (t.val - 1) (Nat.lt_of_le_of_lt (Nat.sub_le _ _) t.isLt)).g0 (carriedAt m c (t.val - 1) (Nat.lt_of_le_of_lt (Nat.sub_le _ _) t.isLt)).g1 (carriedAt m c (t.val - 1) (Nat.lt_of_le_of_lt (Nat.sub_le _ _) t.isLt)).g2 } := by
  obtain ⟨n, hn⟩ := t
  cases n with
  | zero => exact absurd h (show ¬ (0 : ℕ) = 3 by decide)
  | succ n => exact (dif_neg (by dsimp only at h; omega)).trans ((dif_pos h).trans rfl)

theorem carriedAt_D (c : Dev nD) (t : Fin cfg0.N) (h : 4 ≤ t.val) :
    carriedAt m c t.val t.isLt =
      { carriedAt m c (t.val - 1) (Nat.lt_of_le_of_lt (Nat.sub_le _ _) t.isLt) with
        out := outD c t h (iblk m c 4 t) (iblk m c 5 t) (iblk m c 6 t) (carriedAt m c (t.val - 1) (Nat.lt_of_le_of_lt (Nat.sub_le _ _) t.isLt)).om (carriedAt m c (t.val - 1) (Nat.lt_of_le_of_lt (Nat.sub_le _ _) t.isLt)).kk } := by
  obtain ⟨n, hn⟩ := t
  cases n with
  | zero => exact absurd h (show ¬ 4 ≤ (0 : ℕ) by decide)
  | succ n => exact (dif_neg (by dsimp only at h; omega)).trans ((dif_neg (by dsimp only at h; omega)).trans rfl)

/-! ## The invariant -/

/-- Before position `n`: at the first point the class's invariant (every scratch buffer at anything); afterwards the three
    quadrant buffers at what point `n - 1` left, the two late buffers at some contents — what point `n - 1` left in them
    once the fourth point has run — and the generator register at some state. -/
def PhiS (c : Dev nD) : (n : ℕ) → n ≤ cfg0.N → sProp 𝕄
  | 0, _ => Pipeline.ΦA spec0 c
  | n + 1, hn => iprop(iprop(owns (c : Thread nD τ) scM0_0 fullShare (carriedAt m c n hn).g0 ∗ owns (c : Thread nD τ) scM0_1 fullShare (carriedAt m c n hn).g1
        ∗ owns (c : Thread nD τ) scM0_2 fullShare (carriedAt m c n hn).g2
        ∗ (∃ om, ⌜3 ≤ n → om = (carriedAt m c n hn).om⌝ ∗ owns (c : Thread nD τ) scM0_3 fullShare om)
        ∗ (∃ kk, ⌜3 ≤ n → kk = (carriedAt m c n hn).kk⌝ ∗ owns (c : Thread nD τ) scM0_4 fullShare kk)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (carriedAt m c n hn).g0 ∗ owns (c : Thread nD τ) scM0_1 fullShare (carriedAt m c n hn).g1
        ∗ owns (c : Thread nD τ) scM0_2 fullShare (carriedAt m c n hn).g2
        ∗ (∃ om, ⌜3 ≤ n → om = (carriedAt m c n hn).om⌝ ∗ owns (c : Thread nD τ) scM0_3 fullShare om)
        ∗ (∃ kk, ⌜3 ≤ n → kk = (carriedAt m c n hn).kk⌝ ∗ owns (c : Thread nD τ) scM0_4 fullShare kk)) ∗ (∃ r, prngReg c r)) := rfl

theorem PhiS_pos (c : Dev nD) (n : ℕ) (h : n ≤ cfg0.N) (hz : n ≠ 0) :
    PhiS m c n h = iprop(iprop(owns (c : Thread nD τ) scM0_0 fullShare (carriedAt m c (n - 1) (by omega)).g0 ∗ owns (c : Thread nD τ) scM0_1 fullShare (carriedAt m c (n - 1) (by omega)).g1
        ∗ owns (c : Thread nD τ) scM0_2 fullShare (carriedAt m c (n - 1) (by omega)).g2
        ∗ (∃ om, ⌜3 ≤ n - 1 → om = (carriedAt m c (n - 1) (by omega)).om⌝ ∗ owns (c : Thread nD τ) scM0_3 fullShare om)
        ∗ (∃ kk, ⌜3 ≤ n - 1 → kk = (carriedAt m c (n - 1) (by omega)).kk⌝ ∗ owns (c : Thread nD τ) scM0_4 fullShare kk)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (carriedAt m c t.val t.isLt).out
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (carriedAt m c t.val t.isLt).out := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d

/-- An input window's buffer after the body holds its block: the inputs are never idle. -/
theorem leavesIn0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leavesIn1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leavesIn2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leavesIn3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]
theorem leavesIn4 (c : Dev nD) (t : Fin cfg0.N) : (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [liveAt0_4 t], after0_4]
theorem leavesIn5 (c : Dev nD) (t : Fin cfg0.N) : (dats m 0 c).leavesExact 5 t = owns (c : Thread nD τ) (ms0_5 t) fullShare (iblk m c 5 t) := by
  rw [show (dats m 0 c).leavesExact 5 t = owns (c : Thread nD τ) (ms0_5 t) fullShare ((dats m 0 c).after 5 t) from by
    unfold Dat.leavesExact; rw [liveAt0_5 t], after0_5]
theorem leavesIn6 (c : Dev nD) (t : Fin cfg0.N) : (dats m 0 c).leavesExact 6 t = owns (c : Thread nD τ) (ms0_6 t) fullShare (iblk m c 6 t) := by
  rw [show (dats m 0 c).leavesExact 6 t = owns (c : Thread nD τ) (ms0_6 t) fullShare ((dats m 0 c).after 6 t) from by
    unfold Dat.leavesExact; rw [liveAt0_6 t], after0_6]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

end Cert.KernelIdeal.Hand

end
-- ==== Proof.KI.Body.lean ====
import proofs.«127533_g52209622450808_cont_9to1_m_767_25_alg».proof.Proof.KI.Data

/-!
  The body obligation of the fused kernel at every grid point, and the frame run of the program.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at any point. The point's value says which case it is in; the inputs' memrefs hold their blocks; the output
    window is handed back untouched before the fifth point and stored whole from then on; the invariant yields the
    scratch buffers the case touches at what the point before left (at anything at the first point, and the two late
    buffers at anything at the fourth) and takes them back at this point's contents, the others staying in place. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leavesIn0, leavesIn1, leavesIn2, leavesIn3, leavesIn4, leavesIn5, leavesIn6]
  have hN : t.val < 9 := lt_of_lt_of_eq t.isLt (show cfg0.N = 9 from N_0)
  by_cases hA : t.val = 0
  · -- the first point: reset the three quadrants
    rw [Dat.leavesExact_idle (dats m 0 c) 7 t (idleAt0_7 t (caseA t hA).2.2.2) (noFlush0_7 t (caseA t hA).2.2.2)]
    rw [carriedAt_A m c t hA]; dsimp only
    rw [PhiS_castSucc m c t, PhiS_zero m c _ _ hA, PhiA0_eq]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA c t hA (iblk m c 0 t)).2.2.2 Set.univ _)
    isplitl [H0]; · iexact H0
    isplitl [HS0]; · iexact HS0
    isplitl [HS1]; · iexact HS1
    isplitl [HS2]; · iexact HS2
    iintro ⟨H0, ⟨%e0, HS0⟩, ⟨%e1, HS1⟩, ⟨%e2, HS2⟩⟩
    isplitl [HS0 HS1 HS2 HS3 HS4 Hg]
    · isplitl [HS0 HS1 HS2 HS3 HS4]
      · isplitl [HS0]
        · unfold owns; iexists _; isplitr
          swap; · iexact HS0
          ipureintro; exact View.read_writes_of_cover _ _ _ _ _ (coverA0 c t hA _)
        isplitl [HS1]
        · unfold owns; iexists _; isplitr
          swap; · iexact HS1
          ipureintro; exact View.read_writes_of_cover _ _ _ _ _ (coverA1 c t hA _)
        isplitl [HS2]
        · unfold owns; iexists _; isplitr
          swap; · iexact HS2
          ipureintro; exact View.read_writes_of_cover _ _ _ _ _ (coverA2 c t hA _)
        isplitl [HS3]
        · icases HS3 with ⟨%om, HS3⟩
          iexists om; isplitr
          · ipureintro; intro hh; omega
          iexact HS3
        · icases HS4 with ⟨%kk, HS4⟩
          iexists kk; isplitr
          · ipureintro; intro hh; omega
          iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases hB : t.val ≤ 2
    · -- the second and third points: accumulate the quadrants
      have hB' : 1 ≤ t.val ∧ t.val ≤ 2 := ⟨by omega, hB⟩
      rw [Dat.leavesExact_idle (dats m 0 c) 7 t (idleAt0_7 t (caseB t hB').2.2.2) (noFlush0_7 t (caseB t hB').2.2.2)]
      rw [carriedAt_B m c t hB']; dsimp only
      rw [PhiS_castSucc m c t, PhiS_pos m c _ _ hA]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB c t hB' (iblk m c 0 t) _ _ _).2.2.2 Set.univ _)
      isplitl [H0]; · iexact H0
      isplitl [HS0]; · iexact HS0
      isplitl [HS1]; · iexact HS1
      isplitl [HS2]; · iexact HS2
      iintro ⟨H0, ⟨%e0, HS0⟩, ⟨%e1, HS1⟩, ⟨%e2, HS2⟩⟩
      isplitl [HS0 HS1 HS2 HS3 HS4 Hg]
      · isplitl [HS0 HS1 HS2 HS3 HS4]
        · isplitl [HS0]
          · unfold owns; iexists _; isplitr
            swap; · iexact HS0
            ipureintro; exact View.read_writes_of_cover _ _ _ _ _ (coverB0 c t hB' _ _ _ _)
          isplitl [HS1]
          · unfold owns; iexists _; isplitr
            swap; · iexact HS1
            ipureintro; exact View.read_writes_of_cover _ _ _ _ _ (coverB1 c t hB' _ _ _ _)
          isplitl [HS2]
          · unfold owns; iexists _; isplitr
            swap; · iexact HS2
            ipureintro; exact View.read_writes_of_cover _ _ _ _ _ (coverB2 c t hB' _ _ _ _)
          isplitl [HS3]
          · icases HS3 with ⟨%om, %hom, HS3⟩
            iexists om; isplitr
            · ipureintro; intro hh; omega
            iexact HS3
          · icases HS4 with ⟨%kk, %hkk, HS4⟩
            iexists kk; isplitr
            · ipureintro; intro hh; omega
            iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · by_cases hC : t.val = 3
      · -- the fourth point: the last accumulation and the preamble's end
        rw [Dat.leavesExact_idle (dats m 0 c) 7 t (idleAt0_7 t (caseC t hC).2.2.2) (noFlush0_7 t (caseC t hC).2.2.2)]
        rw [carriedAt_C m c t hC]; dsimp only
        rw [PhiS_castSucc m c t, PhiS_pos m c _ _ hA]
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        icases HS3 with ⟨%om0, %hom0, HS3⟩
        icases HS4 with ⟨%kk0, %hkk0, HS4⟩
        iapply ((runC c t hC (iblk m c 0 t) (iblk m c 1 t) (iblk m c 2 t) (iblk m c 3 t) _ _ _).2.2.2.2.2 Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        isplitl [HS3]; · iexists _; iexact HS3
        isplitl [HS4]; · iexists _; iexact HS4
        iintro ⟨H0, H1, H2, H3, ⟨%e0, HS0⟩, ⟨%e1, HS1⟩, ⟨%e2, HS2⟩, ⟨%e3, HS3⟩, ⟨%e4, HS4⟩⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (coverC0 c t hC _ _ _ _ _ _ _)
            isplitl [HS1]
            · unfold owns; iexists _; isplitr
              swap; · iexact HS1
              ipureintro; exact View.read_writes_of_cover _ _ _ _ _ (coverC1 c t hC _ _ _ _ _ _ _)
            isplitl [HS2]
            · unfold owns; iexists _; isplitr
              swap; · iexact HS2
              ipureintro; exact View.read_writes_of_cover _ _ _ _ _ (coverC2 c t hC _ _ _ _ _ _ _)
            isplitl [HS3]
            · iexists _; isplitr
              · ipureintro; intro _; rfl
              unfold owns; iexists _; isplitr
              swap; · iexact HS3
              ipureintro; exact View.read_writes_of_cover _ _ _ _ _ (coverC3 c t hC _ _ _ _ _ _ _)
            · iexists _; isplitr
              · ipureintro; intro _; rfl
              unfold owns; iexists _; isplitr
              swap; · iexact HS4
              ipureintro; exact View.read_writes_of_cover _ _ _ _ _ (coverC4 c t hC _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · -- from the fifth point on: one block of attention rows
        have hD : 4 ≤ t.val := by omega
        rw [show (dats m 0 c).leavesExact 7 t = owns (c : Thread nD τ) (ms0_7 t) fullShare ((dats m 0 c).after 7 t) from by
          unfold Dat.leavesExact; rw [liveAt0_7 t (caseD t hD).2.2.2], after0_7]
        rw [carriedAt_D m c t hD]; dsimp only
        rw [PhiS_castSucc m c t, PhiS_pos m c _ _ hA]
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        icases HS3 with ⟨%om0, %hom0, HS3⟩
        icases HS4 with ⟨%kk0, %hkk0, HS4⟩
        obtain rfl := hom0 (by omega)
        obtain rfl := hkk0 (by omega)
        iapply ((runD c t hD (iblk m c 4 t) (iblk m c 5 t) (iblk m c 6 t) _ _).2 Set.univ _)
        isplitl [H4]; · iexact H4
        isplitl [H5]; · iexact H5
        isplitl [H6]; · iexact H6
        isplitl [HS3]; · iexact HS3
        isplitl [HS4]; · iexact HS4
        isplitl [H7]; · iexists _; iexact H7
        iintro ⟨H4, H5, H6, HS3, HS4, ⟨%e7, H7⟩⟩
        isplitl [HS0 HS1 HS2 HS3 HS4 Hg]
        · isplitl [HS0 HS1 HS2 HS3 HS4]
          · isplitl [HS0]; · iexact HS0
            isplitl [HS1]; · iexact HS1
            isplitl [HS2]; · iexact HS2
            isplitl [HS3]
            · iexists _; isplitr
              · ipureintro; intro _; rfl
              iexact HS3
            · iexists _; isplitr
              · ipureintro; intro _; rfl
              iexact HS4
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns outD; iexists _; isplitr
        swap; · iexact H7
        ipureintro; exact View.read_writes_of_cover _ _ _ _ _ (coverD7 c t hD _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the carried contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, ⟨%om, %hom, HS3⟩, ⟨%kk, %hkk, HS4⟩⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

theorem hout (c : Dev nD) : (dats m 0 c).Φ (Fin.last cfg0.N) ⊢ Pipeline.ΦA spec0 c :=
  Phi_out m c _ (by rw [Fin.val_last]; have : cfg0.N = 9 := N_0; omega)

set_option backward.isDefEq.respectTransparency.types false in
/-- From any memory with zero counters every weakly fair execution of @main terminates, and every final state has
    every array of the pipeline at what the proof data computes and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its seven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Hand

end
-- ==== Proof.KI.OutFinal.lean ====
import proofs.«127533_g52209622450808_cont_9to1_m_767_25_alg».proof.Proof.KI.Data
import Idealize.ShloMosaic.Lib.Pipeline.Value
import Idealize.ShloMosaic.Lib.ValueIdx

/-!
  The output array after the run. The output window's block index is `max (t - 4) 0`: the pipeline writes the
  staging buffer back after each of the points 4 to 8, into the five blocks of 2000 rows, and nowhere else; before
  point 4 the window is idle. So if what the body leaves at each of those points is one whole-array function read
  through that point's block, the array ends as that function.
-/

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable {F : FTy → Type} [FloatOps F] (m : (ℓ : Loc nD τ sig) → Buf (Elt F) ℓ)

/-- The output window's printed index map, decided over the nine points: the row block is t - 4 (zero before point 4),
    the column block is 0, and the window is written back exactly at the points from 4 on. -/
theorem out_idx_facts : ∀ t : Fin cfg0.N, win0_7.index t (0 : Fin 2) = t.val - 4
    ∧ win0_7.index t (1 : Fin 2) = 0
    ∧ ((cfg0.win 7).flush t = true ↔ 4 ≤ t.val) :=
  (by decide +kernel : ∀ t : Fin grid0.N, _)

/-- An index of the array is in point t's block iff each coordinate is in the block's range on its axis. -/
theorem out_mem_blk (t : Fin cfg0.N) (i : S10000x256.Idx) :
    i ∈ ((cfg0.win 7).blk t).view.set ↔ ∀ a : Fin 2, win0_7.index t a * S2000x256.size a ≤ (i a).val ∧ (i a).val < win0_7.index t a * S2000x256.size a + S2000x256.size a := by
  show i ∈ ((View.whole main_v2).slice (win0_7.rect t)).set ↔ _
  rw [View.set_slice_whole, Rect.mem_set_unit]
  exact Iff.rfl

/-- What a point from 4 on writes back is its block of the whole-array function. -/
theorem out_flushed_eq (c : Dev nD) (G : Vec F S10000x256 .f32)
    (hG : ∀ t : Fin cfg0.N, 4 ≤ t.val → ∀ (r : Fin 2000) (d : Fin 256) (hr : 2000 * (t.val - 4) + r.val < 10000),
      (carriedAt m c t.val t.isLt).out (ix2 r d) = G (ix2 ⟨2000 * (t.val - 4) + r.val, hr⟩ d))
    (t : Fin cfg0.N) (hf : (cfg0.win 7).flush t = true) :
    (dats m 0 c).flushed 7 t = ((cfg0.win 7).blk t).view.read (Elt F) G := by
  obtain ⟨e0, e1, e2⟩ := out_idx_facts t
  have ht : 4 ≤ t.val := e2.mp hf
  have hN : t.val < 9 := t.isLt
  show (cfg0.win 7).cut (grid0.coords t) ((dats m 0 c).after 7 t) = _
  rw [after0_7]
  have key : ∀ j : S2000x256.Idx,
      (carriedAt m c t.val t.isLt).out j = G (((cfg0.win 7).blk t).view.emb j) := by
    intro j
    have hj0 : (j 0).val < 2000 := (j 0).isLt
    have hr : 2000 * (t.val - 4) + (j 0).val < 10000 := by omega
    refine (congrArg (carriedAt m c t.val t.isLt).out (eq_ix2 j)).trans ((hG t ht (j 0) (j 1) hr).trans ?_)
    refine congrArg G ?_
    funext a; apply Fin.ext
    match a with
    | ⟨0, _⟩ => show 2000 * (t.val - 4) + (j 0).val = win0_7.index t (0 : Fin 2) * 2000 + 1 * (j 0).val; omega
    | ⟨1, _⟩ => show (j 1).val = win0_7.index t (1 : Fin 2) * 256 + 1 * (j 1).val; omega
  funext j
  exact key j

/-- Every row of the array is in the block of the point 4 + row / 2000, which writes back. -/
theorem out_cover (i : S10000x256.Idx) :
    ∃ t : Fin cfg0.N, (cfg0.win 7).flush t = true ∧ i ∈ ((cfg0.win 7).blk t).view.set := by
  have hi0 : (i 0).val < 10000 := (i 0).isLt
  have hi1 : (i 1).val < 256 := (i 1).isLt
  have hlt : 4 + (i 0).val / 2000 < cfg0.N := by show 4 + (i 0).val / 2000 < 9; omega
  obtain ⟨e0, e1, e2⟩ := out_idx_facts ⟨4 + (i 0).val / 2000, hlt⟩
  have e0' : win0_7.index ⟨4 + (i 0).val / 2000, hlt⟩ (0 : Fin 2) = 4 + (i 0).val / 2000 - 4 := e0
  refine ⟨⟨4 + (i 0).val / 2000, hlt⟩, e2.mpr (Nat.le_add_right _ _), ?_⟩
  rw [out_mem_blk]
  intro a
  match a with
  | ⟨0, _⟩ => show win0_7.index ⟨4 + (i 0).val / 2000, hlt⟩ (0 : Fin 2) * 2000 ≤ (i 0).val ∧ (i 0).val < win0_7.index ⟨4 + (i 0).val / 2000, hlt⟩ (0 : Fin 2) * 2000 + 2000; omega
  | ⟨1, _⟩ => show win0_7.index ⟨4 + (i 0).val / 2000, hlt⟩ (1 : Fin 2) * 256 ≤ (i 1).val ∧ (i 1).val < win0_7.index ⟨4 + (i 0).val / 2000, hlt⟩ (1 : Fin 2) * 256 + 256; omega

theorem out_final (c : Dev nD) (G : Vec F S10000x256 .f32)
    (hG : ∀ t : Fin cfg0.N, 4 ≤ t.val → ∀ (r : Fin 2000) (d : Fin 256) (hr : 2000 * (t.val - 4) + r.val < 10000),
      (carriedAt m c t.val t.isLt).out (ix2 r d) = G (ix2 ⟨2000 * (t.val - 4) + r.val, hr⟩ d)) :
    (dats m 0 c).arrAt 7 cfg0.N = G :=
  (dats m 0 c).arrAt_eq_of_cover 7 G (fun t hf => out_flushed_eq m c G hG t hf) out_cover

end Cert.KernelIdeal.HandValue

end
-- ==== Proof.KI.PayGram.lean ====
/- The Gram payloads of the idealized kernel, read at an index of the extended reals.

   One chunk of the activations is loaded as a left and a right column half, each a 1024 x 512
   matrix. The kernel forms the three distinct quadrants of the chunk's Gram matrix,
   (left)ᵀ·(left), (left)ᵀ·(right) and (right)ᵀ·(right), each 512 x 512, by a matrix product that
   contracts the ROW axis of both operands, and either stores a quadrant as it is (first chunk)
   or adds it to the quadrant accumulated so far (later chunks). At the extended reals the
   narrowing of the operands to the sixteen-bit format is the identity and the product into the
   zero matrix is the plain sum of products, so entry (p, q) of a quadrant is
   ∑ₖ A(k, p) · B(k, q), k over the 1024 rows of the chunk. -/
import proofs.«127533_g52209622450808_cont_9to1_m_767_25_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HandValue

open Cert.KernelIdeal Cert.KernelIdeal.Gen Idealize.ShloMosaic Idealize.ShloMosaic.ValueIdx
open scoped BigOperators

/-! ## The operand indices of the product that contracts the row axis of both operands

For the output entry i = (i₀, i₁) and the contraction position q, the left operand is read at
(q, i₀) and the right operand at (q, i₁): axis 0 of each operand is the contracted one, axis 1 of
the left operand is the output's axis 0 and axis 1 of the right operand is the output's axis 1. -/

theorem lhs_gram_0 (i : S512x512.Idx) (q : dot_S1024x512_S1024x512_S512x512_0_0_1_1_n_n.contr.Idx) :
    (dot_S1024x512_S1024x512_S512x512_0_0_1_1_n_n.lhsIdx i q 0).val = (q ⟨0, by decide⟩).val :=
  dot_S1024x512_S1024x512_S512x512_0_0_1_1_n_n.lhsIdx_val_of_single rfl i q
theorem lhs_gram_1 (i : S512x512.Idx) (q : dot_S1024x512_S1024x512_S512x512_0_0_1_1_n_n.contr.Idx) :
    (dot_S1024x512_S1024x512_S512x512_0_0_1_1_n_n.lhsIdx i q 1).val = (i 0).val := by
  unfold DotDims.lhsIdx
  rw [dif_neg (show ¬(1 : Fin S1024x512.rank) ∈ dot_S1024x512_S1024x512_S512x512_0_0_1_1_n_n.lhsBatch by decide), dif_pos (show (1 : Fin S1024x512.rank) ∈ dot_S1024x512_S1024x512_S512x512_0_0_1_1_n_n.lhsNonContracting by decide)]
  rfl
theorem rhs_gram_0 (i : S512x512.Idx) (q : dot_S1024x512_S1024x512_S512x512_0_0_1_1_n_n.contr.Idx) :
    (dot_S1024x512_S1024x512_S512x512_0_0_1_1_n_n.rhsIdx i q 0).val = (q ⟨0, by decide⟩).val :=
  dot_S1024x512_S1024x512_S512x512_0_0_1_1_n_n.rhsIdx_val_of_single rfl i q
theorem rhs_gram_1 (i : S512x512.Idx) (q : dot_S1024x512_S1024x512_S512x512_0_0_1_1_n_n.contr.Idx) :
    (dot_S1024x512_S1024x512_S512x512_0_0_1_1_n_n.rhsIdx i q 1).val = (i 1).val := by
  unfold DotDims.rhsIdx
  rw [dif_neg (show ¬(1 : Fin S1024x512.rank) ∈ dot_S1024x512_S1024x512_S512x512_0_0_1_1_n_n.rhsBatch by decide), dif_pos (show (1 : Fin S1024x512.rank) ∈ dot_S1024x512_S1024x512_S512x512_0_0_1_1_n_n.rhsNonContracting by decide)]
  rfl

/-! ## The product into the zero matrix, at an entry -/

/-- Entry (p, q) of Aᵀ·B accumulated into the zero matrix is ∑ₖ A(k, p) · B(k, q). -/
theorem gram_matmul_apply (lhs rhs : FVec Ideal S1024x512 .bf16) (p q : Fin 512) :
    matmul dot_S1024x512_S1024x512_S512x512_0_0_1_1_n_n none lhs rhs (constant (F := Ideal) S512x512 .f32 0x00000000#32) (ix2 p q)
      = ∑ k : Fin 1024, lhs (ix2 k p) * rhs (ix2 k q) := by
  refine (Ideal.matmul_constant_zero_apply dot_S1024x512_S1024x512_S512x512_0_0_1_1_n_n none lhs rhs (ix2 p q)).trans ?_
  rw [← Equiv.sum_comp (contrEquiv1 dot_S1024x512_S1024x512_S512x512_0_0_1_1_n_n 1024 rfl rfl).symm]
  refine Finset.sum_congr rfl fun k _ => ?_
  have hk := contrEquiv1_symm_val dot_S1024x512_S1024x512_S512x512_0_0_1_1_n_n 1024 rfl rfl k
  have el : dot_S1024x512_S1024x512_S512x512_0_0_1_1_n_n.lhsIdx (ix2 p q) ((contrEquiv1 dot_S1024x512_S1024x512_S512x512_0_0_1_1_n_n 1024 rfl rfl).symm k) = ix2 k p := funext fun a => Fin.ext (by
    match a with
    | ⟨0, _⟩ => exact (lhs_gram_0 _ _).trans hk
    | ⟨1, _⟩ => exact lhs_gram_1 _ _)
  have er : dot_S1024x512_S1024x512_S512x512_0_0_1_1_n_n.rhsIdx (ix2 p q) ((contrEquiv1 dot_S1024x512_S1024x512_S512x512_0_0_1_1_n_n 1024 rfl rfl).symm k) = ix2 k q := funext fun a => Fin.ext (by
    match a with
    | ⟨0, _⟩ => exact (rhs_gram_0 _ _).trans hk
    | ⟨1, _⟩ => exact rhs_gram_1 _ _)
  rw [el, er]

/-! ## The six payloads -/

/-- First chunk, upper-left quadrant: (left)ᵀ·(left). -/
theorem k0_pay3_apply (v14 : Vec Ideal S1024x512 .f32) (p q : Fin 512) :
    k0_pay3 (F := Ideal) v14 (ix2 p q) = ∑ k : Fin 1024, v14 (ix2 k p) * v14 (ix2 k q) := by
  unfold k0_pay3 k0_pay1
  refine (congrFun (shapeCast_self _ _) (ix2 p q)).trans ?_
  exact gram_matmul_apply _ _ p q

/-- First chunk, upper-right quadrant: (left)ᵀ·(right). -/
theorem k0_pay4_apply (v14 : Vec Ideal S1024x512 .f32) (v16 : Vec Ideal S1024x512 .f32) (p q : Fin 512) :
    k0_pay4 (F := Ideal) v14 v16 (ix2 p q) = ∑ k : Fin 1024, v14 (ix2 k p) * v16 (ix2 k q) := by
  unfold k0_pay4 k0_pay1 k0_pay2
  refine (congrFun (shapeCast_self _ _) (ix2 p q)).trans ?_
  exact gram_matmul_apply _ _ p q

/-- First chunk, lower-right quadrant: (right)ᵀ·(right). -/
theorem k0_pay5_apply (v16 : Vec Ideal S1024x512 .f32) (p q : Fin 512) :
    k0_pay5 (F := Ideal) v16 (ix2 p q) = ∑ k : Fin 1024, v16 (ix2 k p) * v16 (ix2 k q) := by
  unfold k0_pay5 k0_pay2
  refine (congrFun (shapeCast_self _ _) (ix2 p q)).trans ?_
  exact gram_matmul_apply _ _ p q

/-- Later chunk, upper-left quadrant: the accumulated quadrant plus (left)ᵀ·(left). -/
theorem k0_pay8_apply (v14 : Vec Ideal S1024x512 .f32) (v18 : Vec Ideal S512x512 .f32) (p q : Fin 512) :
    k0_pay8 (F := Ideal) v14 v18 (ix2 p q) = v18 (ix2 p q) + ∑ k : Fin 1024, v14 (ix2 k p) * v14 (ix2 k q) := by
  unfold k0_pay8 k0_pay6
  refine (congrFun (shapeCast_self _ _) (ix2 p q)).trans ?_
  exact congrArg (v18 (ix2 p q) + ·) (gram_matmul_apply _ _ p q)

/-- Later chunk, upper-right quadrant: the accumulated quadrant plus (left)ᵀ·(right). -/
theorem k0_pay9_apply (v14 : Vec Ideal S1024x512 .f32) (v16 : Vec Ideal S1024x512 .f32) (v24 : Vec Ideal S512x512 .f32) (p q : Fin 512) :
    k0_pay9 (F := Ideal) v14 v16 v24 (ix2 p q) = v24 (ix2 p q) + ∑ k : Fin 1024, v14 (ix2 k p) * v16 (ix2 k q) := by
  unfold k0_pay9 k0_pay6 k0_pay7
  refine (congrFun (shapeCast_self _ _) (ix2 p q)).trans ?_
  exact congrArg (v24 (ix2 p q) + ·) (gram_matmul_apply _ _ p q)

/-- Later chunk, lower-right quadrant: the accumulated quadrant plus (right)ᵀ·(right). -/
theorem k0_pay10_apply (v16 : Vec Ideal S1024x512 .f32) (v30 : Vec Ideal S512x512 .f32) (p q : Fin 512) :
    k0_pay10 (F := Ideal) v16 v30 (ix2 p q) = v30 (ix2 p q) + ∑ k : Fin 1024, v16 (ix2 k p) * v16 (ix2 k q) := by
  unfold k0_pay10 k0_pay7
  refine (congrFun (shapeCast_self _ _) (ix2 p q)).trans ?_
  exact congrArg (v30 (ix2 p q) + ·) (gram_matmul_apply _ _ p q)

end Cert.KernelIdeal.HandValue
-- ==== Proof.KerSpec.lean ====
import proofs.«127533_g52209622450808_cont_9to1_m_767_25_alg».proof.Proof.Spec

/-!
  The kernel's tiling against the specification, in pure terms.

  The kernel never forms the 1024 x 1024 matrix `ff = √(fixᵀ fix)`: it accumulates three 512 x 512 quadrants of the
  Gram matrix (top-left, top-right, bottom-right) over four chunks of 1024 rows of `fix`, and uses the Gram matrix's
  symmetry for the bottom-left one. Here: a sum over 4096 rows is the four chunk sums added left to right; a column
  sum of `ff` is a sum down one quadrant plus a sum along or down another; and each half of the mixed `other` is a
  sum over the left columns plus a sum over the right columns.
-/

noncomputable section

open scoped BigOperators
open Idealize.ShloMosaic Idealize.ShloMosaic.ValueIdx

namespace Cert.Hand.Spec

/-- The left and right halves of the 1024 rows and columns. -/
def lo (j : Fin 512) : Fin 1024 := ⟨j.val, by omega⟩
def hi (j : Fin 512) : Fin 1024 := ⟨512 + j.val, by omega⟩

/-- A sum over \`Fin n\` with \`n = a + b\` is the sum over the first \`a\` indices plus the sum over the last \`b\`. -/
theorem sum_split (a b n : ℕ) (h : a + b = n) (f : Fin n → EReal) :
    (∑ i : Fin a, f ⟨i.val, by omega⟩) + ∑ i : Fin b, f ⟨a + i.val, by omega⟩ = ∑ k : Fin n, f k := by
  subst h
  rw [Fin.sum_univ_add]
  rfl

/-- A sum over the 1024 indices is the sum over the left half plus the sum over the right half. -/
theorem sum_halves (g : Fin 1024 → EReal) :
    (∑ i : Fin 512, g (lo i)) + ∑ i : Fin 512, g (hi i) = ∑ i : Fin 1024, g i :=
  sum_split 512 512 1024 rfl g

/-- A sum over the 4096 rows of \`fix\` is the sum of its four chunks of 1024 rows, added in the order the kernel adds them. -/
theorem sum_chunks (f : Fin 4096 → EReal) :
    (((∑ k : Fin 1024, f ⟨k.val, by omega⟩) + ∑ k : Fin 1024, f ⟨1024 + k.val, by omega⟩)
        + ∑ k : Fin 1024, f ⟨2048 + k.val, by omega⟩) + ∑ k : Fin 1024, f ⟨3072 + k.val, by omega⟩
      = ∑ k : Fin 4096, f k := by
  have h1 := sum_split 1024 1024 2048 rfl (fun i : Fin 2048 => f ⟨i.val, by omega⟩)
  have h2 := sum_split 2048 1024 3072 rfl (fun i : Fin 3072 => f ⟨i.val, by omega⟩)
  have h3 := sum_split 3072 1024 4096 rfl f
  rw [← h3, ← h2, ← h1]

variable (ot : Fin 1024 → Fin 256 → EReal) (fx : Fin 4096 → Fin 1024 → EReal)

/-- The three Gram quadrants the kernel keeps, as 512 x 512 arrays. -/
def q00 : (⟨2, ![512, 512]⟩ : Shape).Idx → EReal := fun y => gram fx (lo (y 0)) (lo (y 1))
def q01 : (⟨2, ![512, 512]⟩ : Shape).Idx → EReal := fun y => gram fx (lo (y 0)) (hi (y 1))
def q11 : (⟨2, ![512, 512]⟩ : Shape).Idx → EReal := fun y => gram fx (hi (y 0)) (hi (y 1))

theorem gram_symm (i j : Fin 1024) : gram fx i j = gram fx j i := by
  unfold gram
  exact Finset.sum_congr rfl (fun k _ => mul_comm _ _)

/-- The column sums of `ff` from the quadrants: a left column down the top-left quadrant and along the top-right one
    (the bottom-left quadrant is the top-right one transposed); a right column down the top-right and the bottom-right. -/
theorem colsum_lo (j : Fin 512) :
    (∑ i : Fin 512, Ideal.sqrt (q00 fx (ix2 i j))) + ∑ i : Fin 512, Ideal.sqrt (q01 fx (ix2 j i)) = colsum fx (lo j) := by
  refine Eq.trans ?_ (sum_halves (fun i => ff fx i (lo j)))
  refine congrArg₂ (· + ·) rfl (Finset.sum_congr rfl (fun i _ => ?_))
  show Ideal.sqrt (gram fx (lo j) (hi i)) = Ideal.sqrt (gram fx (hi i) (lo j))
  rw [gram_symm]
theorem colsum_hi (j : Fin 512) :
    (∑ i : Fin 512, Ideal.sqrt (q01 fx (ix2 i j))) + ∑ i : Fin 512, Ideal.sqrt (q11 fx (ix2 i j)) = colsum fx (hi j) :=
  sum_halves (fun i => ff fx i (hi j))

/-- The top and bottom halves of the mixed `other`, the kernel's way, are the specification's `omKer` at those rows. -/
theorem om_top (p : Fin 512) (d : Fin 256) :
    (∑ j : Fin 512, Ideal.sqrt (q00 fx (ix2 p j)) * Ideal.div (ot (lo j) d) (colsum fx (lo j)))
        + ∑ j : Fin 512, Ideal.sqrt (q01 fx (ix2 p j)) * Ideal.div (ot (hi j) d) (colsum fx (hi j))
      = omKer ot fx (lo p) d :=
  sum_halves (fun j => ff fx (lo p) j * Ideal.div (ot j d) (colsum fx j))
theorem om_bot (p : Fin 512) (d : Fin 256) :
    (∑ j : Fin 512, Ideal.sqrt (q01 fx (ix2 j p)) * Ideal.div (ot (lo j) d) (colsum fx (lo j)))
        + ∑ j : Fin 512, Ideal.sqrt (q11 fx (ix2 p j)) * Ideal.div (ot (hi j) d) (colsum fx (hi j))
      = omKer ot fx (hi p) d := by
  refine Eq.trans ?_ (sum_halves (fun j => ff fx (hi p) j * Ideal.div (ot j d) (colsum fx j)))
  refine congrArg₂ (· + ·) (Finset.sum_congr rfl (fun j _ => ?_)) rfl
  show Ideal.sqrt (gram fx (lo j) (hi p)) * _ = Ideal.sqrt (gram fx (hi p) (lo j)) * _
  rw [gram_symm]

end Cert.Hand.Spec

end
-- ==== Proof.KI.Pieces.lean ====
import proofs.«127533_g52209622450808_cont_9to1_m_767_25_alg».proof.Proof.KI.Carried
import proofs.«127533_g52209622450808_cont_9to1_m_767_25_alg».proof.Proof.KI.PayGram
import proofs.«127533_g52209622450808_cont_9to1_m_767_25_alg».proof.Proof.KerSpec
import Idealize.ShloMosaic.Lib.Tactic

/-!
  What the three Gram quadrant buffers hold after a point, entry by entry, at the extended reals: after the first
  point the chunk's own products; after a later point what the buffer held plus the chunk's products. The left and
  right column halves of the 1024-column chunk are its columns `lo p` and `hi p`.

  Each case of the body leaves ONE piece in each quadrant buffer: the whole-buffer rectangle holding the quadrant's
  payload applied to the two column halves of the staged chunk (and, from the second point on, to what the buffer
  held). A whole-buffer piece read back is its payload; a column half read at (k, p) is the chunk at (k, p) or at
  (k, 512 + p); and the payload at (p, q) is the sum over the chunk's rows of the products of the two columns.
-/

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.ShloMosaic.Tactic
open Idealize.SL Idealize.SL.Sem
open Cert.Hand.Spec (lo hi)

variable {F : FTy → Type} [FloatOps F]

/-- The zero offsets of a whole-buffer rectangle, however they are spelt. -/
theorem hz_pieces : (![0, 0] : Fin 2 → Nat) = fun _ => 0 := funext fun a => by fin_cases a <;> rfl

/-! ## What each case's one piece is: the payload of the loads -/

/-- The left column half of the staged chunk: columns 0 … 511. -/
abbrev halfL (x0 : Vec F S1024x1024 .f32) : Vec F S1024x512 .f32 :=
  View.ld x0 (Rect.unit (s := S1024x1024) ![0, 0] S1024x512.size inb_S1024x1024_S1024x512_0_0)
/-- The right column half of the staged chunk: columns 512 … 1023. -/
abbrev halfR (x0 : Vec F S1024x1024 .f32) : Vec F S1024x512 .f32 :=
  View.ld x0 (Rect.unit (s := S1024x1024) ![0, 512] S1024x512.size inb_S1024x1024_S1024x512_0_512)

theorem gA0_piece (c : Dev nD) (t : Fin cfg0.N) (h : t.val = 0) (x0 : Vec F S1024x1024 .f32) :
    gA0 (F := F) c t h x0 = k0_pay3 (halfL x0) := by
  unfold gA0
  rw [View.read_writes_eq_canon _ _ _ (coverA0 c t h x0)]
  unfold runA kernelRun0_A
  dsimp only
  sl_unfold_words
  rw [View.canon_unit_zero hz_pieces]
  simp only [View.readAt_eq_ld, (hs0_0 t).read_unread]
theorem gA1_piece (c : Dev nD) (t : Fin cfg0.N) (h : t.val = 0) (x0 : Vec F S1024x1024 .f32) :
    gA1 (F := F) c t h x0 = k0_pay4 (halfL x0) (halfR x0) := by
  unfold gA1
  rw [View.read_writes_eq_canon _ _ _ (coverA1 c t h x0)]
  unfold runA kernelRun0_A
  dsimp only
  sl_unfold_words
  rw [View.canon_unit_zero hz_pieces]
  simp only [View.readAt_eq_ld, (hs0_0 t).read_unread]
theorem gA2_piece (c : Dev nD) (t : Fin cfg0.N) (h : t.val = 0) (x0 : Vec F S1024x1024 .f32) :
    gA2 (F := F) c t h x0 = k0_pay5 (halfR x0) := by
  unfold gA2
  rw [View.read_writes_eq_canon _ _ _ (coverA2 c t h x0)]
  unfold runA kernelRun0_A
  dsimp only
  sl_unfold_words
  rw [View.canon_unit_zero hz_pieces]
  simp only [View.readAt_eq_ld, (hs0_0 t).read_unread]

theorem gB0_piece (c : Dev nD) (t : Fin cfg0.N) (h : 1 ≤ t.val ∧ t.val ≤ 2) (x0 : Vec F S1024x1024 .f32) (xs0 xs1 xs2 : Vec F S512x512 .f32) :
    gB0 (F := F) c t h x0 xs0 xs1 xs2 = k0_pay8 (halfL x0) xs0 := by
  unfold gB0
  rw [View.read_writes_eq_canon _ _ _ (coverB0 c t h x0 xs0 xs1 xs2)]
  unfold runB kernelRun0_B
  dsimp only
  sl_unfold_words
  rw [View.canon_unit_zero hz_pieces]
  simp only [View.readAt_eq_ld, (hs0_0 t).read_unread, (Memref.isWhole_whole cc0_scratch0).read_unread, View.ld_unit_zero (S := S512x512) hz_pieces]
theorem gB1_piece (c : Dev nD) (t : Fin cfg0.N) (h : 1 ≤ t.val ∧ t.val ≤ 2) (x0 : Vec F S1024x1024 .f32) (xs0 xs1 xs2 : Vec F S512x512 .f32) :
    gB1 (F := F) c t h x0 xs0 xs1 xs2 = k0_pay9 (halfL x0) (halfR x0) xs1 := by
  unfold gB1
  rw [View.read_writes_eq_canon _ _ _ (coverB1 c t h x0 xs0 xs1 xs2)]
  unfold runB kernelRun0_B
  dsimp only
  sl_unfold_words
  rw [View.canon_unit_zero hz_pieces]
  simp only [View.readAt_eq_ld, (hs0_0 t).read_unread, (Memref.isWhole_whole cc0_scratch1).read_unread, View.ld_unit_zero (S := S512x512) hz_pieces]
theorem gB2_piece (c : Dev nD) (t : Fin cfg0.N) (h : 1 ≤ t.val ∧ t.val ≤ 2) (x0 : Vec F S1024x1024 .f32) (xs0 xs1 xs2 : Vec F S512x512 .f32) :
    gB2 (F := F) c t h x0 xs0 xs1 xs2 = k0_pay10 (halfR x0) xs2 := by
  unfold gB2
  rw [View.read_writes_eq_canon _ _ _ (coverB2 c t h x0 xs0 xs1 xs2)]
  unfold runB kernelRun0_B
  dsimp only
  sl_unfold_words
  rw [View.canon_unit_zero hz_pieces]
  simp only [View.readAt_eq_ld, (hs0_0 t).read_unread, (Memref.isWhole_whole cc0_scratch2).read_unread, View.ld_unit_zero (S := S512x512) hz_pieces]

section CaseC
variable (c : Dev nD) (t : Fin cfg0.N) (h : t.val = 3) (x0 : Vec F S1024x1024 .f32) (x1 : Vec F S1024x256 .f32) (x2 : Vec F S256x256 .f32) (x3 : Vec F S1x256 .f32) (xs0 xs1 xs2 : Vec F S512x512 .f32)
theorem gC0_piece : gC0 (F := F) c t h x0 x1 x2 x3 xs0 xs1 xs2 = k0_pay8 (halfL x0) xs0 := by
  unfold gC0
  rw [View.read_writes_eq_canon _ _ _ (coverC0 c t h x0 x1 x2 x3 xs0 xs1 xs2)]
  unfold runC kernelRun0_C
  dsimp only
  sl_unfold_words
  rw [View.canon_unit_zero hz_pieces]
  simp only [View.readAt_eq_ld, (hs0_0 t).read_unread, (Memref.isWhole_whole cc0_scratch0).read_unread, View.ld_unit_zero (S := S512x512) hz_pieces]
theorem gC1_piece : gC1 (F := F) c t h x0 x1 x2 x3 xs0 xs1 xs2 = k0_pay9 (halfL x0) (halfR x0) xs1 := by
  unfold gC1
  rw [View.read_writes_eq_canon _ _ _ (coverC1 c t h x0 x1 x2 x3 xs0 xs1 xs2)]
  unfold runC kernelRun0_C
  dsimp only
  sl_unfold_words
  rw [View.canon_unit_zero hz_pieces]
  simp only [View.readAt_eq_ld, (hs0_0 t).read_unread, (Memref.isWhole_whole cc0_scratch1).read_unread, View.ld_unit_zero (S := S512x512) hz_pieces]
theorem gC2_piece : gC2 (F := F) c t h x0 x1 x2 x3 xs0 xs1 xs2 = k0_pay10 (halfR x0) xs2 := by
  unfold gC2
  rw [View.read_writes_eq_canon _ _ _ (coverC2 c t h x0 x1 x2 x3 xs0 xs1 xs2)]
  unfold runC kernelRun0_C
  dsimp only
  sl_unfold_words
  rw [View.canon_unit_zero hz_pieces]
  simp only [View.readAt_eq_ld, (hs0_0 t).read_unread, (Memref.isWhole_whole cc0_scratch2).read_unread, View.ld_unit_zero (S := S512x512) hz_pieces]
end CaseC

/-! ## A column half read at an entry

A block's coordinate is its offset plus the coordinate inside it: row k, column p of the left half is row k, column p of
the chunk; of the right half, row k, column 512 + p. -/

theorem halfL_apply (x0 : Vec F S1024x1024 .f32) (k : Fin 1024) (p : Fin 512) :
    halfL x0 (ix2 k p) = x0 (ix2 k (lo p)) :=
  congrArg x0 (funext fun a => Fin.ext (by
    match a with
    | ⟨0, _⟩ => show 0 + 1 * k.val = k.val; omega
    | ⟨1, _⟩ => show 0 + 1 * p.val = p.val; omega))
theorem halfR_apply (x0 : Vec F S1024x1024 .f32) (k : Fin 1024) (p : Fin 512) :
    halfR x0 (ix2 k p) = x0 (ix2 k (hi p)) :=
  congrArg x0 (funext fun a => Fin.ext (by
    match a with
    | ⟨0, _⟩ => show 0 + 1 * k.val = k.val; omega
    | ⟨1, _⟩ => show 512 + 1 * p.val = 512 + p.val; omega))

/-! ## The quadrant buffers after a point, entry by entry, at the extended reals -/

theorem gA0_apply (c : Dev nD) (t : Fin cfg0.N) (h : t.val = 0) (x0 : Vec Ideal S1024x1024 .f32) (p q : Fin 512) :
    gA0 (F := Ideal) c t h x0 (ix2 p q) = ∑ k : Fin 1024, x0 (ix2 k (lo p)) * x0 (ix2 k (lo q)) := by
  refine (congrFun (gA0_piece (F := Ideal) c t h x0) (ix2 p q)).trans ?_
  refine (k0_pay3_apply (halfL x0) p q).trans ?_
  exact Finset.sum_congr rfl fun k _ => congrArg₂ (fun a b : EReal => a * b) (halfL_apply x0 k p) (halfL_apply x0 k q)
theorem gA1_apply (c : Dev nD) (t : Fin cfg0.N) (h : t.val = 0) (x0 : Vec Ideal S1024x1024 .f32) (p q : Fin 512) :
    gA1 (F := Ideal) c t h x0 (ix2 p q) = ∑ k : Fin 1024, x0 (ix2 k (lo p)) * x0 (ix2 k (hi q)) := by
  refine (congrFun (gA1_piece (F := Ideal) c t h x0) (ix2 p q)).trans ?_
  refine (k0_pay4_apply (halfL x0) (halfR x0) p q).trans ?_
  exact Finset.sum_congr rfl fun k _ => congrArg₂ (fun a b : EReal => a * b) (halfL_apply x0 k p) (halfR_apply x0 k q)
theorem gA2_apply (c : Dev nD) (t : Fin cfg0.N) (h : t.val = 0) (x0 : Vec Ideal S1024x1024 .f32) (p q : Fin 512) :
    gA2 (F := Ideal) c t h x0 (ix2 p q) = ∑ k : Fin 1024, x0 (ix2 k (hi p)) * x0 (ix2 k (hi q)) := by
  refine (congrFun (gA2_piece (F := Ideal) c t h x0) (ix2 p q)).trans ?_
  refine (k0_pay5_apply (halfR x0) p q).trans ?_
  exact Finset.sum_congr rfl fun k _ => congrArg₂ (fun a b : EReal => a * b) (halfR_apply x0 k p) (halfR_apply x0 k q)

theorem gB0_apply (c : Dev nD) (t : Fin cfg0.N) (h : 1 ≤ t.val ∧ t.val ≤ 2) (x0 : Vec Ideal S1024x1024 .f32) (xs0 xs1 xs2 : Vec Ideal S512x512 .f32) (p q : Fin 512) :
    gB0 (F := Ideal) c t h x0 xs0 xs1 xs2 (ix2 p q) = xs0 (ix2 p q) + ∑ k : Fin 1024, x0 (ix2 k (lo p)) * x0 (ix2 k (lo q)) := by
  refine (congrFun (gB0_piece (F := Ideal) c t h x0 xs0 xs1 xs2) (ix2 p q)).trans ?_
  refine (k0_pay8_apply (halfL x0) xs0 p q).trans ?_
  exact congrArg (fun s : EReal => xs0 (ix2 p q) + s) (Finset.sum_congr rfl fun k _ => congrArg₂ (fun a b : EReal => a * b) (halfL_apply x0 k p) (halfL_apply x0 k q))
theorem gB1_apply (c : Dev nD) (t : Fin cfg0.N) (h : 1 ≤ t.val ∧ t.val ≤ 2) (x0 : Vec Ideal S1024x1024 .f32) (xs0 xs1 xs2 : Vec Ideal S512x512 .f32) (p q : Fin 512) :
    gB1 (F := Ideal) c t h x0 xs0 xs1 xs2 (ix2 p q) = xs1 (ix2 p q) + ∑ k : Fin 1024, x0 (ix2 k (lo p)) * x0 (ix2 k (hi q)) := by
  refine (congrFun (gB1_piece (F := Ideal) c t h x0 xs0 xs1 xs2) (ix2 p q)).trans ?_
  refine (k0_pay9_apply (halfL x0) (halfR x0) xs1 p q).trans ?_
  exact congrArg (fun s : EReal => xs1 (ix2 p q) + s) (Finset.sum_congr rfl fun k _ => congrArg₂ (fun a b : EReal => a * b) (halfL_apply x0 k p) (halfR_apply x0 k q))
theorem gB2_apply (c : Dev nD) (t : Fin cfg0.N) (h : 1 ≤ t.val ∧ t.val ≤ 2) (x0 : Vec Ideal S1024x1024 .f32) (xs0 xs1 xs2 : Vec Ideal S512x512 .f32) (p q : Fin 512) :
    gB2 (F := Ideal) c t h x0 xs0 xs1 xs2 (ix2 p q) = xs2 (ix2 p q) + ∑ k : Fin 1024, x0 (ix2 k (hi p)) * x0 (ix2 k (hi q)) := by
  refine (congrFun (gB2_piece (F := Ideal) c t h x0 xs0 xs1 xs2) (ix2 p q)).trans ?_
  refine (k0_pay10_apply (halfR x0) xs2 p q).trans ?_
  exact congrArg (fun s : EReal => xs2 (ix2 p q) + s) (Finset.sum_congr rfl fun k _ => congrArg₂ (fun a b : EReal => a * b) (halfR_apply x0 k p) (halfR_apply x0 k q))

section CaseCApply
variable (c : Dev nD) (t : Fin cfg0.N) (h : t.val = 3) (x0 : Vec Ideal S1024x1024 .f32) (x1 : Vec Ideal S1024x256 .f32) (x2 : Vec Ideal S256x256 .f32) (x3 : Vec Ideal S1x256 .f32) (xs0 xs1 xs2 : Vec Ideal S512x512 .f32)
theorem gC0_apply (p q : Fin 512) :
    gC0 (F := Ideal) c t h x0 x1 x2 x3 xs0 xs1 xs2 (ix2 p q) = xs0 (ix2 p q) + ∑ k : Fin 1024, x0 (ix2 k (lo p)) * x0 (ix2 k (lo q)) := by
  refine (congrFun (gC0_piece (F := Ideal) c t h x0 x1 x2 x3 xs0 xs1 xs2) (ix2 p q)).trans ?_
  refine (k0_pay8_apply (halfL x0) xs0 p q).trans ?_
  exact congrArg (fun s : EReal => xs0 (ix2 p q) + s) (Finset.sum_congr rfl fun k _ => congrArg₂ (fun a b : EReal => a * b) (halfL_apply x0 k p) (halfL_apply x0 k q))
theorem gC1_apply (p q : Fin 512) :
    gC1 (F := Ideal) c t h x0 x1 x2 x3 xs0 xs1 xs2 (ix2 p q) = xs1 (ix2 p q) + ∑ k : Fin 1024, x0 (ix2 k (lo p)) * x0 (ix2 k (hi q)) := by
  refine (congrFun (gC1_piece (F := Ideal) c t h x0 x1 x2 x3 xs0 xs1 xs2) (ix2 p q)).trans ?_
  refine (k0_pay9_apply (halfL x0) (halfR x0) xs1 p q).trans ?_
  exact congrArg (fun s : EReal => xs1 (ix2 p q) + s) (Finset.sum_congr rfl fun k _ => congrArg₂ (fun a b : EReal => a * b) (halfL_apply x0 k p) (halfR_apply x0 k q))
theorem gC2_apply (p q : Fin 512) :
    gC2 (F := Ideal) c t h x0 x1 x2 x3 xs0 xs1 xs2 (ix2 p q) = xs2 (ix2 p q) + ∑ k : Fin 1024, x0 (ix2 k (hi p)) * x0 (ix2 k (hi q)) := by
  refine (congrFun (gC2_piece (F := Ideal) c t h x0 x1 x2 x3 xs0 xs1 xs2) (ix2 p q)).trans ?_
  refine (k0_pay10_apply (halfR x0) xs2 p q).trans ?_
  exact congrArg (fun s : EReal => xs2 (ix2 p q) + s) (Finset.sum_congr rfl fun k _ => congrArg₂ (fun a b : EReal => a * b) (halfR_apply x0 k p) (halfR_apply x0 k q))
end CaseCApply

end Cert.KernelIdeal.HandValue

end
-- ==== Proof.KI.Blocks.lean ====
import proofs.«127533_g52209622450808_cont_9to1_m_767_25_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run

/-!
  Each input window's block at a grid point, as a function of the argument arrays, at any float instance.

  The pipeline stages `fix` [4096 × 1024] in row blocks of 1024 at block row `min t 3`, `main` [10000 × 256] in
  row blocks of 2000 at block row `t - 4` (zero before the fifth point), and `other`, `Wk`, `Wq` whole; the two
  biases reach their windows as [1 × 256] rows, through the reshape the host does before the region. An element of a
  block sits in its array at block index × block size + its coordinate inside the block, on each axis.
-/

set_option maxRecDepth 16384

noncomputable section

namespace Cert.KernelIdeal.HandValue

open Cert.KernelIdeal Cert.KernelIdeal.Gen Idealize.ShloMosaic Idealize.ShloMosaic.TcCoe Idealize.ShloMosaic.ValueIdx

variable {F : FTy → Type} [FloatOps F] (m : (ℓ : Loc nD τ sig) → Buf (Elt F) ℓ)

/-! ## The blocks at their literal types -/

/-- Window 0's block: 1024 rows of `fix`. -/
abbrev fixBlk (c : Dev nD) (t : Fin cfg0.N) : Vec F S1024x1024 .f32 := iblk m c 0 t
/-- Window 1's block: `other`, whole. -/
abbrev otherBlk (c : Dev nD) (t : Fin cfg0.N) : Vec F S1024x256 .f32 := iblk m c 1 t
/-- Window 2's block: `Wk`, whole. -/
abbrev wkBlk (c : Dev nD) (t : Fin cfg0.N) : Vec F S256x256 .f32 := iblk m c 2 t
/-- Window 3's block: `bk` as a row. -/
abbrev bkBlk (c : Dev nD) (t : Fin cfg0.N) : Vec F S1x256 .f32 := iblk m c 3 t
/-- Window 4's block: 2000 rows of `main`. -/
abbrev mainBlk (c : Dev nD) (t : Fin cfg0.N) : Vec F S2000x256 .f32 := iblk m c 4 t
/-- Window 5's block: `Wq`, whole. -/
abbrev wqBlk (c : Dev nD) (t : Fin cfg0.N) : Vec F S256x256 .f32 := iblk m c 5 t
/-- Window 6's block: `bq` as a row. -/
abbrev bqBlk (c : Dev nD) (t : Fin cfg0.N) : Vec F S1x256 .f32 := iblk m c 6 t

/-! ## The printed index maps over the grid -/

/-- The block index of each input window at each of the nine points: `fix`'s row block is `min t 3`, `main`'s is
    `t - 4` (truncated), every other index is zero. -/
theorem idx_facts : ∀ t : Fin cfg0.N,
    win0_0.index t (0 : Fin 2) = min t.val 3 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val - 4 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## The two reshaped biases as the region finds them -/

/-- The host's first reshape leaves `bq` as a [1 × 256] row in `main_v0`. -/
theorem V_main_v0 (c : Dev nD) (h : S256.ShapeCasts S1x256) :
    (V m c main_v0 : S1x256.Idx → Elt F .f32) = shapeCast S1x256 (m ((c : Thread nD τ).loc main_arg4) : S256.Idx → Elt F .f32) h := by
  dsimp only [Gen.V, Gen.hostOps0]
  after_results
  rfl

/-- The host's second reshape leaves `bk` as a [1 × 256] row in `main_v1`. -/
theorem V_main_v1 (c : Dev nD) (h : S256.ShapeCasts S1x256) :
    (V m c main_v1 : S1x256.Idx → Elt F .f32) = shapeCast S1x256 (m ((c : Thread nD τ).loc main_arg6) : S256.Idx → Elt F .f32) h := by
  dsimp only [Gen.V, Gen.hostOps0]
  after_results
  rfl

/-! ## The blocks read -/

/-- Window 0 at a point of the first four: rows `1024 t … 1024 t + 1023` of `fix`. -/
theorem blk0 (c : Dev nD) (t : Fin cfg0.N) (ht : t.val ≤ 3) (k i : Fin 1024) :
    fixBlk m c t (ix2 k i)
      = (m ((c : Thread nD τ).loc main_arg2) : S4096x1024.Idx → Elt F .f32) (ix2 ⟨1024 * t.val + k.val, by have := k.isLt; omega⟩ i) := by
  obtain ⟨e0, e1, -⟩ := idx_facts t
  show V m c main_arg2 (((cfg0.win 0).blk t).view.emb (ix2 k i)) = _
  rw [V_main_arg2]
  refine congrArg _ (funext fun a => Fin.ext ?_)
  match a with
  | ⟨0, _⟩ => show win0_0.index t (0 : Fin 2) * 1024 + 1 * k.val = 1024 * t.val + k.val; rw [e0]; omega
  | ⟨1, _⟩ => show win0_0.index t (1 : Fin 2) * 1024 + 1 * i.val = i.val; rw [e1]; omega

/-- Window 1 at any point: `other`. -/
theorem blk1 (c : Dev nD) (t : Fin cfg0.N) (j : Fin 1024) (k : Fin 256) :
    otherBlk m c t (ix2 j k) = (m ((c : Thread nD τ).loc main_arg1) : S1024x256.Idx → Elt F .f32) (ix2 j k) := by
  obtain ⟨-, -, e0, e1, -⟩ := idx_facts t
  show V m c main_arg1 (((cfg0.win 1).blk t).view.emb (ix2 j k)) = _
  rw [V_main_arg1]
  refine congrArg _ (funext fun a => Fin.ext ?_)
  match a with
  | ⟨0, _⟩ => show win0_1.index t (0 : Fin 2) * 1024 + 1 * j.val = j.val; rw [e0]; omega
  | ⟨1, _⟩ => show win0_1.index t (1 : Fin 2) * 256 + 1 * k.val = k.val; rw [e1]; omega

/-- Window 2 at any point: `Wk`. -/
theorem blk2 (c : Dev nD) (t : Fin cfg0.N) (e k : Fin 256) :
    wkBlk m c t (ix2 e k) = (m ((c : Thread nD τ).loc main_arg5) : S256x256.Idx → Elt F .f32) (ix2 e k) := by
  obtain ⟨-, -, -, -, e0, e1, -⟩ := idx_facts t
  show V m c main_arg5 (((cfg0.win 2).blk t).view.emb (ix2 e k)) = _
  rw [V_main_arg5]
  refine congrArg _ (funext fun a => Fin.ext ?_)
  match a with
  | ⟨0, _⟩ => show win0_2.index t (0 : Fin 2) * 256 + 1 * e.val = e.val; rw [e0]; omega
  | ⟨1, _⟩ => show win0_2.index t (1 : Fin 2) * 256 + 1 * k.val = k.val; rw [e1]; omega

/-- Window 3 at any point: `bk`, through the host's reshape to a row. -/
theorem blk3 (c : Dev nD) (t : Fin cfg0.N) (e : Fin 256) :
    bkBlk m c t (ix2 (0 : Fin 1) e) = (m ((c : Thread nD τ).loc main_arg6) : S256.Idx → Elt F .f32) (ix1 e) := by
  obtain ⟨-, -, -, -, -, -, e0, e1, -⟩ := idx_facts t
  have hemb : ((cfg0.win 3).blk t).view.emb (ix2 (0 : Fin 1) e) = (ix2 (0 : Fin 1) e : S1x256.Idx) :=
    funext fun a => Fin.ext (by
      match a with
      | ⟨0, _⟩ => show win0_3.index t (0 : Fin 2) * 1 + 1 * 0 = 0; rw [e0]
      | ⟨1, _⟩ => show win0_3.index t (1 : Fin 2) * 256 + 1 * e.val = e.val; rw [e1]; omega)
  show V m c main_v1 (((cfg0.win 3).blk t).view.emb (ix2 (0 : Fin 1) e)) = _
  rw [hemb]
  exact (congrFun (V_main_v1 m c Facts₀.shapeCasts_S256_S1x256) _).trans (shapeCast_a_1a_apply _ _ 0 e)

/-- Window 4 at a point from the fifth on: rows `2000 (t - 4) … 2000 (t - 4) + 1999` of `main`. -/
theorem blk4 (c : Dev nD) (t : Fin cfg0.N) (ht : 4 ≤ t.val) (r : Fin 2000) (k : Fin 256) :
    mainBlk m c t (ix2 r k)
      = (m ((c : Thread nD τ).loc main_arg0) : S10000x256.Idx → Elt F .f32)
          (ix2 ⟨2000 * (t.val - 4) + r.val, by have := r.isLt; have := t.isLt; have hN : cfg0.N = 9 := N_0; omega⟩ k) := by
  obtain ⟨-, -, -, -, -, -, -, -, e0, e1, -⟩ := idx_facts t
  show V m c main_arg0 (((cfg0.win 4).blk t).view.emb (ix2 r k)) = _
  rw [V_main_arg0]
  refine congrArg _ (funext fun a => Fin.ext ?_)
  match a with
  | ⟨0, _⟩ => show win0_4.index t (0 : Fin 2) * 2000 + 1 * r.val = 2000 * (t.val - 4) + r.val; rw [e0]; omega
  | ⟨1, _⟩ => show win0_4.index t (1 : Fin 2) * 256 + 1 * k.val = k.val; rw [e1]; omega

/-- Window 5 at any point: `Wq`. -/
theorem blk5 (c : Dev nD) (t : Fin cfg0.N) (e k : Fin 256) :
    wqBlk m c t (ix2 e k) = (m ((c : Thread nD τ).loc main_arg3) : S256x256.Idx → Elt F .f32) (ix2 e k) := by
  obtain ⟨-, -, -, -, -, -, -, -, -, -, e0, e1, -⟩ := idx_facts t
  show V m c main_arg3 (((cfg0.win 5).blk t).view.emb (ix2 e k)) = _
  rw [V_main_arg3]
  refine congrArg _ (funext fun a => Fin.ext ?_)
  match a with
  | ⟨0, _⟩ => show win0_5.index t (0 : Fin 2) * 256 + 1 * e.val = e.val; rw [e0]; omega
  | ⟨1, _⟩ => show win0_5.index t (1 : Fin 2) * 256 + 1 * k.val = k.val; rw [e1]; omega

/-- Window 6 at any point: `bq`, through the host's reshape to a row. -/
theorem blk6 (c : Dev nD) (t : Fin cfg0.N) (e : Fin 256) :
    bqBlk m c t (ix2 (0 : Fin 1) e) = (m ((c : Thread nD τ).loc main_arg4) : S256.Idx → Elt F .f32) (ix1 e) := by
  obtain ⟨-, -, -, -, -, -, -, -, -, -, -, -, e0, e1⟩ := idx_facts t
  have hemb : ((cfg0.win 6).blk t).view.emb (ix2 (0 : Fin 1) e) = (ix2 (0 : Fin 1) e : S1x256.Idx) :=
    funext fun a => Fin.ext (by
      match a with
      | ⟨0, _⟩ => show win0_6.index t (0 : Fin 2) * 1 + 1 * 0 = 0; rw [e0]
      | ⟨1, _⟩ => show win0_6.index t (1 : Fin 2) * 256 + 1 * e.val = e.val; rw [e1]; omega)
  show V m c main_v0 (((cfg0.win 6).blk t).view.emb (ix2 (0 : Fin 1) e)) = _
  rw [hemb]
  exact (congrFun (V_main_v0 m c Facts₀.shapeCasts_S256_S1x256) _).trans (shapeCast_a_1a_apply _ _ 0 e)

end Cert.KernelIdeal.HandValue

end
-- ==== Proof.KI.GramStep.lean ====
import proofs.«127533_g52209622450808_cont_9to1_m_767_25_alg».proof.Proof.KI.Data
import proofs.«127533_g52209622450808_cont_9to1_m_767_25_alg».proof.Proof.KI.Pieces
import proofs.«127533_g52209622450808_cont_9to1_m_767_25_alg».proof.Proof.KI.Blocks
import proofs.«127533_g52209622450808_cont_9to1_m_767_25_alg».proof.Proof.KerSpec

/-!
  The Gram quadrants after the fourth point. Each point up to the fourth adds one chunk of 1024 rows of `fix` to the
  three quadrant buffers (the first resets them), so after the fourth point they hold the top-left, top-right and
  bottom-right quadrants of `fixᵀ fix`.

  Entry (a, b) of the Gram matrix is a sum over the 4096 rows; the rows split into four chunks of 1024, and the sum is
  the four chunk sums added left to right. After point n the buffers hold the first n + 1 chunk sums added in that
  order: the first point stores chunk 0's, every later point adds its own chunk's to what the point before left.
-/

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Cert.Hand.Spec

variable (m : (ℓ : Loc nD τ sig) → Buf (Elt Ideal) ℓ)

/-! ## The four chunk sums of a Gram entry -/

/-- The contribution of rows 0 … 1023 to entry (a, b) of the Gram matrix, -/
def gchunk0 (fx : Fin 4096 → Fin 1024 → EReal) (a b : Fin 1024) : EReal :=
  ∑ k : Fin 1024, fx ⟨k.val, by omega⟩ a * fx ⟨k.val, by omega⟩ b
/-- of rows 1024 … 2047, -/
def gchunk1 (fx : Fin 4096 → Fin 1024 → EReal) (a b : Fin 1024) : EReal :=
  ∑ k : Fin 1024, fx ⟨1024 + k.val, by omega⟩ a * fx ⟨1024 + k.val, by omega⟩ b
/-- of rows 2048 … 3071, -/
def gchunk2 (fx : Fin 4096 → Fin 1024 → EReal) (a b : Fin 1024) : EReal :=
  ∑ k : Fin 1024, fx ⟨2048 + k.val, by omega⟩ a * fx ⟨2048 + k.val, by omega⟩ b
/-- and of rows 3072 … 4095. -/
def gchunk3 (fx : Fin 4096 → Fin 1024 → EReal) (a b : Fin 1024) : EReal :=
  ∑ k : Fin 1024, fx ⟨3072 + k.val, by omega⟩ a * fx ⟨3072 + k.val, by omega⟩ b

/-- Added left to right they are the entry. -/
theorem gchunks_sum (fx : Fin 4096 → Fin 1024 → EReal) (a b : Fin 1024) :
    ((gchunk0 fx a b + gchunk1 fx a b) + gchunk2 fx a b) + gchunk3 fx a b = gram fx a b :=
  sum_chunks (fun k => fx k a * fx k b)

/-! ## A staged chunk's products are a chunk sum -/

/-- The argument array `fix` at its literal type. -/
abbrev fixArr (c : Dev nD) : (⟨2, ![4096, 1024]⟩ : Shape).Idx → EReal := m ((c.tc : Thread nD τ).loc main_arg2)

/-- At one of the first four points the staged block is rows 1024 t … 1024 t + 1023 of `fix`: the sum over its rows of
    the products of two of its columns is the sum over those rows of `fix` (`r k`: the row of `fix` that row k of the
    block is). -/
theorem blk_prod (c : Dev nD) (t : Fin cfg0.N) (ht : t.val ≤ 3) (r : Fin 1024 → Fin 4096)
    (hr : ∀ k : Fin 1024, (r k).val = 1024 * t.val + k.val) (a b : Fin 1024) :
    ∑ k : Fin 1024, fixBlk m c t (ix2 k a) * fixBlk m c t (ix2 k b)
      = ∑ k : Fin 1024, c2 (fixArr m c) (r k) a * c2 (fixArr m c) (r k) b :=
  Finset.sum_congr rfl fun k _ => congrArg₂ (fun x y : EReal => x * y)
    ((blk0 m c t ht k a).trans (congrArg (fun i : Fin 4096 => fixArr m c (ix2 i a)) (Fin.ext (hr k).symm)))
    ((blk0 m c t ht k b).trans (congrArg (fun i : Fin 4096 => fixArr m c (ix2 i b)) (Fin.ext (hr k).symm)))

/-! ## The quadrant buffers after each of the first four points -/

/-- After the first point: chunk 0's sums. -/
theorem gram_at0 (c : Dev nD) (t : Fin cfg0.N) (ht : t.val = 0) (p q : Fin 512) :
    (carriedAt (F := Ideal) m c t.val t.isLt).g0 (ix2 p q) = gchunk0 (c2 (fixArr m c)) (lo p) (lo q)
      ∧ (carriedAt (F := Ideal) m c t.val t.isLt).g1 (ix2 p q) = gchunk0 (c2 (fixArr m c)) (lo p) (hi q)
      ∧ (carriedAt (F := Ideal) m c t.val t.isLt).g2 (ix2 p q) = gchunk0 (c2 (fixArr m c)) (hi p) (hi q) := by
  have hr : ∀ k : Fin 1024, ((⟨k.val, by omega⟩ : Fin 4096)).val = 1024 * t.val + k.val := fun k => by
    show k.val = 1024 * t.val + k.val; omega
  rw [carriedAt_A m c t ht]; dsimp only
  exact ⟨(gA0_apply c t ht (fixBlk m c t) p q).trans (blk_prod m c t (by omega) (fun k => ⟨k.val, by omega⟩) hr (lo p) (lo q)),
    (gA1_apply c t ht (fixBlk m c t) p q).trans (blk_prod m c t (by omega) (fun k => ⟨k.val, by omega⟩) hr (lo p) (hi q)),
    (gA2_apply c t ht (fixBlk m c t) p q).trans (blk_prod m c t (by omega) (fun k => ⟨k.val, by omega⟩) hr (hi p) (hi q))⟩

/-- After the second point: chunk 0's plus chunk 1's. -/
theorem gram_at1 (c : Dev nD) (t : Fin cfg0.N) (ht : t.val = 1) (p q : Fin 512) :
    (carriedAt (F := Ideal) m c t.val t.isLt).g0 (ix2 p q)
        = gchunk0 (c2 (fixArr m c)) (lo p) (lo q) + gchunk1 (c2 (fixArr m c)) (lo p) (lo q)
      ∧ (carriedAt (F := Ideal) m c t.val t.isLt).g1 (ix2 p q)
        = gchunk0 (c2 (fixArr m c)) (lo p) (hi q) + gchunk1 (c2 (fixArr m c)) (lo p) (hi q)
      ∧ (carriedAt (F := Ideal) m c t.val t.isLt).g2 (ix2 p q)
        = gchunk0 (c2 (fixArr m c)) (hi p) (hi q) + gchunk1 (c2 (fixArr m c)) (hi p) (hi q) := by
  have hlt : t.val - 1 < cfg0.N := Nat.lt_of_le_of_lt (Nat.sub_le _ _) t.isLt
  have hB : 1 ≤ t.val ∧ t.val ≤ 2 := ⟨by omega, by omega⟩
  have hr : ∀ k : Fin 1024, ((⟨1024 + k.val, by omega⟩ : Fin 4096)).val = 1024 * t.val + k.val := fun k => by
    show 1024 + k.val = 1024 * t.val + k.val; omega
  obtain ⟨e0, e1, e2⟩ := gram_at0 m c ⟨t.val - 1, hlt⟩ (by show t.val - 1 = 0; omega) p q
  have e0' : (carriedAt (F := Ideal) m c (t.val - 1) hlt).g0 (ix2 p q) = _ := e0
  have e1' : (carriedAt (F := Ideal) m c (t.val - 1) hlt).g1 (ix2 p q) = _ := e1
  have e2' : (carriedAt (F := Ideal) m c (t.val - 1) hlt).g2 (ix2 p q) = _ := e2
  rw [carriedAt_B m c t hB]; dsimp only
  exact ⟨(gB0_apply c t hB (fixBlk m c t) (carriedAt (F := Ideal) m c (t.val - 1) hlt).g0 (carriedAt (F := Ideal) m c (t.val - 1) hlt).g1 (carriedAt (F := Ideal) m c (t.val - 1) hlt).g2 p q).trans
      (congrArg₂ (fun x y : EReal => x + y) e0' (blk_prod m c t (by omega) (fun k => ⟨1024 + k.val, by omega⟩) hr (lo p) (lo q))),
    (gB1_apply c t hB (fixBlk m c t) (carriedAt (F := Ideal) m c (t.val - 1) hlt).g0 (carriedAt (F := Ideal) m c (t.val - 1) hlt).g1 (carriedAt (F := Ideal) m c (t.val - 1) hlt).g2 p q).trans
      (congrArg₂ (fun x y : EReal => x + y) e1' (blk_prod m c t (by omega) (fun k => ⟨1024 + k.val, by omega⟩) hr (lo p) (hi q))),
    (gB2_apply c t hB (fixBlk m c t) (carriedAt (F := Ideal) m c (t.val - 1) hlt).g0 (carriedAt (F := Ideal) m c (t.val - 1) hlt).g1 (carriedAt (F := Ideal) m c (t.val - 1) hlt).g2 p q).trans
      (congrArg₂ (fun x y : EReal => x + y) e2' (blk_prod m c t (by omega) (fun k => ⟨1024 + k.val, by omega⟩) hr (hi p) (hi q)))⟩

/-- After the third point: chunks 0, 1 and 2. -/
theorem gram_at2 (c : Dev nD) (t : Fin cfg0.N) (ht : t.val = 2) (p q : Fin 512) :
    (carriedAt (F := Ideal) m c t.val t.isLt).g0 (ix2 p q)
        = (gchunk0 (c2 (fixArr m c)) (lo p) (lo q) + gchunk1 (c2 (fixArr m c)) (lo p) (lo q)) + gchunk2 (c2 (fixArr m c)) (lo p) (lo q)
      ∧ (carriedAt (F := Ideal) m c t.val t.isLt).g1 (ix2 p q)
        = (gchunk0 (c2 (fixArr m c)) (lo p) (hi q) + gchunk1 (c2 (fixArr m c)) (lo p) (hi q)) + gchunk2 (c2 (fixArr m c)) (lo p) (hi q)
      ∧ (carriedAt (F := Ideal) m c t.val t.isLt).g2 (ix2 p q)
        = (gchunk0 (c2 (fixArr m c)) (hi p) (hi q) + gchunk1 (c2 (fixArr m c)) (hi p) (hi q)) + gchunk2 (c2 (fixArr m c)) (hi p) (hi q) := by
  have hlt : t.val - 1 < cfg0.N := Nat.lt_of_le_of_lt (Nat.sub_le _ _) t.isLt
  have hB : 1 ≤ t.val ∧ t.val ≤ 2 := ⟨by omega, by omega⟩
  have hr : ∀ k : Fin 1024, ((⟨2048 + k.val, by omega⟩ : Fin 4096)).val = 1024 * t.val + k.val := fun k => by
    show 2048 + k.val = 1024 * t.val + k.val; omega
  obtain ⟨e0, e1, e2⟩ := gram_at1 m c ⟨t.val - 1, hlt⟩ (by show t.val - 1 = 1; omega) p q
  have e0' : (carriedAt (F := Ideal) m c (t.val - 1) hlt).g0 (ix2 p q) = _ := e0
  have e1' : (carriedAt (F := Ideal) m c (t.val - 1) hlt).g1 (ix2 p q) = _ := e1
  have e2' : (carriedAt (F := Ideal) m c (t.val - 1) hlt).g2 (ix2 p q) = _ := e2
  rw [carriedAt_B m c t hB]; dsimp only
  exact ⟨(gB0_apply c t hB (fixBlk m c t) (carriedAt (F := Ideal) m c (t.val - 1) hlt).g0 (carriedAt (F := Ideal) m c (t.val - 1) hlt).g1 (carriedAt (F := Ideal) m c (t.val - 1) hlt).g2 p q).trans
      (congrArg₂ (fun x y : EReal => x + y) e0' (blk_prod m c t (by omega) (fun k => ⟨2048 + k.val, by omega⟩) hr (lo p) (lo q))),
    (gB1_apply c t hB (fixBlk m c t) (carriedAt (F := Ideal) m c (t.val - 1) hlt).g0 (carriedAt (F := Ideal) m c (t.val - 1) hlt).g1 (carriedAt (F := Ideal) m c (t.val - 1) hlt).g2 p q).trans
      (congrArg₂ (fun x y : EReal => x + y) e1' (blk_prod m c t (by omega) (fun k => ⟨2048 + k.val, by omega⟩) hr (lo p) (hi q))),
    (gB2_apply c t hB (fixBlk m c t) (carriedAt (F := Ideal) m c (t.val - 1) hlt).g0 (carriedAt (F := Ideal) m c (t.val - 1) hlt).g1 (carriedAt (F := Ideal) m c (t.val - 1) hlt).g2 p q).trans
      (congrArg₂ (fun x y : EReal => x + y) e2' (blk_prod m c t (by omega) (fun k => ⟨2048 + k.val, by omega⟩) hr (hi p) (hi q)))⟩

/-- After the fourth point: all four chunks, that is, the Gram quadrants. -/
theorem gram_at3 (c : Dev nD) (t : Fin cfg0.N) (ht : t.val = 3) (p q : Fin 512) :
    (carriedAt (F := Ideal) m c t.val t.isLt).g0 (ix2 p q) = q00 (c2 (m ((c.tc : Thread nD τ).loc main_arg2))) (ix2 p q)
      ∧ (carriedAt (F := Ideal) m c t.val t.isLt).g1 (ix2 p q) = q01 (c2 (m ((c.tc : Thread nD τ).loc main_arg2))) (ix2 p q)
      ∧ (carriedAt (F := Ideal) m c t.val t.isLt).g2 (ix2 p q) = q11 (c2 (m ((c.tc : Thread nD τ).loc main_arg2))) (ix2 p q) := by
  have hlt : t.val - 1 < cfg0.N := Nat.lt_of_le_of_lt (Nat.sub_le _ _) t.isLt
  have hr : ∀ k : Fin 1024, ((⟨3072 + k.val, by omega⟩ : Fin 4096)).val = 1024 * t.val + k.val := fun k => by
    show 3072 + k.val = 1024 * t.val + k.val; omega
  obtain ⟨e0, e1, e2⟩ := gram_at2 m c ⟨t.val - 1, hlt⟩ (by show t.val - 1 = 2; omega) p q
  have e0' : (carriedAt (F := Ideal) m c (t.val - 1) hlt).g0 (ix2 p q) = _ := e0
  have e1' : (carriedAt (F := Ideal) m c (t.val - 1) hlt).g1 (ix2 p q) = _ := e1
  have e2' : (carriedAt (F := Ideal) m c (t.val - 1) hlt).g2 (ix2 p q) = _ := e2
  rw [carriedAt_C m c t ht]; dsimp only
  exact ⟨((gC0_apply c t ht (fixBlk m c t) (otherBlk m c t) (wkBlk m c t) (bkBlk m c t) (carriedAt (F := Ideal) m c (t.val - 1) hlt).g0 (carriedAt (F := Ideal) m c (t.val - 1) hlt).g1 (carriedAt (F := Ideal) m c (t.val - 1) hlt).g2 p q).trans
      (congrArg₂ (fun x y : EReal => x + y) e0' (blk_prod m c t (by omega) (fun k => ⟨3072 + k.val, by omega⟩) hr (lo p) (lo q)))).trans
        (gchunks_sum (c2 (fixArr m c)) (lo p) (lo q)),
    ((gC1_apply c t ht (fixBlk m c t) (otherBlk m c t) (wkBlk m c t) (bkBlk m c t) (carriedAt (F := Ideal) m c (t.val - 1) hlt).g0 (carriedAt (F := Ideal) m c (t.val - 1) hlt).g1 (carriedAt (F := Ideal) m c (t.val - 1) hlt).g2 p q).trans
      (congrArg₂ (fun x y : EReal => x + y) e1' (blk_prod m c t (by omega) (fun k => ⟨3072 + k.val, by omega⟩) hr (lo p) (hi q)))).trans
        (gchunks_sum (c2 (fixArr m c)) (lo p) (hi q)),
    ((gC2_apply c t ht (fixBlk m c t) (otherBlk m c t) (wkBlk m c t) (bkBlk m c t) (carriedAt (F := Ideal) m c (t.val - 1) hlt).g0 (carriedAt (F := Ideal) m c (t.val - 1) hlt).g1 (carriedAt (F := Ideal) m c (t.val - 1) hlt).g2 p q).trans
      (congrArg₂ (fun x y : EReal => x + y) e2' (blk_prod m c t (by omega) (fun k => ⟨3072 + k.val, by omega⟩) hr (hi p) (hi q)))).trans
        (gchunks_sum (c2 (fixArr m c)) (hi p) (hi q))⟩

end Cert.KernelIdeal.HandValue

end
-- ==== Proof.KI.PayPre.lean ====
/- The preamble's payloads of the idealized kernel, read at an index over the extended reals:
   the square roots of the three Gram quadrants, the two column sums, the two scaled halves of
   the other operand, the two halves of the mixing buffer, the block of ones and the scaled keys. -/
import proofs.«127533_g52209622450808_cont_9to1_m_767_25_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HandValue

open Cert.KernelIdeal Cert.KernelIdeal.Gen Idealize.ShloMosaic Idealize.ShloMosaic.ValueIdx
open scoped BigOperators

/-! ## Pointwise and layout operations at an index -/

/-- A square root at an index is the ideal square root of the element. -/
theorem PayPre.sqrt_apply {s : Shape} {φ : FTy} (x : FVec Ideal s φ) (i : s.Idx) :
    sqrt x i = Ideal.sqrt (x i) := rfl

/-- A vector `[a]` viewed as a column `[a, 1]` reads, at `(j, u)`, the vector at `j`. -/
theorem PayPre.shapeCast_col_apply {α : Type} {a : ℕ} (x : (⟨1, ![a]⟩ : Shape).Idx → α)
    (h : (⟨1, ![a]⟩ : Shape).ShapeCasts ⟨2, ![a, 1]⟩) (j : Fin a) (u : Fin 1) :
    shapeCast ⟨2, ![a, 1]⟩ x h (ix2 j u) = x (ix1 j) :=
  shapeCast_apply x h _ _ (by
    have hu : u.val = 0 := by omega
    rw [Shape.rowMajor_val_two, Shape.rowMajor_val_one]
    show j.val = j.val * 1 + u.val
    rw [hu, Nat.mul_one, Nat.add_zero])

/-- A column `[a, 1]` broadcast along the lanes to `[a, b]` reads, at `(j, c)`, the column at `j`. -/
theorem PayPre.broadcastTo_col_apply {α : Type} {a b : ℕ} (v : (⟨2, ![a, 1]⟩ : Shape).Idx → α)
    (h : (⟨2, ![a, 1]⟩ : Shape).Broadcasts ⟨2, ![a, b]⟩) (j : Fin a) (c : Fin b) :
    broadcastTo ⟨2, ![a, b]⟩ v h (ix2 j c) = v (ix2 j (0 : Fin 1)) := by
  refine broadcastTo_apply v h (ix2 j c) (ix2 j (0 : Fin 1)) fun ax => ?_
  match ax with
  | ⟨0, _⟩ =>
    show j.val = if a = 1 then 0 else j.val
    split
    · have := j.isLt; omega
    · rfl
  | ⟨1, _⟩ => rfl

/-! ## The two lane sums of a 512 × 512 block -/

/-- The sum over the rows: at lane `j`, the sum over `i` of the block at `(i, j)`. -/
theorem PayPre.sum_rows_apply (x : FVec Ideal S512x512 .f32) (j : Fin 512) :
    multiReduction (F := Ideal) .add [0] S512 x 0x00000000#32 reduces_S512x512_S512 (.inl rfl) rfl (ix1 j)
      = ∑ i : Fin 512, x (ix2 i j) := by
  refine (Ideal.multiReduction_add_single x 0x00000000#32 reduces_S512x512_S512 (.inl rfl) rfl (ix1 j)).trans ?_
  refine Finset.sum_congr rfl fun i _ => congrArg x (funext fun a => Fin.ext ?_)
  match a with
  | ⟨0, _⟩ => rfl
  | ⟨1, _⟩ => rfl

/-- The sum over the lanes: at row `j`, the sum over `i` of the block at `(j, i)`. -/
theorem PayPre.sum_lanes_apply (x : FVec Ideal S512x512 .f32) (j : Fin 512) :
    multiReduction (F := Ideal) .add [1] S512 x 0x00000000#32 reduces_S512x512_S512_2 (.inl rfl) rfl (ix1 j)
      = ∑ i : Fin 512, x (ix2 j i) := by
  refine (Ideal.multiReduction_add_single x 0x00000000#32 reduces_S512x512_S512_2 (.inl rfl) rfl (ix1 j)).trans ?_
  refine Finset.sum_congr rfl fun i _ => congrArg x (funext fun a => Fin.ext ?_)
  match a with
  | ⟨0, _⟩ => rfl
  | ⟨1, _⟩ => rfl

/-! ## The three matrix products at an index

Each product accumulates into the zero block, so at an output index it is the sum over the contraction
coordinate of the operands' products; the four axis lemmas before each say which coordinate of each
operand is the contraction coordinate and which is a coordinate of the output index. -/

theorem PayPre.lhs_nn_0 (i : S512x256.Idx) (q : dot_S512x512_S512x256_S512x256_1_0_0_1_n_n.contr.Idx) :
    (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
theorem PayPre.lhs_nn_1 (i : S512x256.Idx) (q : dot_S512x512_S512x256_S512x256_1_0_0_1_n_n.contr.Idx) :
    (dot_S512x512_S512x256_S512x256_1_0_0_1_n_n.lhsIdx i q 1).val = (q ⟨0, by decide⟩).val :=
  dot_S512x512_S512x256_S512x256_1_0_0_1_n_n.lhsIdx_val_of_single rfl i q
theorem PayPre.rhs_nn_0 (i : S512x256.Idx) (q : dot_S512x512_S512x256_S512x256_1_0_0_1_n_n.contr.Idx) :
    (dot_S512x512_S512x256_S512x256_1_0_0_1_n_n.rhsIdx i q 0).val = (q ⟨0, by decide⟩).val :=
  dot_S512x512_S512x256_S512x256_1_0_0_1_n_n.rhsIdx_val_of_single rfl i q
theorem PayPre.rhs_nn_1 (i : S512x256.Idx) (q : dot_S512x512_S512x256_S512x256_1_0_0_1_n_n.contr.Idx) :
    (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl

/-- The plain product `lhs · rhs` of a 512 × 512 and a 512 × 256 block at `(p, d)`. -/
theorem PayPre.matmul_nn_apply {φ₁ φ₂ : FTy} (lhs : FVec Ideal S512x512 φ₁) (rhs : FVec Ideal S512x256 φ₂) (p : Fin 512) (d : Fin 256) :
    matmul dot_S512x512_S512x256_S512x256_1_0_0_1_n_n none lhs rhs (constant (F := Ideal) S512x256 .f32 0x00000000#32) (ix2 p d)
      = ∑ k : Fin 512, lhs (ix2 p k) * rhs (ix2 k d) := by
  refine (Ideal.matmul_constant_zero_apply dot_S512x512_S512x256_S512x256_1_0_0_1_n_n none lhs rhs (ix2 p d)).trans ?_
  rw [← Equiv.sum_comp (contrEquiv1 dot_S512x512_S512x256_S512x256_1_0_0_1_n_n 512 rfl rfl).symm]
  refine Finset.sum_congr rfl fun k _ => ?_
  have hk := contrEquiv1_symm_val dot_S512x512_S512x256_S512x256_1_0_0_1_n_n 512 rfl rfl k
  have el : dot_S512x512_S512x256_S512x256_1_0_0_1_n_n.lhsIdx (ix2 p d) ((contrEquiv1 dot_S512x512_S512x256_S512x256_1_0_0_1_n_n 512 rfl rfl).symm k) = ix2 p k := funext fun a => Fin.ext (by
    match a with
    | ⟨0, _⟩ => exact PayPre.lhs_nn_0 _ _
    | ⟨1, _⟩ => exact (PayPre.lhs_nn_1 _ _).trans hk)
  have er : dot_S512x512_S512x256_S512x256_1_0_0_1_n_n.rhsIdx (ix2 p d) ((contrEquiv1 dot_S512x512_S512x256_S512x256_1_0_0_1_n_n 512 rfl rfl).symm k) = ix2 k d := funext fun a => Fin.ext (by
    match a with
    | ⟨0, _⟩ => exact (PayPre.rhs_nn_0 _ _).trans hk
    | ⟨1, _⟩ => exact PayPre.rhs_nn_1 _ _)
  rw [el, er]

theorem PayPre.lhs_tn_0 (i : S512x256.Idx) (q : dot_S512x512_S512x256_S512x256_0_0_1_1_n_n.contr.Idx) :
    (dot_S512x512_S512x256_S512x256_0_0_1_1_n_n.lhsIdx i q 0).val = (q ⟨0, by decide⟩).val :=
  dot_S512x512_S512x256_S512x256_0_0_1_1_n_n.lhsIdx_val_of_single rfl i q
theorem PayPre.lhs_tn_1 (i : S512x256.Idx) (q : dot_S512x512_S512x256_S512x256_0_0_1_1_n_n.contr.Idx) :
    (dot_S512x512_S512x256_S512x256_0_0_1_1_n_n.lhsIdx i q 1).val = (i 0).val := by
  unfold DotDims.lhsIdx
  rw [dif_neg (show ¬(1 : Fin S512x512.rank) ∈ dot_S512x512_S512x256_S512x256_0_0_1_1_n_n.lhsBatch by decide), dif_pos (show (1 : Fin S512x512.rank) ∈ dot_S512x512_S512x256_S512x256_0_0_1_1_n_n.lhsNonContracting by decide)]
  rfl
theorem PayPre.rhs_tn_0 (i : S512x256.Idx) (q : dot_S512x512_S512x256_S512x256_0_0_1_1_n_n.contr.Idx) :
    (dot_S512x512_S512x256_S512x256_0_0_1_1_n_n.rhsIdx i q 0).val = (q ⟨0, by decide⟩).val :=
  dot_S512x512_S512x256_S512x256_0_0_1_1_n_n.rhsIdx_val_of_single rfl i q
theorem PayPre.rhs_tn_1 (i : S512x256.Idx) (q : dot_S512x512_S512x256_S512x256_0_0_1_1_n_n.contr.Idx) :
    (dot_S512x512_S512x256_S512x256_0_0_1_1_n_n.rhsIdx i q 1).val = (i 1).val := by
  unfold DotDims.rhsIdx
  rw [dif_neg (show ¬(1 : Fin S512x256.rank) ∈ dot_S512x512_S512x256_S512x256_0_0_1_1_n_n.rhsBatch by decide), dif_pos (show (1 : Fin S512x256.rank) ∈ dot_S512x512_S512x256_S512x256_0_0_1_1_n_n.rhsNonContracting by decide)]
  rfl

/-- The product `lhsᵀ · rhs` (both operands contracted along their rows) at `(p, d)`. -/
theorem PayPre.matmul_tn_apply {φ₁ φ₂ : FTy} (lhs : FVec Ideal S512x512 φ₁) (rhs : FVec Ideal S512x256 φ₂) (p : Fin 512) (d : Fin 256) :
    matmul dot_S512x512_S512x256_S512x256_0_0_1_1_n_n none lhs rhs (constant (F := Ideal) S512x256 .f32 0x00000000#32) (ix2 p d)
      = ∑ k : Fin 512, lhs (ix2 k p) * rhs (ix2 k d) := by
  refine (Ideal.matmul_constant_zero_apply dot_S512x512_S512x256_S512x256_0_0_1_1_n_n none lhs rhs (ix2 p d)).trans ?_
  rw [← Equiv.sum_comp (contrEquiv1 dot_S512x512_S512x256_S512x256_0_0_1_1_n_n 512 rfl rfl).symm]
  refine Finset.sum_congr rfl fun k _ => ?_
  have hk := contrEquiv1_symm_val dot_S512x512_S512x256_S512x256_0_0_1_1_n_n 512 rfl rfl k
  have el : dot_S512x512_S512x256_S512x256_0_0_1_1_n_n.lhsIdx (ix2 p d) ((contrEquiv1 dot_S512x512_S512x256_S512x256_0_0_1_1_n_n 512 rfl rfl).symm k) = ix2 k p := funext fun a => Fin.ext (by
    match a with
    | ⟨0, _⟩ => exact (PayPre.lhs_tn_0 _ _).trans hk
    | ⟨1, _⟩ => exact PayPre.lhs_tn_1 _ _)
  have er : dot_S512x512_S512x256_S512x256_0_0_1_1_n_n.rhsIdx (ix2 p d) ((contrEquiv1 dot_S512x512_S512x256_S512x256_0_0_1_1_n_n 512 rfl rfl).symm k) = ix2 k d := funext fun a => Fin.ext (by
    match a with
    | ⟨0, _⟩ => exact (PayPre.rhs_tn_0 _ _).trans hk
    | ⟨1, _⟩ => exact PayPre.rhs_tn_1 _ _)
  rw [el, er]

theorem PayPre.lhs_nt_0 (i : S1024x256.Idx) (q : dot_S1024x256_S256x256_S1024x256_1_1_0_0_n_n.contr.Idx) :
    (dot_S1024x256_S256x256_S1024x256_1_1_0_0_n_n.lhsIdx i q 0).val = (i 0).val := by
  unfold DotDims.lhsIdx
  rw [dif_neg (show ¬(0 : Fin S1024x256.rank) ∈ dot_S1024x256_S256x256_S1024x256_1_1_0_0_n_n.lhsBatch by decide), dif_pos (show (0 : Fin S1024x256.rank) ∈ dot_S1024x256_S256x256_S1024x256_1_1_0_0_n_n.lhsNonContracting by decide)]
  rfl
theorem PayPre.lhs_nt_1 (i : S1024x256.Idx) (q : dot_S1024x256_S256x256_S1024x256_1_1_0_0_n_n.contr.Idx) :
    (dot_S1024x256_S256x256_S1024x256_1_1_0_0_n_n.lhsIdx i q 1).val = (q ⟨0, by decide⟩).val :=
  dot_S1024x256_S256x256_S1024x256_1_1_0_0_n_n.lhsIdx_val_of_single rfl i q
theorem PayPre.rhs_nt_0 (i : S1024x256.Idx) (q : dot_S1024x256_S256x256_S1024x256_1_1_0_0_n_n.contr.Idx) :
    (dot_S1024x256_S256x256_S1024x256_1_1_0_0_n_n.rhsIdx i q 0).val = (i 1).val := by
  unfold DotDims.rhsIdx
  rw [dif_neg (show ¬(0 : Fin S256x256.rank) ∈ dot_S1024x256_S256x256_S1024x256_1_1_0_0_n_n.rhsBatch by decide), dif_pos (show (0 : Fin S256x256.rank) ∈ dot_S1024x256_S256x256_S1024x256_1_1_0_0_n_n.rhsNonContracting by decide)]
  rfl
theorem PayPre.rhs_nt_1 (i : S1024x256.Idx) (q : dot_S1024x256_S256x256_S1024x256_1_1_0_0_n_n.contr.Idx) :
    (dot_S1024x256_S256x256_S1024x256_1_1_0_0_n_n.rhsIdx i q 1).val = (q ⟨0, by decide⟩).val :=
  dot_S1024x256_S256x256_S1024x256_1_1_0_0_n_n.rhsIdx_val_of_single rfl i q

/-- The product `lhs · rhsᵀ` (both operands contracted along their lanes) of a 1024 × 256 and a 256 × 256 block at `(p, d)`. -/
theorem PayPre.matmul_nt_apply {φ₁ φ₂ : FTy} (lhs : FVec Ideal S1024x256 φ₁) (rhs : FVec Ideal S256x256 φ₂) (p : Fin 1024) (d : Fin 256) :
    matmul dot_S1024x256_S256x256_S1024x256_1_1_0_0_n_n none lhs rhs (constant (F := Ideal) S1024x256 .f32 0x00000000#32) (ix2 p d)
      = ∑ k : Fin 256, lhs (ix2 p k) * rhs (ix2 d k) := by
  refine (Ideal.matmul_constant_zero_apply dot_S1024x256_S256x256_S1024x256_1_1_0_0_n_n none lhs rhs (ix2 p d)).trans ?_
  rw [← Equiv.sum_comp (contrEquiv1 dot_S1024x256_S256x256_S1024x256_1_1_0_0_n_n 256 rfl rfl).symm]
  refine Finset.sum_congr rfl fun k _ => ?_
  have hk := contrEquiv1_symm_val dot_S1024x256_S256x256_S1024x256_1_1_0_0_n_n 256 rfl rfl k
  have el : dot_S1024x256_S256x256_S1024x256_1_1_0_0_n_n.lhsIdx (ix2 p d) ((contrEquiv1 dot_S1024x256_S256x256_S1024x256_1_1_0_0_n_n 256 rfl rfl).symm k) = ix2 p k := funext fun a => Fin.ext (by
    match a with
    | ⟨0, _⟩ => exact PayPre.lhs_nt_0 _ _
    | ⟨1, _⟩ => exact (PayPre.lhs_nt_1 _ _).trans hk)
  have er : dot_S1024x256_S256x256_S1024x256_1_1_0_0_n_n.rhsIdx (ix2 p d) ((contrEquiv1 dot_S1024x256_S256x256_S1024x256_1_1_0_0_n_n 256 rfl rfl).symm k) = ix2 d k := funext fun a => Fin.ext (by
    match a with
    | ⟨0, _⟩ => exact PayPre.rhs_nt_0 _ _
    | ⟨1, _⟩ => exact (PayPre.rhs_nt_1 _ _).trans hk)
  rw [el, er]

/-! ## The preamble's quantities -/

/-- Sums and products of extended reals, argument by argument. -/
theorem PayPre.add_congr {a b a' b' : EReal} (h1 : a = a') (h2 : b = b') : a + b = a' + b' := by rw [h1, h2]
theorem PayPre.mul_congr {a b a' b' : EReal} (h1 : a = a') (h2 : b = b') : a * b = a' * b' := by rw [h1, h2]

/-- The left column sum: column `j` of the square root of the first quadrant plus row `j` of the square root
    of the off-diagonal quadrant (the column sum of the left half of the symmetric square-root matrix). -/
def cl (g00 g01 : Vec Ideal S512x512 .f32) (j : Fin 512) : EReal :=
  (∑ i : Fin 512, Ideal.sqrt (g00 (ix2 i j))) + ∑ i : Fin 512, Ideal.sqrt (g01 (ix2 j i))

/-- The right column sum: column `j` of the square roots of the off-diagonal and of the last quadrant. -/
def cr (g01 g11 : Vec Ideal S512x512 .f32) (j : Fin 512) : EReal :=
  (∑ i : Fin 512, Ideal.sqrt (g01 (ix2 i j))) + ∑ i : Fin 512, Ideal.sqrt (g11 (ix2 i j))

/-- The square root of the first quadrant. -/
theorem k0_pay15_apply (v14 : Vec Ideal S512x512 .f32) (p q : Fin 512) :
    k0_pay15 (F := Ideal) v14 (ix2 p q) = Ideal.sqrt (v14 (ix2 p q)) := rfl

/-- The square root of the off-diagonal quadrant. -/
theorem k0_pay16_apply (v16 : Vec Ideal S512x512 .f32) (p q : Fin 512) :
    k0_pay16 (F := Ideal) v16 (ix2 p q) = Ideal.sqrt (v16 (ix2 p q)) := rfl

/-- The square root of the last quadrant. -/
theorem k0_pay17_apply (v18 : Vec Ideal S512x512 .f32) (p q : Fin 512) :
    k0_pay17 (F := Ideal) v18 (ix2 p q) = Ideal.sqrt (v18 (ix2 p q)) := rfl

/-- The upper half of the other operand, each row divided by its left column sum. -/
theorem k0_pay18_apply (v14 v16 : Vec Ideal S512x512 .f32) (v26 : Vec Ideal S1024x256 .f32) (j : Fin 512) (d : Fin 256) :
    k0_pay18 (F := Ideal) v14 v16 v26 (ix2 j d)
      = Ideal.div (v26 (ix2 (⟨j.val, by have := j.isLt; omega⟩ : Fin 1024) d)) (cl v14 v16 j) := by
  unfold k0_pay18
  refine congrArg₂ Ideal.div ?_ ?_
  · exact slice2_axis0_apply 0 v26 slices_S1024x256_o0_0_S512x256 j d _ (Nat.zero_add _).symm
  · refine (PayPre.broadcastTo_col_apply _ broadcasts_S512x1_S512x256 j d).trans ?_
    refine (PayPre.shapeCast_col_apply _ shapeCasts_S512_S512x1 j 0).trans ?_
    exact PayPre.add_congr (PayPre.sum_rows_apply (k0_pay15 v14) j) (PayPre.sum_lanes_apply (k0_pay16 v16) j)

/-- The lower half of the other operand, each row divided by its right column sum. -/
theorem k0_pay19_apply (v16 v18 : Vec Ideal S512x512 .f32) (v26 : Vec Ideal S1024x256 .f32) (j : Fin 512) (d : Fin 256) :
    k0_pay19 (F := Ideal) v16 v18 v26 (ix2 j d)
      = Ideal.div (v26 (ix2 (⟨512 + j.val, by have := j.isLt; omega⟩ : Fin 1024) d)) (cr v16 v18 j) := by
  unfold k0_pay19
  refine congrArg₂ Ideal.div ?_ ?_
  · exact slice2_axis0_apply 512 v26 slices_S1024x256_o512_0_S512x256 j d _ rfl
  · refine (PayPre.broadcastTo_col_apply _ broadcasts_S512x1_S512x256 j d).trans ?_
    refine (PayPre.shapeCast_col_apply _ shapeCasts_S512_S512x1 j 0).trans ?_
    exact PayPre.add_congr (PayPre.sum_rows_apply (k0_pay16 v16) j) (PayPre.sum_rows_apply (k0_pay17 v18) j)

/-- The top half of the mixing buffer: the first block row of the square-root matrix times the scaled other operand. -/
theorem k0_pay20_apply (v14 v16 v18 : Vec Ideal S512x512 .f32) (v26 : Vec Ideal S1024x256 .f32) (p : Fin 512) (d : Fin 256) :
    k0_pay20 (F := Ideal) v14 v16 v18 v26 (ix2 p d)
      = (∑ j : Fin 512, Ideal.sqrt (v14 (ix2 p j)) * Ideal.div (v26 (ix2 (⟨j.val, by have := j.isLt; omega⟩ : Fin 1024) d)) (cl v14 v16 j))
        + ∑ j : Fin 512, Ideal.sqrt (v16 (ix2 p j)) * Ideal.div (v26 (ix2 (⟨512 + j.val, by have := j.isLt; omega⟩ : Fin 1024) d)) (cr v16 v18 j) := by
  unfold k0_pay20
  refine (congrFun (shapeCast_self _ _) (ix2 p d)).trans ?_
  refine (truncf_apply (ψ := .bf16) _ bitsLt_bf16_f32 (ix2 p d)).trans ?_
  refine (addf_apply _ _ (ix2 p d)).trans ?_
  refine PayPre.add_congr ?_ ?_
  · refine (PayPre.matmul_nn_apply _ _ p d).trans ?_
    exact Finset.sum_congr rfl fun j _ => PayPre.mul_congr rfl (k0_pay18_apply v14 v16 v26 j d)
  · refine (PayPre.matmul_nn_apply _ _ p d).trans ?_
    exact Finset.sum_congr rfl fun j _ => PayPre.mul_congr rfl (k0_pay19_apply v16 v18 v26 j d)

/-- The bottom half of the mixing buffer: the second block row of the square-root matrix (the transposed off-diagonal
    quadrant, then the last quadrant) times the scaled other operand. -/
theorem k0_pay21_apply (v14 v16 v18 : Vec Ideal S512x512 .f32) (v26 : Vec Ideal S1024x256 .f32) (p : Fin 512) (d : Fin 256) :
    k0_pay21 (F := Ideal) v14 v16 v18 v26 (ix2 p d)
      = (∑ j : Fin 512, Ideal.sqrt (v16 (ix2 j p)) * Ideal.div (v26 (ix2 (⟨j.val, by have := j.isLt; omega⟩ : Fin 1024) d)) (cl v14 v16 j))
        + ∑ j : Fin 512, Ideal.sqrt (v18 (ix2 p j)) * Ideal.div (v26 (ix2 (⟨512 + j.val, by have := j.isLt; omega⟩ : Fin 1024) d)) (cr v16 v18 j) := by
  unfold k0_pay21
  refine (truncf_apply (ψ := .bf16) _ bitsLt_bf16_f32 (ix2 p d)).trans ?_
  refine (addf_apply _ _ (ix2 p d)).trans ?_
  refine PayPre.add_congr ?_ ?_
  · refine (PayPre.matmul_tn_apply _ _ p d).trans ?_
    exact Finset.sum_congr rfl fun j _ => PayPre.mul_congr rfl (k0_pay18_apply v14 v16 v26 j d)
  · refine (PayPre.matmul_nn_apply _ _ p d).trans ?_
    exact Finset.sum_congr rfl fun j _ => PayPre.mul_congr rfl (k0_pay19_apply v16 v18 v26 j d)

/-- What is stored into the lower rows of the mixing buffer is the bottom half itself. -/
theorem k0_pay11_eq (v53 : FVec Ideal S512x256 .bf16) : k0_pay11 (F := Ideal) v53 = v53 := by
  unfold k0_pay11
  exact shapeCast_self v53 _

theorem k0_pay11_apply (v53 : FVec Ideal S512x256 .bf16) (p : Fin 512) (d : Fin 256) :
    k0_pay11 (F := Ideal) v53 (ix2 p d) = v53 (ix2 p d) :=
  congrFun (k0_pay11_eq v53) _

/-- The bf16 word of one is the extended real one. -/
theorem PayPre.ofBits_one_bf16 : Ideal.ofBits .bf16 0x3F80#16 = 1 := by
  simp [Ideal.ofBits, Ideal.ieee]
  rw [← EReal.coe_mul]
  norm_num

/-- The block of ones. -/
theorem k0_pay12_apply (j : Fin 1024) (c : Fin 128) : (k0_pay12 (F := Ideal)) (ix2 j c) = (1 : EReal) := by
  unfold k0_pay12
  refine (congrFun (shapeCast_self _ _) (ix2 j c)).trans ?_
  exact PayPre.ofBits_one_bf16

/-- The scaled keys: the other operand times the transposed key weights, plus the key bias, times the scale word. -/
theorem k0_pay13_apply (v26 : Vec Ideal S1024x256 .f32) (v61 : Vec Ideal S256x256 .f32) (v65 : Vec Ideal S1x256 .f32)
    (j : Fin 1024) (e : Fin 256) :
    k0_pay13 (F := Ideal) v26 v61 v65 (ix2 j e)
      = ((∑ k : Fin 256, v26 (ix2 j k) * v61 (ix2 e k)) + v65 (ix2 (0 : Fin 1) e)) * Ideal.ofBits .f32 0x3D800000#32 := by
  unfold k0_pay13
  refine (congrFun (shapeCast_self _ _) (ix2 j e)).trans ?_
  refine (truncf_apply (ψ := .bf16) _ bitsLt_bf16_f32 (ix2 j e)).trans ?_
  refine (mulf_apply _ _ (ix2 j e)).trans ?_
  refine PayPre.mul_congr ((addf_apply _ _ (ix2 j e)).trans (PayPre.add_congr ?_ ?_)) rfl
  · exact PayPre.matmul_nt_apply _ _ j e
  · refine (broadcastTo_1b_ab_apply _ broadcasts_S1x256_S1024x256 j e).trans ?_
    exact congrFun (shapeCast_self v65 _) _

end Cert.KernelIdeal.HandValue

end
-- ==== Proof.KI.PiecesPre.lean ====
import proofs.«127533_g52209622450808_cont_9to1_m_767_25_alg».proof.Proof.KI.Carried
import proofs.«127533_g52209622450808_cont_9to1_m_767_25_alg».proof.Proof.KI.PayPre
import proofs.«127533_g52209622450808_cont_9to1_m_767_25_alg».proof.Proof.KerSpec
import Idealize.ShloMosaic.Lib.Tactic
import Idealize.ShloMosaic.Lib.Pipeline.Value

/-!
  What the mixing buffer and the key buffer hold after the fourth point, entry by entry, at the extended reals, in
  terms of the three Gram quadrants as that point leaves them (`G0`, `G1`, `G2`: top-left, top-right, bottom-right),
  `other` (`x1`), `Wk` (`x2`) and `bk` (`x3`): the first 256 columns of the mixing buffer are the mixed `other`,
  its last 128 columns are ones, and the key buffer is the key projection scaled by 1/16.
-/

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.ShloMosaic.Tactic
open Idealize.SL Idealize.SL.Sem
open Cert.Hand.Spec (lo hi)

/-! ## The pieces the fourth point leaves, for every instance -/

theorem PiecesPre.hz : (![0, 0] : Fin 2 → ℕ) = fun _ => 0 := funext fun a => by fin_cases a <;> rfl

/-- At an index the last write's rectangle holds, the contents are that write's payload at the local index. -/
theorem PiecesPre.canon_head {Val : EltTy → Type} [∀ e, Nonempty (Val e)] {S : Shape} {e : EltTy} (r : Rect S)
    (w : r.shape.Idx → Val e) (L : List (View.Piece Val S e)) (y : S.Idx) (x : r.shape.Idx) (hy : y = r.emb x) :
    View.canon (⟨r, w⟩ :: L) y = w x := by
  subst hy
  exact View.canon_cons_emb r w L x

section
variable {F : FTy → Type} [FloatOps F]
variable (c : Dev nD) (t : Fin cfg0.N) (h : t.val = 3) (x0 : Vec F S1024x1024 .f32) (x1 : Vec F S1024x256 .f32) (x2 : Vec F S256x256 .f32) (x3 : Vec F S1x256 .f32) (xs0 xs1 xs2 : Vec F S512x512 .f32)

/-- The key buffer is one piece: the scaled keys of `other`, `Wk` and `bk`. -/
theorem PiecesPre.kkC_piece : kkC (F := F) c t h x0 x1 x2 x3 xs0 xs1 xs2 = k0_pay13 x1 x2 x3 := by
  unfold kkC
  rw [View.read_writes_eq_canon _ _ _ (coverC4 c t h x0 x1 x2 x3 xs0 xs1 xs2)]
  unfold runC kernelRun0_C
  dsimp only
  sl_unfold_words
  rw [View.canon_unit_zero PiecesPre.hz]
  simp only [View.readAt_eq_ld, (hs0_1 t).read_unread, (hs0_2 t).read_unread, (hs0_3 t).read_unread,
    View.ld_unit_zero (S := S1024x256) PiecesPre.hz, View.ld_unit_zero (S := S256x256) PiecesPre.hz, View.ld_unit_zero (S := S1x256) PiecesPre.hz]

/-- Each quadrant buffer, as the point leaves it, is what its pieces leave. -/
theorem PiecesPre.gC0_canon : gC0 (F := F) c t h x0 x1 x2 x3 xs0 xs1 xs2 = View.canon (runC c t h x0 x1 x2 x3 xs0 xs1 xs2).1 := by
  unfold gC0
  exact View.read_writes_eq_canon _ _ _ (coverC0 c t h x0 x1 x2 x3 xs0 xs1 xs2)
theorem PiecesPre.gC1_canon : gC1 (F := F) c t h x0 x1 x2 x3 xs0 xs1 xs2 = View.canon (runC c t h x0 x1 x2 x3 xs0 xs1 xs2).2.1 := by
  unfold gC1
  exact View.read_writes_eq_canon _ _ _ (coverC1 c t h x0 x1 x2 x3 xs0 xs1 xs2)
theorem PiecesPre.gC2_canon : gC2 (F := F) c t h x0 x1 x2 x3 xs0 xs1 xs2 = View.canon (runC c t h x0 x1 x2 x3 xs0 xs1 xs2).2.2.1 := by
  unfold gC2
  exact View.read_writes_eq_canon _ _ _ (coverC2 c t h x0 x1 x2 x3 xs0 xs1 xs2)

/-- The mixing buffer is three pieces: the ones on the last 128 columns, the bottom and the top half of the mixed `other`
    on the first 256; the quadrants the halves are computed from are the ones the point itself leaves, since the
    preamble loads them after the point's own accumulating stores. -/
theorem PiecesPre.omC_pieces : omC (F := F) c t h x0 x1 x2 x3 xs0 xs1 xs2
    = View.canon ([⟨Rect.unit ![0, 256] ![1024, 128] inb_S1024x384_S1024x128_0_256, k0_pay12 (F := F)⟩,
        ⟨Rect.unit ![512, 0] ![512, 256] inb_S1024x384_S512x256_512_0, k0_pay11 (k0_pay21 (gC0 (F := F) c t h x0 x1 x2 x3 xs0 xs1 xs2) (gC1 (F := F) c t h x0 x1 x2 x3 xs0 xs1 xs2) (gC2 (F := F) c t h x0 x1 x2 x3 xs0 xs1 xs2) x1)⟩,
        ⟨Rect.unit ![0, 0] ![512, 256] inb_S1024x384_S512x256_0_0, k0_pay20 (gC0 (F := F) c t h x0 x1 x2 x3 xs0 xs1 xs2) (gC1 (F := F) c t h x0 x1 x2 x3 xs0 xs1 xs2) (gC2 (F := F) c t h x0 x1 x2 x3 xs0 xs1 xs2) x1⟩] : List (View.Piece (Elt F) S1024x384 .bf16)) := by
  unfold omC
  rw [View.read_writes_eq_canon _ _ _ (coverC3 c t h x0 x1 x2 x3 xs0 xs1 xs2)]
  rw [PiecesPre.gC0_canon c t h x0 x1 x2 x3 xs0 xs1 xs2, PiecesPre.gC1_canon c t h x0 x1 x2 x3 xs0 xs1 xs2, PiecesPre.gC2_canon c t h x0 x1 x2 x3 xs0 xs1 xs2]
  unfold runC kernelRun0_C
  dsimp only
  sl_unfold_words
  simp only [View.readCov_unit_zero (S := S512x512) _ PiecesPre.hz, View.canon_unit_zero (S := S512x512) PiecesPre.hz,
    View.readAt_eq_ld, (hs0_1 t).read_unread, View.ld_unit_zero (S := S1024x256) PiecesPre.hz]
end

/-! ## The entries, at the extended reals -/

section
variable (c : Dev nD) (t : Fin cfg0.N) (h : t.val = 3) (x0 : Vec Ideal S1024x1024 .f32) (x1 : Vec Ideal S1024x256 .f32) (x2 : Vec Ideal S256x256 .f32) (x3 : Vec Ideal S1x256 .f32) (xs0 xs1 xs2 : Vec Ideal S512x512 .f32)

/-- The column sums of the square roots, from the quadrants. -/
def CL (j : Fin 512) : EReal := (∑ i : Fin 512, Ideal.sqrt (gC0 (F := Ideal) c t h x0 x1 x2 x3 xs0 xs1 xs2 (ix2 i j))) + ∑ i : Fin 512, Ideal.sqrt (gC1 (F := Ideal) c t h x0 x1 x2 x3 xs0 xs1 xs2 (ix2 j i))
def CR (j : Fin 512) : EReal := (∑ i : Fin 512, Ideal.sqrt (gC1 (F := Ideal) c t h x0 x1 x2 x3 xs0 xs1 xs2 (ix2 i j))) + ∑ i : Fin 512, Ideal.sqrt (gC2 (F := Ideal) c t h x0 x1 x2 x3 xs0 xs1 xs2 (ix2 i j))

theorem omC_top (p : Fin 512) (d : Fin 256) :
    omC (F := Ideal) c t h x0 x1 x2 x3 xs0 xs1 xs2 (ix2 (lo p) (⟨d.val, by omega⟩ : Fin 384))
      = (∑ j : Fin 512, Ideal.sqrt (gC0 (F := Ideal) c t h x0 x1 x2 x3 xs0 xs1 xs2 (ix2 p j)) * Ideal.div (x1 (ix2 (lo j) d)) (CL c t h x0 x1 x2 x3 xs0 xs1 xs2 j))
        + ∑ j : Fin 512, Ideal.sqrt (gC1 (F := Ideal) c t h x0 x1 x2 x3 xs0 xs1 xs2 (ix2 p j)) * Ideal.div (x1 (ix2 (hi j) d)) (CR c t h x0 x1 x2 x3 xs0 xs1 xs2 j) := by
  refine (congrFun (PiecesPre.omC_pieces (F := Ideal) c t h x0 x1 x2 x3 xs0 xs1 xs2) _).trans ?_
  refine (View.canon_cons_of_not_mem _ _ fun hm => ?_).trans ?_
  · have h1 := ((Rect.mem_set_unit (inb := inb_S1024x384_S1024x128_0_256)).mp hm) 1
    change 256 ≤ d.val ∧ d.val < 256 + 128 at h1
    omega
  refine (View.canon_cons_of_not_mem _ _ fun hm => ?_).trans ?_
  · have h0 := ((Rect.mem_set_unit (inb := inb_S1024x384_S512x256_512_0)).mp hm) 0
    change 512 ≤ p.val ∧ p.val < 512 + 512 at h0
    omega
  refine (PiecesPre.canon_head _ _ _ _ (ix2 p d) (funext fun a => Fin.ext ?_)).trans ?_
  · match a with
    | ⟨0, _⟩ => show p.val = 0 + 1 * p.val; omega
    | ⟨1, _⟩ => show d.val = 0 + 1 * d.val; omega
  refine (k0_pay20_apply (gC0 (F := Ideal) c t h x0 x1 x2 x3 xs0 xs1 xs2) (gC1 (F := Ideal) c t h x0 x1 x2 x3 xs0 xs1 xs2) (gC2 (F := Ideal) c t h x0 x1 x2 x3 xs0 xs1 xs2) x1 p d).trans ?_
  rfl
theorem omC_bot (p : Fin 512) (d : Fin 256) :
    omC (F := Ideal) c t h x0 x1 x2 x3 xs0 xs1 xs2 (ix2 (hi p) (⟨d.val, by omega⟩ : Fin 384))
      = (∑ j : Fin 512, Ideal.sqrt (gC1 (F := Ideal) c t h x0 x1 x2 x3 xs0 xs1 xs2 (ix2 j p)) * Ideal.div (x1 (ix2 (lo j) d)) (CL c t h x0 x1 x2 x3 xs0 xs1 xs2 j))
        + ∑ j : Fin 512, Ideal.sqrt (gC2 (F := Ideal) c t h x0 x1 x2 x3 xs0 xs1 xs2 (ix2 p j)) * Ideal.div (x1 (ix2 (hi j) d)) (CR c t h x0 x1 x2 x3 xs0 xs1 xs2 j) := by
  refine (congrFun (PiecesPre.omC_pieces (F := Ideal) c t h x0 x1 x2 x3 xs0 xs1 xs2) _).trans ?_
  refine (View.canon_cons_of_not_mem _ _ fun hm => ?_).trans ?_
  · have h1 := ((Rect.mem_set_unit (inb := inb_S1024x384_S1024x128_0_256)).mp hm) 1
    change 256 ≤ d.val ∧ d.val < 256 + 128 at h1
    omega
  refine (PiecesPre.canon_head _ _ _ _ (ix2 p d) (funext fun a => Fin.ext ?_)).trans ?_
  · match a with
    | ⟨0, _⟩ => show 512 + p.val = 512 + 1 * p.val; omega
    | ⟨1, _⟩ => show d.val = 0 + 1 * d.val; omega
  refine (congrFun (k0_pay11_eq _) (ix2 p d)).trans ?_
  refine (k0_pay21_apply (gC0 (F := Ideal) c t h x0 x1 x2 x3 xs0 xs1 xs2) (gC1 (F := Ideal) c t h x0 x1 x2 x3 xs0 xs1 xs2) (gC2 (F := Ideal) c t h x0 x1 x2 x3 xs0 xs1 xs2) x1 p d).trans ?_
  rfl
theorem omC_ones (i : Fin 1024) (e : Fin 128) :
    omC (F := Ideal) c t h x0 x1 x2 x3 xs0 xs1 xs2 (ix2 i (⟨256 + e.val, by omega⟩ : Fin 384)) = (1 : EReal) := by
  refine (congrFun (PiecesPre.omC_pieces (F := Ideal) c t h x0 x1 x2 x3 xs0 xs1 xs2) _).trans ?_
  refine (PiecesPre.canon_head _ _ _ _ (ix2 i e) (funext fun a => Fin.ext ?_)).trans ?_
  · match a with
    | ⟨0, _⟩ => show i.val = 0 + 1 * i.val; omega
    | ⟨1, _⟩ => show 256 + e.val = 256 + 1 * e.val; omega
  exact k0_pay12_apply i e
theorem kkC_apply (j : Fin 1024) (e : Fin 256) :
    kkC (F := Ideal) c t h x0 x1 x2 x3 xs0 xs1 xs2 (ix2 j e)
      = ((∑ k : Fin 256, x1 (ix2 j k) * x2 (ix2 e k)) + x3 (ix2 0 e)) * Ideal.ofBits .f32 0x3D800000#32 := by
  refine (congrFun (PiecesPre.kkC_piece (F := Ideal) c t h x0 x1 x2 x3 xs0 xs1 xs2) (ix2 j e)).trans ?_
  exact k0_pay13_apply x1 x2 x3 j e
end

end Cert.KernelIdeal.HandValue

end
-- ==== Proof.KI.PreStep.lean ====
import proofs.«127533_g52209622450808_cont_9to1_m_767_25_alg».proof.Proof.KI.Data
import proofs.«127533_g52209622450808_cont_9to1_m_767_25_alg».proof.Proof.KI.PiecesPre
import proofs.«127533_g52209622450808_cont_9to1_m_767_25_alg».proof.Proof.KI.Blocks
import proofs.«127533_g52209622450808_cont_9to1_m_767_25_alg».proof.Proof.KerSpec

/-!
  The fourth point's preamble. If after that point the three quadrant buffers hold the quadrants of `fixᵀ fix`, then
  the mixing buffer holds the mixed `other` (the specification's kernel form) in its first 256 columns and ones in
  column 256, and the key buffer holds the key projection scaled by 1/16.
-/

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Cert.Hand.Spec

variable (m : (ℓ : Loc nD τ sig) → Buf (Elt Ideal) ℓ)

/-! ## The preamble over variables -/

section
variable (c : Dev nD) (t : Fin cfg0.N) (h : t.val = 3) (x0 : Vec Ideal S1024x1024 .f32) (x1 : Vec Ideal S1024x256 .f32) (x2 : Vec Ideal S256x256 .f32) (x3 : Vec Ideal S1x256 .f32) (xs0 xs1 xs2 : Vec Ideal S512x512 .f32)
  (ot : Fin 1024 → Fin 256 → EReal) (fx : Fin 4096 → Fin 1024 → EReal) (wk : Fin 256 → Fin 256 → EReal) (bk : Fin 256 → EReal)

/-- With the three quadrant buffers at the Gram quadrants of fx, and the three staged blocks read as ot, wk and bk:
    the column sums the point forms are the column sums of the square-rooted Gram matrix, so each half of the mixing
    buffer is the specification's mixed other at those rows; the ones column is column 256; the key buffer is the key
    projection times the word of 1/16. -/
theorem pre_core
    (hg0 : ∀ p q : Fin 512, gC0 (F := Ideal) c t h x0 x1 x2 x3 xs0 xs1 xs2 (ix2 p q) = q00 fx (ix2 p q))
    (hg1 : ∀ p q : Fin 512, gC1 (F := Ideal) c t h x0 x1 x2 x3 xs0 xs1 xs2 (ix2 p q) = q01 fx (ix2 p q))
    (hg2 : ∀ p q : Fin 512, gC2 (F := Ideal) c t h x0 x1 x2 x3 xs0 xs1 xs2 (ix2 p q) = q11 fx (ix2 p q))
    (hx1 : ∀ (j : Fin 1024) (k : Fin 256), x1 (ix2 j k) = ot j k)
    (hx2 : ∀ e k : Fin 256, x2 (ix2 e k) = wk e k)
    (hx3 : ∀ e : Fin 256, x3 (ix2 (0 : Fin 1) e) = bk e) :
    (∀ (i : Fin 1024) (d : Fin 256), omC (F := Ideal) c t h x0 x1 x2 x3 xs0 xs1 xs2 (ix2 i (⟨d.val, by omega⟩ : Fin 384)) = omKer ot fx i d)
      ∧ (∀ i : Fin 1024, omC (F := Ideal) c t h x0 x1 x2 x3 xs0 xs1 xs2 (ix2 i (⟨256, by omega⟩ : Fin 384)) = (1 : EReal))
      ∧ (∀ (j : Fin 1024) (e : Fin 256), kkC (F := Ideal) c t h x0 x1 x2 x3 xs0 xs1 xs2 (ix2 j e) = kv ot wk bk j e * sixteenth) := by
  have hCL : ∀ j, CL c t h x0 x1 x2 x3 xs0 xs1 xs2 j = colsum fx (lo j) := fun j => by
    unfold CL; simp only [hg0, hg1]; exact colsum_lo fx j
  have hCR : ∀ j, CR c t h x0 x1 x2 x3 xs0 xs1 xs2 j = colsum fx (hi j) := fun j => by
    unfold CR; simp only [hg1, hg2]; exact colsum_hi fx j
  refine ⟨fun i d => ?_, fun i => ?_, fun j e => ?_⟩
  · by_cases hlt : i.val < 512
    · obtain ⟨p, rfl⟩ : ∃ p : Fin 512, i = lo p := ⟨⟨i.val, hlt⟩, Fin.ext rfl⟩
      rw [omC_top]; simp only [hg0, hg1, hx1, hCL, hCR]; exact om_top ot fx p d
    · obtain ⟨p, rfl⟩ : ∃ p : Fin 512, i = hi p :=
        ⟨⟨i.val - 512, by have := i.isLt; omega⟩, Fin.ext (by show i.val = 512 + (i.val - 512); omega)⟩
      rw [omC_bot]; simp only [hg1, hg2, hx1, hCL, hCR]; exact om_bot ot fx p d
  · exact omC_ones c t h x0 x1 x2 x3 xs0 xs1 xs2 i ⟨0, by omega⟩
  · rw [kkC_apply]; simp only [hx1, hx2, hx3]; rfl

end

/-! ## At the fourth point -/

theorem pre_step (c : Dev nD) (t : Fin cfg0.N) (ht : t.val = 3)
    (hg0 : ∀ p q : Fin 512, (carriedAt (F := Ideal) m c t.val t.isLt).g0 (ix2 p q) = q00 (c2 (m ((c.tc : Thread nD τ).loc main_arg2))) (ix2 p q))
    (hg1 : ∀ p q : Fin 512, (carriedAt (F := Ideal) m c t.val t.isLt).g1 (ix2 p q) = q01 (c2 (m ((c.tc : Thread nD τ).loc main_arg2))) (ix2 p q))
    (hg2 : ∀ p q : Fin 512, (carriedAt (F := Ideal) m c t.val t.isLt).g2 (ix2 p q) = q11 (c2 (m ((c.tc : Thread nD τ).loc main_arg2))) (ix2 p q)) :
    (∀ (i : Fin 1024) (d : Fin 256), (carriedAt (F := Ideal) m c t.val t.isLt).om (ix2 i (⟨d.val, by omega⟩ : Fin 384)) = omKer (c2 (m ((c.tc : Thread nD τ).loc main_arg1))) (c2 (m ((c.tc : Thread nD τ).loc main_arg2))) i d)
      ∧ (∀ i : Fin 1024, (carriedAt (F := Ideal) m c t.val t.isLt).om (ix2 i (⟨256, by omega⟩ : Fin 384)) = (1 : EReal))
      ∧ (∀ (j : Fin 1024) (e : Fin 256), (carriedAt (F := Ideal) m c t.val t.isLt).kk (ix2 j e) = kv (c2 (m ((c.tc : Thread nD τ).loc main_arg1))) (c2 (m ((c.tc : Thread nD τ).loc main_arg5))) (c1 (m ((c.tc : Thread nD τ).loc main_arg6))) j e * sixteenth) := by
  rw [carriedAt_C m c t ht] at hg0 hg1 hg2 ⊢
  dsimp only at hg0 hg1 hg2 ⊢
  exact pre_core c t ht _ _ _ _ _ _ _ (c2 (m ((c.tc : Thread nD τ).loc main_arg1))) (c2 (m ((c.tc : Thread nD τ).loc main_arg2)))
    (c2 (m ((c.tc : Thread nD τ).loc main_arg5))) (c1 (m ((c.tc : Thread nD τ).loc main_arg6))) hg0 hg1 hg2
    (fun j k => blk1 m c t j k) (fun e k => blk2 m c t e k) (fun e => blk3 m c t e)

end Cert.KernelIdeal.HandValue

end
-- ==== Proof.KI.PayAtt.lean ====
import proofs.«127533_g52209622450808_cont_9to1_m_767_25_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-!
  The attention block of the idealized kernel read at an index, at the extended reals.

  For a block of 2000 rows of `main` the kernel projects each row to a query (the row times the transpose of the
  query weights, plus the query bias), takes the query's inner product with each of the 1024 rows of the key
  buffer (the logits), exponentiates, and multiplies the resulting [2000 x 1024] matrix into the mixing buffer
  [1024 x 384]. Column 256 of that product is the row's normalizer; the stored value at (r, d), d < 256, is column d
  of the product times one over the normalizer.

  At the ideal values every change of float format is the identity and every product into a zero accumulator is a
  plain finite sum, so the payload at (r, d) is a closed expression in the loaded vectors: three nested sums, one
  exponential and one division.
-/

noncomputable section

namespace Cert.KernelIdeal.HandValue

open Cert.KernelIdeal Cert.KernelIdeal.Gen Idealize.ShloMosaic Idealize.ShloMosaic.ValueIdx
open scoped BigOperators

/-! ## Layout readings the library does not carry -/

/-- A `[a, 1]` column broadcast to `[a, b]` reads, at `(p, c)`, the operand's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The float word of one is the extended real one. -/
theorem ofBits_one_f32 : Ideal.ofBits .f32 0x3F800000#32 = (1 : EReal) := by
  simp [Ideal.ofBits, Ideal.ieee]
  rw [← EReal.coe_mul]
  norm_num

/-! ## The three matrix products read at an index -/

/-! ### The query projection: [2000 x 256] times the transpose of [256 x 256] -/

theorem lhs_qproj_0 (i : S2000x256.Idx) (q : dot_S2000x256_S256x256_S2000x256_1_1_0_0_n_n.contr.Idx) :
    (dot_S2000x256_S256x256_S2000x256_1_1_0_0_n_n.lhsIdx i q 0).val = (i 0).val := by
  unfold DotDims.lhsIdx
  rw [dif_neg (show ¬(0 : Fin S2000x256.rank) ∈ dot_S2000x256_S256x256_S2000x256_1_1_0_0_n_n.lhsBatch by decide), dif_pos (show (0 : Fin S2000x256.rank) ∈ dot_S2000x256_S256x256_S2000x256_1_1_0_0_n_n.lhsNonContracting by decide)]
  rfl
theorem lhs_qproj_1 (i : S2000x256.Idx) (q : dot_S2000x256_S256x256_S2000x256_1_1_0_0_n_n.contr.Idx) :
    (dot_S2000x256_S256x256_S2000x256_1_1_0_0_n_n.lhsIdx i q 1).val = (q ⟨0, by decide⟩).val :=
  dot_S2000x256_S256x256_S2000x256_1_1_0_0_n_n.lhsIdx_val_of_single rfl i q
theorem rhs_qproj_0 (i : S2000x256.Idx) (q : dot_S2000x256_S256x256_S2000x256_1_1_0_0_n_n.contr.Idx) :
    (dot_S2000x256_S256x256_S2000x256_1_1_0_0_n_n.rhsIdx i q 0).val = (i 1).val := by
  unfold DotDims.rhsIdx
  rw [dif_neg (show ¬(0 : Fin S256x256.rank) ∈ dot_S2000x256_S256x256_S2000x256_1_1_0_0_n_n.rhsBatch by decide), dif_pos (show (0 : Fin S256x256.rank) ∈ dot_S2000x256_S256x256_S2000x256_1_1_0_0_n_n.rhsNonContracting by decide)]
  rfl
theorem rhs_qproj_1 (i : S2000x256.Idx) (q : dot_S2000x256_S256x256_S2000x256_1_1_0_0_n_n.contr.Idx) :
    (dot_S2000x256_S256x256_S2000x256_1_1_0_0_n_n.rhsIdx i q 1).val = (q ⟨0, by decide⟩).val :=
  dot_S2000x256_S256x256_S2000x256_1_1_0_0_n_n.rhsIdx_val_of_single rfl i q

/-- Entry (r, c) of the product of a [2000 x 256] matrix with the transpose of a [256 x 256] matrix, accumulated
    into zero: the sum over the shared axis of row r of the left times row c of the right. -/
theorem matmul_qproj_apply {φ₁ φ₂ : FTy} (lhs : FVec Ideal S2000x256 φ₁) (rhs : FVec Ideal S256x256 φ₂) (r : Fin 2000) (c : Fin 256) :
    matmul (F := Ideal) dot_S2000x256_S256x256_S2000x256_1_1_0_0_n_n none lhs rhs (constant (F := Ideal) S2000x256 .f32 0x00000000#32) (ix2 r c)
      = ∑ k : Fin 256, lhs (ix2 r k) * rhs (ix2 c k) := by
  refine (Ideal.matmul_constant_zero_apply dot_S2000x256_S256x256_S2000x256_1_1_0_0_n_n none lhs rhs (ix2 r c)).trans ?_
  rw [← Equiv.sum_comp (contrEquiv1 dot_S2000x256_S256x256_S2000x256_1_1_0_0_n_n 256 rfl rfl).symm]
  refine Finset.sum_congr rfl fun k _ => ?_
  have hk := contrEquiv1_symm_val dot_S2000x256_S256x256_S2000x256_1_1_0_0_n_n 256 rfl rfl k
  have el : dot_S2000x256_S256x256_S2000x256_1_1_0_0_n_n.lhsIdx (ix2 r c) ((contrEquiv1 dot_S2000x256_S256x256_S2000x256_1_1_0_0_n_n 256 rfl rfl).symm k) = ix2 r k := funext fun a => Fin.ext (by
    match a with
    | ⟨0, _⟩ => exact lhs_qproj_0 _ _
    | ⟨1, _⟩ => exact (lhs_qproj_1 _ _).trans hk)
  have er : dot_S2000x256_S256x256_S2000x256_1_1_0_0_n_n.rhsIdx (ix2 r c) ((contrEquiv1 dot_S2000x256_S256x256_S2000x256_1_1_0_0_n_n 256 rfl rfl).symm k) = ix2 c k := funext fun a => Fin.ext (by
    match a with
    | ⟨0, _⟩ => exact rhs_qproj_0 _ _
    | ⟨1, _⟩ => exact (rhs_qproj_1 _ _).trans hk)
  rw [el, er]

/-! ### The logits: [2000 x 256] times the transpose of the key buffer [1024 x 256] -/

theorem lhs_logit_0 (i : S2000x1024.Idx) (q : dot_S2000x256_S1024x256_S2000x1024_1_1_0_0_n_n.contr.Idx) :
    (dot_S2000x256_S1024x256_S2000x1024_1_1_0_0_n_n.lhsIdx i q 0).val = (i 0).val := by
  unfold DotDims.lhsIdx
  rw [dif_neg (show ¬(0 : Fin S2000x256.rank) ∈ dot_S2000x256_S1024x256_S2000x1024_1_1_0_0_n_n.lhsBatch by decide), dif_pos (show (0 : Fin S2000x256.rank) ∈ dot_S2000x256_S1024x256_S2000x1024_1_1_0_0_n_n.lhsNonContracting by decide)]
  rfl
theorem lhs_logit_1 (i : S2000x1024.Idx) (q : dot_S2000x256_S1024x256_S2000x1024_1_1_0_0_n_n.contr.Idx) :
    (dot_S2000x256_S1024x256_S2000x1024_1_1_0_0_n_n.lhsIdx i q 1).val = (q ⟨0, by decide⟩).val :=
  dot_S2000x256_S1024x256_S2000x1024_1_1_0_0_n_n.lhsIdx_val_of_single rfl i q
theorem rhs_logit_0 (i : S2000x1024.Idx) (q : dot_S2000x256_S1024x256_S2000x1024_1_1_0_0_n_n.contr.Idx) :
    (dot_S2000x256_S1024x256_S2000x1024_1_1_0_0_n_n.rhsIdx i q 0).val = (i 1).val := by
  unfold DotDims.rhsIdx
  rw [dif_neg (show ¬(0 : Fin S1024x256.rank) ∈ dot_S2000x256_S1024x256_S2000x1024_1_1_0_0_n_n.rhsBatch by decide), dif_pos (show (0 : Fin S1024x256.rank) ∈ dot_S2000x256_S1024x256_S2000x1024_1_1_0_0_n_n.rhsNonContracting by decide)]
  rfl
theorem rhs_logit_1 (i : S2000x1024.Idx) (q : dot_S2000x256_S1024x256_S2000x1024_1_1_0_0_n_n.contr.Idx) :
    (dot_S2000x256_S1024x256_S2000x1024_1_1_0_0_n_n.rhsIdx i q 1).val = (q ⟨0, by decide⟩).val :=
  dot_S2000x256_S1024x256_S2000x1024_1_1_0_0_n_n.rhsIdx_val_of_single rfl i q

/-- Entry (r, c) of the product of a [2000 x 256] matrix with the transpose of a [1024 x 256] matrix, accumulated
    into zero: the sum over the shared axis of row r of the left times row c of the right. -/
theorem matmul_logit_apply {φ₁ φ₂ : FTy} (lhs : FVec Ideal S2000x256 φ₁) (rhs : FVec Ideal S1024x256 φ₂) (r : Fin 2000) (c : Fin 1024) :
    matmul (F := Ideal) dot_S2000x256_S1024x256_S2000x1024_1_1_0_0_n_n none lhs rhs (constant (F := Ideal) S2000x1024 .f32 0x00000000#32) (ix2 r c)
      = ∑ k : Fin 256, lhs (ix2 r k) * rhs (ix2 c k) := by
  refine (Ideal.matmul_constant_zero_apply dot_S2000x256_S1024x256_S2000x1024_1_1_0_0_n_n none lhs rhs (ix2 r c)).trans ?_
  rw [← Equiv.sum_comp (contrEquiv1 dot_S2000x256_S1024x256_S2000x1024_1_1_0_0_n_n 256 rfl rfl).symm]
  refine Finset.sum_congr rfl fun k _ => ?_
  have hk := contrEquiv1_symm_val dot_S2000x256_S1024x256_S2000x1024_1_1_0_0_n_n 256 rfl rfl k
  have el : dot_S2000x256_S1024x256_S2000x1024_1_1_0_0_n_n.lhsIdx (ix2 r c) ((contrEquiv1 dot_S2000x256_S1024x256_S2000x1024_1_1_0_0_n_n 256 rfl rfl).symm k) = ix2 r k := funext fun a => Fin.ext (by
    match a with
    | ⟨0, _⟩ => exact lhs_logit_0 _ _
    | ⟨1, _⟩ => exact (lhs_logit_1 _ _).trans hk)
  have er : dot_S2000x256_S1024x256_S2000x1024_1_1_0_0_n_n.rhsIdx (ix2 r c) ((contrEquiv1 dot_S2000x256_S1024x256_S2000x1024_1_1_0_0_n_n 256 rfl rfl).symm k) = ix2 c k := funext fun a => Fin.ext (by
    match a with
    | ⟨0, _⟩ => exact rhs_logit_0 _ _
    | ⟨1, _⟩ => exact (rhs_logit_1 _ _).trans hk)
  rw [el, er]

/-! ### The mixing product: [2000 x 1024] times the mixing buffer [1024 x 384] -/

theorem lhs_mix_0 (i : S2000x384.Idx) (q : dot_S2000x1024_S1024x384_S2000x384_1_0_0_1_n_n.contr.Idx) :
    (dot_S2000x1024_S1024x384_S2000x384_1_0_0_1_n_n.lhsIdx i q 0).val = (i 0).val := by
  unfold DotDims.lhsIdx
  rw [dif_neg (show ¬(0 : Fin S2000x1024.rank) ∈ dot_S2000x1024_S1024x384_S2000x384_1_0_0_1_n_n.lhsBatch by decide), dif_pos (show (0 : Fin S2000x1024.rank) ∈ dot_S2000x1024_S1024x384_S2000x384_1_0_0_1_n_n.lhsNonContracting by decide)]
  rfl
theorem lhs_mix_1 (i : S2000x384.Idx) (q : dot_S2000x1024_S1024x384_S2000x384_1_0_0_1_n_n.contr.Idx) :
    (dot_S2000x1024_S1024x384_S2000x384_1_0_0_1_n_n.lhsIdx i q 1).val = (q ⟨0, by decide⟩).val :=
  dot_S2000x1024_S1024x384_S2000x384_1_0_0_1_n_n.lhsIdx_val_of_single rfl i q
theorem rhs_mix_0 (i : S2000x384.Idx) (q : dot_S2000x1024_S1024x384_S2000x384_1_0_0_1_n_n.contr.Idx) :
    (dot_S2000x1024_S1024x384_S2000x384_1_0_0_1_n_n.rhsIdx i q 0).val = (q ⟨0, by decide⟩).val :=
  dot_S2000x1024_S1024x384_S2000x384_1_0_0_1_n_n.rhsIdx_val_of_single rfl i q
theorem rhs_mix_1 (i : S2000x384.Idx) (q : dot_S2000x1024_S1024x384_S2000x384_1_0_0_1_n_n.contr.Idx) :
    (dot_S2000x1024_S1024x384_S2000x384_1_0_0_1_n_n.rhsIdx i q 1).val = (i 1).val := by
  unfold DotDims.rhsIdx
  rw [dif_neg (show ¬(1 : Fin S1024x384.rank) ∈ dot_S2000x1024_S1024x384_S2000x384_1_0_0_1_n_n.rhsBatch by decide), dif_pos (show (1 : Fin S1024x384.rank) ∈ dot_S2000x1024_S1024x384_S2000x384_1_0_0_1_n_n.rhsNonContracting by decide)]
  rfl

/-- Entry (r, c) of the product of a [2000 x 1024] matrix with a [1024 x 384] matrix, accumulated into zero: the sum
    over the shared axis of row r of the left times column c of the right. -/
theorem matmul_mix_apply {φ₁ φ₂ : FTy} (lhs : FVec Ideal S2000x1024 φ₁) (rhs : FVec Ideal S1024x384 φ₂) (r : Fin 2000) (c : Fin 384) :
    matmul (F := Ideal) dot_S2000x1024_S1024x384_S2000x384_1_0_0_1_n_n none lhs rhs (constant (F := Ideal) S2000x384 .f32 0x00000000#32) (ix2 r c)
      = ∑ k : Fin 1024, lhs (ix2 r k) * rhs (ix2 k c) := by
  refine (Ideal.matmul_constant_zero_apply dot_S2000x1024_S1024x384_S2000x384_1_0_0_1_n_n none lhs rhs (ix2 r c)).trans ?_
  rw [← Equiv.sum_comp (contrEquiv1 dot_S2000x1024_S1024x384_S2000x384_1_0_0_1_n_n 1024 rfl rfl).symm]
  refine Finset.sum_congr rfl fun k _ => ?_
  have hk := contrEquiv1_symm_val dot_S2000x1024_S1024x384_S2000x384_1_0_0_1_n_n 1024 rfl rfl k
  have el : dot_S2000x1024_S1024x384_S2000x384_1_0_0_1_n_n.lhsIdx (ix2 r c) ((contrEquiv1 dot_S2000x1024_S1024x384_S2000x384_1_0_0_1_n_n 1024 rfl rfl).symm k) = ix2 r k := funext fun a => Fin.ext (by
    match a with
    | ⟨0, _⟩ => exact lhs_mix_0 _ _
    | ⟨1, _⟩ => exact (lhs_mix_1 _ _).trans hk)
  have er : dot_S2000x1024_S1024x384_S2000x384_1_0_0_1_n_n.rhsIdx (ix2 r c) ((contrEquiv1 dot_S2000x1024_S1024x384_S2000x384_1_0_0_1_n_n 1024 rfl rfl).symm k) = ix2 k c := funext fun a => Fin.ext (by
    match a with
    | ⟨0, _⟩ => exact (rhs_mix_0 _ _).trans hk
    | ⟨1, _⟩ => exact rhs_mix_1 _ _)
  rw [el, er]

/-! ## The layers of the attention block -/

/-- Entry `e` of the query of row `r`: the row times row `e` of the query weights, plus the bias at `e`. -/
def qrow (v14 : Vec Ideal S2000x256 .f32) (v15 : Vec Ideal S256x256 .f32) (v19 : Vec Ideal S1x256 .f32)
    (r : Fin 2000) (e : Fin 256) : EReal :=
  (∑ k : Fin 256, v14 (ix2 r k) * v15 (ix2 e k)) + v19 (ix2 0 e)

/-- The logit of row `r` against key `j`: the inner product of the query of row `r` with row `j` of the key buffer. -/
def lg (v14 : Vec Ideal S2000x256 .f32) (v15 : Vec Ideal S256x256 .f32) (v19 : Vec Ideal S1x256 .f32)
    (v23 : Vec Ideal S1024x256 .bf16) (r : Fin 2000) (j : Fin 1024) : EReal :=
  ∑ e : Fin 256, qrow v14 v15 v19 r e * v23 (ix2 j e)

/-- The query projection with its bias, read at `(r, e)`. -/
theorem qrow_eq (v14 : FVec Ideal S2000x256 .f32) (v15 : FVec Ideal S256x256 .f32) (v19 : FVec Ideal S1x256 .f32)
    (r : Fin 2000) (e : Fin 256) :
    addf (matmul (F := Ideal) dot_S2000x256_S256x256_S2000x256_1_1_0_0_n_n none (truncf .bf16 v14 bitsLt_bf16_f32) (truncf .bf16 v15 bitsLt_bf16_f32)
            (constant (F := Ideal) S2000x256 .f32 0x00000000#32))
        (broadcastTo S2000x256 (shapeCast S1x256 v19 shapeCasts_S1x256_S1x256) broadcasts_S1x256_S2000x256) (ix2 r e)
      = qrow v14 v15 v19 r e := by
  refine (addf_apply _ _ _).trans ?_
  refine congrArg₂ (· + ·) ?_ ?_
  · exact matmul_qproj_apply _ _ r e
  · rw [shapeCast_self]
    exact broadcastTo_1b_ab_apply v19 _ r e

/-- The logits read at `(r, j)`, from whatever the query matrix is known to be on row `r`. -/
theorem logit_of (Q : FVec Ideal S2000x256 .f32) (v23 : FVec Ideal S1024x256 .bf16) (r : Fin 2000)
    (q : Fin 256 → EReal) (hQ : ∀ e, Q (ix2 r e) = q e) (j : Fin 1024) :
    matmul (F := Ideal) dot_S2000x256_S1024x256_S2000x1024_1_1_0_0_n_n none (truncf .bf16 Q bitsLt_bf16_f32) v23
        (constant (F := Ideal) S2000x1024 .f32 0x00000000#32) (ix2 r j)
      = ∑ e : Fin 256, q e * v23 (ix2 j e) := by
  refine (matmul_logit_apply _ _ r j).trans ?_
  exact Finset.sum_congr rfl fun e _ => congrArg (· * v23 (ix2 j e)) (hQ e)

/-- The mixing product of the exponentiated logits read at `(r, c)`, from whatever the logits are known to be on row `r`. -/
theorem mix_of (A : FVec Ideal S2000x1024 .f32) (v28 : FVec Ideal S1024x384 .bf16) (r : Fin 2000)
    (L : Fin 1024 → EReal) (hA : ∀ j, A (ix2 r j) = L j) (c : Fin 384) :
    matmul (F := Ideal) dot_S2000x1024_S1024x384_S2000x384_1_0_0_1_n_n none (truncf .bf16 (exp A) bitsLt_bf16_f32) v28
        (constant (F := Ideal) S2000x384 .f32 0x00000000#32) (ix2 r c)
      = ∑ j : Fin 1024, Ideal.exp (L j) * v28 (ix2 j c) := by
  refine (matmul_mix_apply _ _ r c).trans ?_
  exact Finset.sum_congr rfl fun j _ => congrArg (fun t => Ideal.exp t * v28 (ix2 j c)) (hA j)

/-- The normalization read at `(r, d)`: column `d` of the product times one over its column 256. -/
theorem normalize_apply (O : FVec Ideal S2000x384 .f32) (r : Fin 2000) (d : Fin 256) :
    mulf (extractStridedSlice S2000x256 ![0, 0] O slices_S2000x384_o0_0_S2000x256)
        (broadcastTo S2000x256
          (divf (broadcast S2000x1 (FloatOps.ofBits (F := Ideal) .f32 0x3F800000#32))
            (extractStridedSlice S2000x1 ![0, 256] O slices_S2000x384_o0_256_S2000x1))
          broadcasts_S2000x1_S2000x256) (ix2 r d)
      = O (ix2 r (⟨d.val, by have := d.isLt; omega⟩ : Fin 384))
          * Ideal.div (Ideal.ofBits .f32 0x3F800000#32) (O (ix2 r (⟨256, by decide⟩ : Fin 384))) := by
  refine (mulf_apply _ _ _).trans ?_
  refine congrArg₂ (· * ·) ?_ ?_
  · exact slice2_axis1_apply 0 O _ r d _ (Nat.zero_add _).symm
  · refine (broadcastTo_a1_ab_apply _ _ r d).trans ?_
    refine (divf_apply _ _ _).trans ?_
    refine congrArg₂ Ideal.div rfl ?_
    exact slice2_axis1_apply 256 O _ r (0 : Fin 1) _ rfl

/-! ## The payload at an index -/

/-- The attention payload at `(r, d)`: the exponentiated logits of row `r` mixed through column `d` of the mixing
    buffer, times one over the same mix through column 256. -/
theorem k0_pay14_apply (v14 : Vec Ideal S2000x256 .f32) (v15 : Vec Ideal S256x256 .f32) (v19 : Vec Ideal S1x256 .f32)
    (v23 : Vec Ideal S1024x256 .bf16) (v28 : Vec Ideal S1024x384 .bf16) (r : Fin 2000) (d : Fin 256) :
    k0_pay14 (F := Ideal) v14 v15 v19 v23 v28 (ix2 r d)
      = (∑ j : Fin 1024, Ideal.exp (lg v14 v15 v19 v23 r j) * v28 (ix2 j (⟨d.val, by have := d.isLt; omega⟩ : Fin 384)))
          * Ideal.div (Ideal.ofBits .f32 0x3F800000#32)
              (∑ j : Fin 1024, Ideal.exp (lg v14 v15 v19 v23 r j) * v28 (ix2 j (⟨256, by decide⟩ : Fin 384))) := by
  unfold k0_pay14
  refine (normalize_apply _ r d).trans ?_
  refine congrArg₂ (fun a b => a * Ideal.div (Ideal.ofBits .f32 0x3F800000#32) b) ?_ ?_
  · exact mix_of _ v28 r (lg v14 v15 v19 v23 r)
      (fun j => logit_of _ v23 r (qrow v14 v15 v19 r) (fun e => qrow_eq v14 v15 v19 r e) j) _
  · exact mix_of _ v28 r (lg v14 v15 v19 v23 r)
      (fun j => logit_of _ v23 r (qrow v14 v15 v19 r) (fun e => qrow_eq v14 v15 v19 r e) j) _

end Cert.KernelIdeal.HandValue

end
-- ==== Proof.KI.PiecesAtt.lean ====
import proofs.«127533_g52209622450808_cont_9to1_m_767_25_alg».proof.Proof.KI.Carried
import proofs.«127533_g52209622450808_cont_9to1_m_767_25_alg».proof.Proof.KI.PayAtt
import Idealize.ShloMosaic.Lib.Tactic

/-!
  What the output window's staging buffer holds after a point from the fifth on, entry by entry, at the extended
  reals: for a query row of the point's block of `main` (`x4`), with `Wq` (`x5`), `bq` (`x6`), the mixing buffer
  (`xs3`, whose column 256 is a column of ones) and the key buffer (`xs4`): the exponentials of the row's logits
  weighting the mixing buffer's column, times the reciprocal of the same exponentials weighting the column of ones.
-/

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.ShloMosaic.Tactic
open Idealize.SL Idealize.SL.Sem

/-- Case D of the body leaves in the output window's staging buffer one piece over the whole buffer: the attention
    payload of the point's loads. -/
theorem outD_eq (c : Dev nD) (t : Fin cfg0.N) (h : 4 ≤ t.val) (x4 : Vec Ideal S2000x256 .f32) (x5 : Vec Ideal S256x256 .f32) (x6 : Vec Ideal S1x256 .f32)
    (xs3 : Vec Ideal S1024x384 .bf16) (xs4 : Vec Ideal S1024x256 .bf16) :
    outD (F := Ideal) c t h x4 x5 x6 xs3 xs4 = k0_pay14 (F := Ideal) x4 x5 x6 xs4 xs3 := by
  have hz : (![0, 0] : Fin 2 → ℕ) = fun _ => 0 := by funext a; fin_cases a <;> rfl
  unfold outD
  rw [View.read_writes_eq_canon _ _ _ (coverD7 c t h x4 x5 x6 xs3 xs4)]
  unfold runD kernelRun0_D
  dsimp only
  sl_unfold_words
  rw [View.canon_unit_zero hz]
  simp only [View.readAt_eq_ld, Memref.IsWhole.read_unread, View.ld_unit_zero (S := S2000x256) hz,
    View.ld_unit_zero (S := S256x256) hz, View.ld_unit_zero (S := S1x256) hz, View.ld_unit_zero (S := S1024x256) hz,
    View.ld_unit_zero (S := S1024x384) hz]
  exact congrArg₂ (k0_pay14 (F := Ideal) x4 x5 x6) ((Memref.isWhole_whole cc0_scratch4).read_unread xs4)
    ((Memref.isWhole_whole cc0_scratch3).read_unread xs3)

/-- The output window's staging buffer after a point from the fifth on, at `(r, d)`: the exponentials of the row's
    logits weighting column `d` of the mixing buffer, times one over the same exponentials weighting its column 256. -/
theorem outD_apply (c : Dev nD) (t : Fin cfg0.N) (h : 4 ≤ t.val) (x4 : Vec Ideal S2000x256 .f32) (x5 : Vec Ideal S256x256 .f32) (x6 : Vec Ideal S1x256 .f32)
    (xs3 : Vec Ideal S1024x384 .bf16) (xs4 : Vec Ideal S1024x256 .bf16) (r : Fin 2000) (d : Fin 256) :
    outD (F := Ideal) c t h x4 x5 x6 xs3 xs4 (ix2 r d)
      = (∑ j : Fin 1024, Ideal.exp (∑ e : Fin 256, ((∑ k : Fin 256, x4 (ix2 r k) * x5 (ix2 e k)) + x6 (ix2 0 e)) * xs4 (ix2 j e)) * xs3 (ix2 j (⟨d.val, by omega⟩ : Fin 384)))
        * Ideal.div 1 (∑ j : Fin 1024, Ideal.exp (∑ e : Fin 256, ((∑ k : Fin 256, x4 (ix2 r k) * x5 (ix2 e k)) + x6 (ix2 0 e)) * xs4 (ix2 j e)) * xs3 (ix2 j (⟨256, by omega⟩ : Fin 384))) := by
  refine (congrFun (outD_eq c t h x4 x5 x6 xs3 xs4) (ix2 r d)).trans ?_
  refine (k0_pay14_apply x4 x5 x6 xs4 xs3 r d).trans ?_
  rw [ofBits_one_f32]
  rfl

end Cert.KernelIdeal.HandValue

end
-- ==== Proof.KI.AttStep.lean ====
import proofs.«127533_g52209622450808_cont_9to1_m_767_25_alg».proof.Proof.KI.Data
import proofs.«127533_g52209622450808_cont_9to1_m_767_25_alg».proof.Proof.KI.PiecesAtt
import proofs.«127533_g52209622450808_cont_9to1_m_767_25_alg».proof.Proof.KI.Blocks
import proofs.«127533_g52209622450808_cont_9to1_m_767_25_alg».proof.Proof.Spec

/-!
  One attention point. If before a point from the fifth on the mixing buffer holds the mixed `other` in its first
  256 columns and ones in column 256, and the key buffer holds the key projection scaled by 1/16, then after the
  point the output window's buffer holds the kernel's result for the point's 2000 rows.
-/

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Cert.Hand.Spec

variable (m : (ℓ : Loc nD τ sig) → Buf (Elt Ideal) ℓ)

/-- The algebra of one attention point, over any vectors: if the loaded row of `main`, the query weights and the
    query bias are entries of the argument arrays, the mixing buffer holds the mixed `other` and a column of ones,
    and the key buffer holds the scaled key projection, then the point's closed expression at `(r, d)` is the
    kernel's result at the row of `main` that `r` stands for. -/
theorem att_core (x4 : Vec Ideal S2000x256 .f32) (x5 : Vec Ideal S256x256 .f32) (x6 : Vec Ideal S1x256 .f32)
    (xs3 : Vec Ideal S1024x384 .bf16) (xs4 : Vec Ideal S1024x256 .bf16)
    (A0 : (⟨2, ![10000, 256]⟩ : Shape).Idx → EReal) (A1 : (⟨2, ![1024, 256]⟩ : Shape).Idx → EReal)
    (A2 : (⟨2, ![4096, 1024]⟩ : Shape).Idx → EReal) (A3 : (⟨2, ![256, 256]⟩ : Shape).Idx → EReal)
    (A4 : (⟨1, ![256]⟩ : Shape).Idx → EReal) (A5 : (⟨2, ![256, 256]⟩ : Shape).Idx → EReal)
    (A6 : (⟨1, ![256]⟩ : Shape).Idx → EReal) (r : Fin 2000) (d : Fin 256) (R : Fin 10000)
    (h4 : ∀ k : Fin 256, x4 (ix2 r k) = A0 (ix2 R k)) (h5 : ∀ e k : Fin 256, x5 (ix2 e k) = A3 (ix2 e k))
    (h6 : ∀ e : Fin 256, x6 (ix2 0 e) = A4 (ix1 e))
    (hom : ∀ (i : Fin 1024) (d : Fin 256), xs3 (ix2 i (⟨d.val, by omega⟩ : Fin 384)) = omKer (c2 A1) (c2 A2) i d)
    (hone : ∀ i : Fin 1024, xs3 (ix2 i (⟨256, by omega⟩ : Fin 384)) = (1 : EReal))
    (hkk : ∀ (j : Fin 1024) (e : Fin 256), xs4 (ix2 j e) = kv (c2 A1) (c2 A5) (c1 A6) j e * sixteenth) :
    (∑ j : Fin 1024, Ideal.exp (∑ e : Fin 256, ((∑ k : Fin 256, x4 (ix2 r k) * x5 (ix2 e k)) + x6 (ix2 0 e)) * xs4 (ix2 j e)) * xs3 (ix2 j (⟨d.val, by omega⟩ : Fin 384)))
        * Ideal.div 1 (∑ j : Fin 1024, Ideal.exp (∑ e : Fin 256, ((∑ k : Fin 256, x4 (ix2 r k) * x5 (ix2 e k)) + x6 (ix2 0 e)) * xs4 (ix2 j e)) * xs3 (ix2 j (⟨256, by omega⟩ : Fin 384)))
      = kerArr A0 A1 A2 A3 A4 A5 A6 (ix2 R d) := by
  have hlg : ∀ j : Fin 1024,
      (∑ e : Fin 256, ((∑ k : Fin 256, x4 (ix2 r k) * x5 (ix2 e k)) + x6 (ix2 0 e)) * xs4 (ix2 j e))
        = logitKer (c2 A0) (c2 A1) (c2 A3) (c1 A4) (c2 A5) (c1 A6) R j := fun j => by
    unfold logitKer qv
    refine Finset.sum_congr rfl fun e _ => ?_
    rw [hkk j e, h6 e]
    refine congrArg (fun s => (s + A4 (ix1 e)) * (kv (c2 A1) (c2 A5) (c1 A6) j e * sixteenth)) ?_
    exact Finset.sum_congr rfl fun k _ => by rw [h4 k, h5 e k]; rfl
  show _ = (∑ j : Fin 1024, Ideal.exp (logitKer (c2 A0) (c2 A1) (c2 A3) (c1 A4) (c2 A5) (c1 A6) R j) * omKer (c2 A1) (c2 A2) j d)
      * Ideal.div 1 (∑ j : Fin 1024, Ideal.exp (logitKer (c2 A0) (c2 A1) (c2 A3) (c1 A4) (c2 A5) (c1 A6) R j) * 1)
  refine congrArg₂ (fun a b => a * Ideal.div 1 b) ?_ ?_
  · exact Finset.sum_congr rfl fun j _ => by rw [hlg j, hom j d]
  · exact Finset.sum_congr rfl fun j _ => by rw [hlg j, hone j]

theorem att_step (c : Dev nD) (t : Fin cfg0.N) (ht : 4 ≤ t.val)
    (hom : ∀ (i : Fin 1024) (d : Fin 256), (carriedAt (F := Ideal) m c (t.val - 1) (Nat.lt_of_le_of_lt (Nat.sub_le _ _) t.isLt)).om (ix2 i (⟨d.val, by omega⟩ : Fin 384)) = omKer (c2 (m ((c.tc : Thread nD τ).loc main_arg1))) (c2 (m ((c.tc : Thread nD τ).loc main_arg2))) i d)
    (hone : ∀ i : Fin 1024, (carriedAt (F := Ideal) m c (t.val - 1) (Nat.lt_of_le_of_lt (Nat.sub_le _ _) t.isLt)).om (ix2 i (⟨256, by omega⟩ : Fin 384)) = (1 : EReal))
    (hkk : ∀ (j : Fin 1024) (e : Fin 256), (carriedAt (F := Ideal) m c (t.val - 1) (Nat.lt_of_le_of_lt (Nat.sub_le _ _) t.isLt)).kk (ix2 j e) = kv (c2 (m ((c.tc : Thread nD τ).loc main_arg1))) (c2 (m ((c.tc : Thread nD τ).loc main_arg5))) (c1 (m ((c.tc : Thread nD τ).loc main_arg6))) j e * sixteenth)
    (r : Fin 2000) (d : Fin 256) (hr : 2000 * (t.val - 4) + r.val < 10000) :
    (carriedAt (F := Ideal) m c t.val t.isLt).out (ix2 r d)
      = kerArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ix2 ⟨2000 * (t.val - 4) + r.val, hr⟩ d) := by
  rw [carriedAt_D m c t ht]
  dsimp only
  refine (outD_apply c t ht (mainBlk m c t) (wqBlk m c t) (bqBlk m c t) (carriedAt (F := Ideal) m c (t.val - 1) (Nat.lt_of_le_of_lt (Nat.sub_le _ _) t.isLt)).om (carriedAt (F := Ideal) m c (t.val - 1) (Nat.lt_of_le_of_lt (Nat.sub_le _ _) t.isLt)).kk r d).trans ?_
  exact att_core (mainBlk m c t) (wqBlk m c t) (bqBlk m c t) (carriedAt (F := Ideal) m c (t.val - 1) (Nat.lt_of_le_of_lt (Nat.sub_le _ _) t.isLt)).om (carriedAt (F := Ideal) m c (t.val - 1) (Nat.lt_of_le_of_lt (Nat.sub_le _ _) t.isLt)).kk
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
    r d ⟨2000 * (t.val - 4) + r.val, hr⟩ (fun k => blk4 m c t ht r k) (fun e k => blk5 m c t e k) (fun e => blk6 m c t e)
    hom hone hkk

end Cert.KernelIdeal.HandValue

end
-- ==== Proof.KI.KerValue.lean ====
import proofs.«127533_g52209622450808_cont_9to1_m_767_25_alg».proof.Proof.KI.Data
import proofs.«127533_g52209622450808_cont_9to1_m_767_25_alg».proof.Proof.KI.GramStep
import proofs.«127533_g52209622450808_cont_9to1_m_767_25_alg».proof.Proof.KI.PreStep
import proofs.«127533_g52209622450808_cont_9to1_m_767_25_alg».proof.Proof.KI.AttStep
import proofs.«127533_g52209622450808_cont_9to1_m_767_25_alg».proof.Proof.KI.Blocks
import proofs.«127533_g52209622450808_cont_9to1_m_767_25_alg».proof.Proof.KerSpec

/-!
  What the carried buffers hold after each point, as functions of the argument arrays, at the extended reals.
  After point `n ≤ 3` each Gram quadrant holds the sum of the first `n + 1` chunks' products, so after point 3 the
  quadrants of `fixᵀ fix`; the fourth point then leaves the mixed `other` beside ones in the mixing buffer and the
  scaled key projection in the key buffer; later points change neither; and the output window's buffer after point
  `t ≥ 4` holds the kernel's result for rows `2000 (t - 4)` to `2000 (t - 4) + 1999`.
-/

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Cert.Hand.Spec (lo hi)

variable (m : (ℓ : Loc nD τ sig) → Buf (Elt Ideal) ℓ)

/-- From the fourth point on nothing writes the mixing buffer or the key buffer: after every later point they hold
    what the fourth point left (a later point's update of the carried record touches the output buffer only). -/
theorem late_const (c : Dev nD) (h3' : 3 < cfg0.N) (n : ℕ) (h3 : 3 ≤ n) : ∀ hn : n < cfg0.N,
    (carriedAt (F := Ideal) m c n hn).om = (carriedAt (F := Ideal) m c 3 h3').om
      ∧ (carriedAt (F := Ideal) m c n hn).kk = (carriedAt (F := Ideal) m c 3 h3').kk := by
  induction n, h3 using Nat.le_induction with
  | base => exact fun _ => ⟨rfl, rfl⟩
  | succ n h3 ih =>
    intro hn
    have e := carriedAt_D m c ⟨n + 1, hn⟩ (show 4 ≤ n + 1 by omega)
    have ih' := ih (Nat.lt_of_succ_lt hn)
    exact ⟨(congrArg Carried.om e).trans ih'.1, (congrArg Carried.kk e).trans ih'.2⟩

/-- After a point from the fifth on the output window's buffer holds the kernel's result for the point's 2000 rows:
    the fourth point's quadrants give its mixing and key buffers, later points leave those alone, and the point's
    attention on them is the result. -/
theorem carried_out (c : Dev nD) (t : Fin cfg0.N) (ht : 4 ≤ t.val) (r : Fin 2000) (d : Fin 256) (hr : 2000 * (t.val - 4) + r.val < 10000) :
    (carriedAt (F := Ideal) m c t.val t.isLt).out (ix2 r d)
      = Cert.Hand.Spec.kerArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ix2 ⟨2000 * (t.val - 4) + r.val, hr⟩ d) := by
  have h3' : 3 < cfg0.N := by have := t.isLt; omega
  obtain ⟨hom3, hone3, hkk3⟩ := pre_step m c ⟨3, h3'⟩ rfl
    (fun p q => (gram_at3 m c ⟨3, h3'⟩ rfl p q).1) (fun p q => (gram_at3 m c ⟨3, h3'⟩ rfl p q).2.1)
    (fun p q => (gram_at3 m c ⟨3, h3'⟩ rfl p q).2.2)
  have hl := late_const m c h3' (t.val - 1) (by omega) (Nat.lt_of_le_of_lt (Nat.sub_le _ _) t.isLt)
  exact att_step m c t ht (fun i d => (congrFun hl.1 _).trans (hom3 i d)) (fun i => (congrFun hl.1 _).trans (hone3 i))
    (fun j e => (congrFun hl.2 _).trans (hkk3 j e)) r d hr

end Cert.KernelIdeal.HandValue

end
-- ==== Proof.KI.KerRun.lean ====
import proofs.«127533_g52209622450808_cont_9to1_m_767_25_alg».proof.Proof.KI.Body
import proofs.«127533_g52209622450808_cont_9to1_m_767_25_alg».proof.Proof.KI.OutFinal
import proofs.«127533_g52209622450808_cont_9to1_m_767_25_alg».proof.Proof.KI.KerValue
import proofs.«127533_g52209622450808_cont_9to1_m_767_25_alg».proof.Proof.Spec

/-!
  The idealized kernel's run, read at the extended reals: every execution terminates, the result array ends as
  the specification's kernel-side function of the seven argument arrays, and the arguments end unchanged.

  The frame run leaves every staged array at what the pipeline's proof data computes. The output window's array is
  the whole-array function whose blocks the body leaves at the points that write back; each staged argument is an
  input window's array, unchanged; the two biases are read by the host's reshapes only, and no window stages them.
-/

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

theorem ker_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2)
          = Cert.Hand.Spec.kerArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).1 7).trans (out_final m c _ (fun t ht r d hr => carried_out m c t ht r d hr)),
      ((h c).1 4).trans (((dats m 0 c).arrAt_in 4 rfl _).trans ((A_eq m c 4).trans (V_main_arg0 m c))),
      ((h c).1 1).trans (((dats m 0 c).arrAt_in 1 rfl _).trans ((A_eq m c 1).trans (V_main_arg1 m c))),
      ((h c).1 0).trans (((dats m 0 c).arrAt_in 0 rfl _).trans ((A_eq m c 0).trans (V_main_arg2 m c))),
      ((h c).1 5).trans (((dats m 0 c).arrAt_in 5 rfl _).trans ((A_eq m c 5).trans (V_main_arg3 m c))),
      ((h c).2 main_arg4 (Pipeline.mem_restRefs_of main_arg4 (by decide) (by decide))).trans (V_main_arg4 m c),
      ((h c).1 2).trans (((dats m 0 c).arrAt_in 2 rfl _).trans ((A_eq m c 2).trans (V_main_arg5 m c))),
      ((h c).2 main_arg6 (Pipeline.mem_restRefs_of main_arg6 (by decide) (by decide))).trans (V_main_arg6 m c)⟩)
    (run_main (F := Ideal) m ρ)

end Cert.KernelIdeal.HandValue

end
-- ==== Proof.Assemble.lean ====
import proofs.«127533_g52209622450808_cont_9to1_m_767_25_alg».proof.Defs
import proofs.«127533_g52209622450808_cont_9to1_m_767_25_alg».proof.Proof.Gen.KernelIdeal
import proofs.«127533_g52209622450808_cont_9to1_m_767_25_alg».proof.Proof.Gen.ReferenceIdeal
import proofs.«127533_g52209622450808_cont_9to1_m_767_25_alg».proof.Proof.Gen.ReferenceIdeal.Run
import proofs.«127533_g52209622450808_cont_9to1_m_767_25_alg».proof.Proof.Gen.ReferenceIdeal.Read
import proofs.«127533_g52209622450808_cont_9to1_m_767_25_alg».proof.Proof.Gen.Pre_finite_inputs
import proofs.«127533_g52209622450808_cont_9to1_m_767_25_alg».proof.Proof.Spec
import proofs.«127533_g52209622450808_cont_9to1_m_767_25_alg».proof.Proof.Algebra
import proofs.«127533_g52209622450808_cont_9to1_m_767_25_alg».proof.Proof.PreDecode
import proofs.«127533_g52209622450808_cont_9to1_m_767_25_alg».proof.Proof.RefValue
import proofs.«127533_g52209622450808_cont_9to1_m_767_25_alg».proof.Proof.KI.Body
import proofs.«127533_g52209622450808_cont_9to1_m_767_25_alg».proof.Proof.KI.KerRun

/-!
  The claims about the idealized kernel and the idealized reference, assembled.

  The two programs' results are the specification's two functions of the seven argument arrays: the kernel's run
  leaves `kerArr`, the reference's leaves `refArr` with the row maximum of the logits as its softmax shift. The
  precondition makes every argument entry a real and every column sum of `√(fixᵀ fix)` nonzero, so the row maximum
  is a real and the two functions agree coordinate by coordinate.
-/

set_option maxRecDepth 16384

noncomputable section

namespace Cert.Hand.Assemble

open Idealize.ShloMosaic Idealize.SL.Sem

/-- The idealized kernel runs and leaves its arguments unchanged. -/
theorem frame_KernelIdeal : Cert.frame_KernelIdeal (hKernelIdeal := Cert.KernelIdeal.Gen.facts)
    (hPre_finite_inputs := Cert.Pre_finite_inputs.Gen.facts) :=
  fun m ρ _ => Cert.KernelIdeal.Hand.frame (F := Ideal) m ρ

/-- The idealized reference runs and leaves its arguments unchanged. -/
theorem frame_ReferenceIdeal : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments the two programs end with equal results and unchanged arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Hand.Spec.kerArr
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6)),
    Cert.KernelIdeal.HandValue.ker_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.Hand.RefValue.ref_result]
  rw [(hagree c).1, (hagree c).2.1, (hagree c).2.2.1, (hagree c).2.2.2.1, (hagree c).2.2.2.2.1, (hagree c).2.2.2.2.2.1,
    (hagree c).2.2.2.2.2.2]
  obtain ⟨h0, h1, h2, h3, h4, h5, h6, hcs⟩ := Cert.Hand.PreDecode.decode _ _ _ _ _ _ _ (hpre c)
  funext i
  exact (Cert.Hand.Spec.outKer_eq_outRef _ _ _ _ _ _ _ (fun r k => h0 _) (fun j k => h1 _) (fun e k => h3 _) (fun e => h4 _)
    (fun e k => h5 _) (fun e => h6 _) hcs _ (Cert.Hand.RefValue.rowMax_real _ _ _ _ _ _ h0 h1 h3 h4 h5 h6) (i 0) (i 1)).symm

end Cert.Hand.Assemble

end
-- ==== Proof.lean ====
/-
  The certificate of the fused attention kernel against its reference: both frames of the kernel (at the word
  level and at the extended reals), the reference's frame, and the equality of the two results over the extended
  reals.

  THE TWO PROGRAMS. For query rows `main` [10000 x 256], key rows `other` [1024 x 256], `fix` [4096 x 1024] and the
  two projections `(Wq, bq)`, `(Wk, bk)`, both compute `O = softmax(Q Kᵀ / 16) · (normalize(√(fixᵀ fix)) · other)` with
  `Q = main Wqᵀ + bq`, `K = other Wkᵀ + bk`, where `normalize` divides each column of the entrywise square root of
  the Gram matrix by that column's sum. The reference does this with whole-array operations. The kernel is one
  pipelined call over nine grid points: points 0 to 3 accumulate three 512 x 512 quadrants of the Gram matrix over
  four chunks of 1024 rows of `fix` (the fourth quadrant is the transpose of one of them); point 3 also takes the square
  roots and the column sums, divides the ROWS of `other` by the column sums instead of the columns of the root matrix,
  and leaves the mixed `other` beside a block of ones, and the keys scaled by 1/16, in two scratch buffers; points 4
  to 8 each compute 2000 rows: the exponentials of the logits (no shift by the row maximum) times the mixing buffer,
  whose column of ones yields the exponentials' sum, then the weighted sums times the reciprocal of that sum.

  WHY THEY AGREE, AND WHERE. Over the extended reals a change of float format is the identity and sums re-associate.
  `(a / c) · o = a · (o / c)` for every nonzero `c` by commutativity and associativity alone, also when the square
  root of a negative Gram entry reads as the junk value `⊥` (the column's sum is then `⊥` and both sides are `0`). The
  logits are real, so subtracting the row maximum multiplies every exponential and their sum by the same positive
  real, and a nonnegative real factor moves across a finite sum of extended reals. The one place they differ is a
  column sum equal to zero, where the reference divides zero by zero; the precondition therefore carries, beside the
  finiteness of every input, the reference's own divisor being nonzero.

  THE FRAMES. The kernel's scratch buffers are carried between grid points; the region invariant before a point owns
  the three quadrant buffers at what the point before left and the two late buffers at some contents, which are what
  the fourth point left from the fifth point on. The body is run once per control case (first point; second and
  third; fourth; fifth to ninth), and the output window is idle before the fifth point. The same text serves the
  word-level program and its idealization.
-/
import proofs.«127533_g52209622450808_cont_9to1_m_767_25_alg».proof.Defs
import proofs.«127533_g52209622450808_cont_9to1_m_767_25_alg».proof.Proof.Gen.Kernel
import proofs.«127533_g52209622450808_cont_9to1_m_767_25_alg».proof.Proof.Gen.KernelIdeal
import proofs.«127533_g52209622450808_cont_9to1_m_767_25_alg».proof.Proof.Gen.ReferenceIdeal
import proofs.«127533_g52209622450808_cont_9to1_m_767_25_alg».proof.Proof.Gen.Pre_finite_inputs
import proofs.«127533_g52209622450808_cont_9to1_m_767_25_alg».proof.Proof.K.Body
import proofs.«127533_g52209622450808_cont_9to1_m_767_25_alg».proof.Proof.Assemble
import Idealize.ShloMosaic.Adequacy
import Idealize.ShloMosaic.Init

noncomputable section

namespace Cert.Proof

open Idealize.ShloMosaic Idealize.SL.Sem

/-- The word-level kernel runs and leaves its arguments unchanged: the frame run of the nine-point pipeline at the
    bit-exact instance. -/
theorem frame_Kernel : Cert.frame_Kernel (hKernel := Cert.Kernel.Gen.facts) (hPre_finite_inputs := Cert.Pre_finite_inputs.Gen.facts) :=
  fun m ρ _ => Cert.Kernel.Hand.frame (F := Bits) m ρ

theorem claim : Cert.Claim := ⟨Cert.Kernel.Gen.facts, Cert.KernelIdeal.Gen.facts, Cert.ReferenceIdeal.Gen.facts, Cert.Pre_finite_inputs.Gen.facts,
  frame_Kernel, Cert.Hand.Assemble.frame_KernelIdeal, Cert.Hand.Assemble.frame_ReferenceIdeal, Cert.Hand.Assemble.preserves,
  Cert.Hand.Assemble.algebraic⟩

end Cert.Proof

end
